-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S64x64 : Shape := ⟨2, ![64, 64]⟩
abbrev S64 : Shape := ⟨1, ![64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x16384 .f32) (main_arg1 : FVec F S16384x64 .f32) (main_arg2 : FVec F S64x64 .f32) (main_arg3 : FVec F S64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x16384 : Shape := ⟨2, ![16384, 16384]⟩
abbrev S16384x64 : Shape := ⟨2, ![16384, 64]⟩
abbrev S64x64 : Shape := ⟨2, ![64, 64]⟩
abbrev S64 : Shape := ⟨1, ![64]⟩
abbrev S1x16384 : Shape := ⟨2, ![1, 16384]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S16384x1 : Shape := ⟨2, ![16384, 1]⟩
abbrev S2048x1024 : Shape := ⟨2, ![2048, 1024]⟩
abbrev S2048x64 : Shape := ⟨2, ![2048, 64]⟩
abbrev S2048x1 : Shape := ⟨2, ![2048, 1]⟩
abbrev S1024x64 : Shape := ⟨2, ![1024, 64]⟩
abbrev S1024x1 : Shape := ⟨2, ![1024, 1]⟩
abbrev S1x64 : Shape := ⟨2, ![1, 64]⟩

abbrev nBuf : Space → Nat
  | .hbm => 13
  | .vmem => 19
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S64, .f32⟩
  | .hbm, ⟨4, _⟩ => ⟨S1x16384, .f32⟩
  | .hbm, ⟨5, _⟩ => ⟨S_, .f32⟩
  | .hbm, ⟨6, _⟩ => ⟨S1x16384, .f32⟩
  | .hbm, ⟨7, _⟩ => ⟨S1x16384, .f32⟩
  | .hbm, ⟨8, _⟩ => ⟨S_, .f32⟩
  | .hbm, ⟨9, _⟩ => ⟨S1x16384, .f32⟩
  | .hbm, ⟨10, _⟩ => ⟨S1x16384, .f32⟩
  | .hbm, ⟨11, _⟩ => ⟨S16384x1, .f32⟩
  | .hbm, ⟨12, _⟩ => ⟨S16384x64, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S1x2048, .f32⟩
  | .local _ .vmem, ⟨4, _⟩ => ⟨S2048x1024, .f32⟩
  | .local _ .vmem, ⟨5, _⟩ => ⟨S2048x1024, .f32⟩
  | .local _ .vmem, ⟨6, _⟩ => ⟨S2048x64, .f32⟩
  | .local _ .vmem, ⟨7, _⟩ => ⟨S2048x64, .f32⟩
  | .local _ .vmem, ⟨8, _⟩ => ⟨S2048x1, .f32⟩
  | .local _ .vmem, ⟨9, _⟩ => ⟨S2048x1, .f32⟩
  | .local _ .vmem, ⟨10, _⟩ => ⟨S1024x64, .f32⟩
  | .local _ .vmem, ⟨11, _⟩ => ⟨S1024x64, .f32⟩
  | .local _ .vmem, ⟨12, _⟩ => ⟨S1024x1, .f32⟩
  | .local _ .vmem, ⟨13, _⟩ => ⟨S1024x1, .f32⟩
  | .local _ .vmem, ⟨14, _⟩ => ⟨S64x64, .f32⟩
  | .local _ .vmem, ⟨15, _⟩ => ⟨S64, .f32⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [0] S2048
  shapeCasts_S2048_S1x2048 : S2048.ShapeCasts S1x2048
  bcast_S_S1x16384 : S_.BroadcastsInDim S1x16384 (![] : Fin 0 → Fin S1x16384.rank)
  shapeCasts_S1x16384_S16384x1 : S1x16384.ShapeCasts S16384x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  dot_S2048x1024_S1024x64_S2048x64_1_0_0_1_n_n_wf : DotDims.WF S2048x1024 S1024x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .f32 = 32 ∨ (Rect.block (s := S16384x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .f32 = 32 ∨ (Rect.block (s := S1x16384) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .f32 = 32 ∨ (Rect.block (s := S16384x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S16384x1.size a
  hwx1_4 : ∀ i : grid1.Coords, EltTy.bits .f32 = 32 ∨ (Rect.block (s := S16384x1) S1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x64.size a ≤ S16384x64.size a
  hwx1_7 : ∀ i : grid1.Coords, EltTy.bits .f32 = 32 ∨ (Rect.block (s := S16384x64) S2048x64.size (cc1_transform_7 i) (hinb1_7 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S2048x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x64 : Shape := ⟨2, ![16384, 64]⟩
abbrev S64x64 : Shape := ⟨2, ![64, 64]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩

abbrev nBuf : Space → Nat
  | .hbm => 27
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64x64, .f32⟩
  | .hbm, ⟨3, _⟩ => ⟨S64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S16384x1, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x1, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S_, .f32⟩
  | .hbm, ⟨25, _⟩ => ⟨S16384x64, .f32⟩
  | .hbm, ⟨26, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S16384x16384_S16384_d0 : S16384x16384.ReducesTo [0] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

class Facts : Prop extends Facts₀ where

variable [Facts]
-- ==== Proof.ColSum.lean ====
/-
  The column-sum kernel's grid is (column block j, row block i), eight of each, the row block moving fastest:
  point t = 8·j + i reads the 2048×2048 tile of A at rows 2048·i …, columns 2048·j …, and keeps ONE 1×2048 row buffer per
  column block, which it clears when i = 0 and to which it adds the tile's column sums at every i. The buffer is written
  back to row 0, columns 2048·j … of the [1, 16384] result after i = 7. What the row buffer holds after point t is
  therefore a recursion over t (`partialSums`): restarted from the zero row at the points t ≡ 0 (mod 8), continued
  from the previous point otherwise. This module states the pipeline's proof data over that recursion, for any float
  instance, and proves the body's obligation at every grid point.
-/
import proofs.«104186_j20401094656620_1_alg».proof.Proof.Gen.KernelIdeal.Launch
import proofs.«104186_j20401094656620_1_alg».proof.Proof.Gen.KernelIdeal.Skeleton
import proofs.«104186_j20401094656620_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.ColSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the column-sum region is entered
variable (V : (c : Dev nD) → (b : Ref sig .tc) → Buf (Elt F) ((c : Thread nD τ).loc b))

/-- The tile of `A` that grid point `t` reads: window 0's block there, off the array as the region finds it. -/
def tile (c : Dev nD) (t : Fin cfg0.N) : ((cfg0.win 0).xblock (cfg0.grid.coords t)).Idx → Elt F (cfg0.win 0).elt :=
  ((cfg0.win 0).blk t).view.read (Elt F) (V c (Pipeline.arrRef spec0 0))

/-- The row buffer after grid point `n`: the zero row plus this tile's column sums where a column block begins
    (n ≡ 0 mod 8), the previous point's row plus this tile's column sums elsewhere. -/
def partialSums (c : Dev nD) : (n : ℕ) → n < cfg0.N → Vec F S1x2048 .f32
  | 0, h => k0_pay2 (k0_pay1 (F := F)) (tile V c ⟨0, h⟩)
  | n + 1, h =>
    if (n + 1) % 8 = 0 then k0_pay2 (k0_pay1 (F := F)) (tile V c ⟨n + 1, h⟩)
    else k0_pay2 (partialSums c n (Nat.lt_of_succ_lt h)) (tile V c ⟨n + 1, h⟩)

theorem partialSums_first (c : Dev nD) (t : Fin cfg0.N) (h : t.val % 8 = 0) :
    partialSums V c t.val t.isLt = k0_pay2 (k0_pay1 (F := F)) (tile V c t) := by
  obtain ⟨n, hn⟩ := t
  cases n with
  | zero => rfl
  | succ n => exact if_pos h

theorem partialSums_later (c : Dev nD) (t : Fin cfg0.N) (h : t.val % 8 ≠ 0) :
    partialSums V c t.val t.isLt
      = k0_pay2 (partialSums V c (t.val - 1) (Nat.lt_of_le_of_lt (Nat.sub_le _ _) t.isLt)) (tile V c t) := by
  obtain ⟨n, hn⟩ := t
  cases n with
  | zero => exact absurd rfl h
  | succ n => exact if_neg h

/-- The proof data of the column-sum pipeline on core `c`: the arrays as the region finds them; after the body the
    input's buffer still at its tile and the output's at the running column sums; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => tile V c t
    | ⟨1, _⟩ => partialSums V c t.val t.isLt
  Φ _ := Pipeline.ΦA spec0 c
  q _ := fullShare
  owed _ := 0

theorem dat_A (c : Dev nD) (w : Fin cfg0.W) : (dat V c).A w = V c (Pipeline.arrRef spec0 w) := by
  dsimp only [dat]
theorem dat_after0 (c : Dev nD) (t : Fin cfg0.N) : (dat V c).after 0 t = tile V c t := by dsimp only [dat]
theorem dat_after1 (c : Dev nD) (t : Fin cfg0.N) : (dat V c).after 1 t = partialSums V c t.val t.isLt := by dsimp only [dat]

end Cert.KernelIdeal.ColSum

end
-- ==== Proof.Aggregate.lean ====
/-
  The aggregation kernel's grid is (row block i, contraction block j), 8 × 16, the contraction block moving fastest:
  point t = 16·i + j multiplies the 2048×1024 tile of A at rows 2048·i …, columns 1024·j … with the 1024×64 tile of
  scaled features (features · d_inv, rows 1024·j …), and adds the product into a 2048×64 scratch it clears at j = 0.
  At j = 15 it closes the row block: adds the row block's own scaled features, scales by d_inv, multiplies by the
  64×64 weight, adds the bias, clamps at zero, and stores the 2048×64 output tile, which the pipeline then writes back
  to rows 2048·i … of the result. What the scratch holds after point t is a recursion over t (`runningProduct`),
  restarted at the points t ≡ 0 (mod 16); the output tile at a closing point is one function of that point's blocks and
  scratch (`closedTile`). The features and d_inv each reach the kernel through TWO windows (row block and contraction
  block), so each of those arrays is held at half shares, one half per window. This module states the pipeline's proof
  data over these, for any float instance, and proves the body's obligation at every grid point.
-/
import proofs.«104186_j20401094656620_1_alg».proof.Proof.Gen.KernelIdeal.Launch
import proofs.«104186_j20401094656620_1_alg».proof.Proof.Gen.KernelIdeal.Skeleton
import proofs.«104186_j20401094656620_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the aggregation region is entered
variable (V : (c : Dev nD) → (b : Ref sig .tc) → Buf (Elt F) ((c : Thread nD τ).loc b))

/-- Window `w`'s block at grid point `t`, off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after grid point `n`: the zero tile plus this point's product where a row block begins (n ≡ 0 mod 16),
    the previous point's scratch plus this point's product elsewhere. -/
def runningProduct (c : Dev nD) : (n : ℕ) → n < cfg1.N → Vec F S2048x64 .f32
  | 0, h => k1_pay2 (blk V c 3 ⟨0, h⟩) (blk V c 4 ⟨0, h⟩) (blk V c 0 ⟨0, h⟩) (k1_pay1 (F := F))
  | n + 1, h =>
    if (n + 1) % 16 = 0 then k1_pay2 (blk V c 3 ⟨n + 1, h⟩) (blk V c 4 ⟨n + 1, h⟩) (blk V c 0 ⟨n + 1, h⟩) (k1_pay1 (F := F))
    else k1_pay2 (blk V c 3 ⟨n + 1, h⟩) (blk V c 4 ⟨n + 1, h⟩) (blk V c 0 ⟨n + 1, h⟩) (runningProduct c n (Nat.lt_of_succ_lt h))

theorem runningProduct_first (c : Dev nD) (t : Fin cfg1.N) (h : t.val % 16 = 0) :
    runningProduct V c t.val t.isLt = k1_pay2 (blk V c 3 t) (blk V c 4 t) (blk V c 0 t) (k1_pay1 (F := F)) := by
  obtain ⟨n, hn⟩ := t
  cases n with
  | zero => rfl
  | succ n => exact if_pos h

theorem runningProduct_later (c : Dev nD) (t : Fin cfg1.N) (h : t.val % 16 ≠ 0) :
    runningProduct V c t.val t.isLt
      = k1_pay2 (blk V c 3 t) (blk V c 4 t) (blk V c 0 t)
          (runningProduct V c (t.val - 1) (Nat.lt_of_le_of_lt (Nat.sub_le _ _) t.isLt)) := by
  obtain ⟨n, hn⟩ := t
  cases n with
  | zero => exact absurd rfl h
  | succ n => exact if_neg h

/-- The output tile a closing point (t ≡ 15 mod 16) stores: the layer's closing arithmetic on that point's row-block
    features and d_inv (read twice), the scratch as this point leaves it, the weight and the bias. -/
def closedTile (c : Dev nD) (t : Fin cfg1.N) : Vec F S2048x64 .f32 :=
  k1_pay3 (blk V c 1 t) (blk V c 2 t) (runningProduct V c t.val t.isLt) (blk V c 2 t) (blk V c 5 t) (blk V c 6 t)

/-- The region's invariant before position `n`: before the first point the scoped rest (the scratch at anything) and
    the generator register; afterwards the scratch at what the point before left, the other scoped buffers unopened,
    the generator register. -/
def inv (c : Dev nD) : (n : ℕ) → n ≤ cfg1.N → sProp 𝕄
  | 0, _ => Pipeline.ΦA spec1 c
  | n + 1, hn => iprop(owns (c : Thread nD τ) (Memref.whole cc1_scratch0) fullShare (runningProduct V c n hn)
      ∗ Pipeline.scopedRestBut (Ix := Unit) (Name := ℕ) (U := UR sig nD τ) (Lvl := ℕ) (Val := Elt F) spec1 c [cc1_scratch0]
      ∗ ∃ r, prngReg c r)

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(owns (c : Thread nD τ) (Memref.whole cc1_scratch0) fullShare (runningProduct V c n hn)
      ∗ Pipeline.scopedRestBut (Ix := Unit) (Name := ℕ) (U := UR sig nD τ) (Lvl := ℕ) (Val := Elt F) spec1 c [cc1_scratch0]
      ∗ ∃ r, prngReg c r) := rfl

theorem inv_pos (c : Dev nD) (n : ℕ) (h : n ≤ cfg1.N) (hz : n ≠ 0) :
    inv V c n h = iprop(owns (c : Thread nD τ) (Memref.whole cc1_scratch0) fullShare (runningProduct V c (n - 1) (by omega))
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

/-- The proof data of the aggregation pipeline on core `c`: the arrays as the region finds them; after the body every
    input's buffer still at its block and the output's at the closed tile; the invariant carrying the scratch; the
    features and d_inv arrays at half shares per window; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => closedTile V c t
  Φ t := inv V c t.val (Nat.le_of_lt_succ t.isLt)
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
    | ⟨7, _⟩ => fullShare
  owed _ := 0

theorem dat_A (c : Dev nD) (w : Fin cfg1.W) : (dat V c).A w = V c (Pipeline.arrRef spec1 w) := by
  dsimp only [dat]
theorem dat_after0 (c : Dev nD) (t : Fin cfg1.N) : (dat V c).after 0 t = blk V c 0 t := by dsimp only [dat]
theorem dat_after1 (c : Dev nD) (t : Fin cfg1.N) : (dat V c).after 1 t = blk V c 1 t := by dsimp only [dat]
theorem dat_after2 (c : Dev nD) (t : Fin cfg1.N) : (dat V c).after 2 t = blk V c 2 t := by dsimp only [dat]
theorem dat_after3 (c : Dev nD) (t : Fin cfg1.N) : (dat V c).after 3 t = blk V c 3 t := by dsimp only [dat]
theorem dat_after4 (c : Dev nD) (t : Fin cfg1.N) : (dat V c).after 4 t = blk V c 4 t := by dsimp only [dat]
theorem dat_after5 (c : Dev nD) (t : Fin cfg1.N) : (dat V c).after 5 t = blk V c 5 t := by dsimp only [dat]
theorem dat_after6 (c : Dev nD) (t : Fin cfg1.N) : (dat V c).after 6 t = blk V c 6 t := by dsimp only [dat]
theorem dat_after7 (c : Dev nD) (t : Fin cfg1.N) : (dat V c).after 7 t = closedTile V c t := by dsimp only [dat]
theorem dat_Φ (c : Dev nD) (t : Fin (cfg1.N + 1)) : (dat V c).Φ t = inv V c t.val (Nat.le_of_lt_succ t.isLt) := by
  dsimp only [dat]

end Cert.KernelIdeal.Aggregate

end
-- ==== Proof.AggregateArrays.lean ====
/-
  The aggregation kernel receives the features through two windows (the row block's tile and the contraction block's
  tile) and the inverse degrees likewise, so two of its input arrays are each behind TWO windows. Entering the region, the
  core's unscoped buffers are dealt to the windows: an array behind one window whole, an array behind two windows as its
  two half shares at the same contents, one half per window; leaving it, the halves are joined again and the result's
  buffer is taken at what the write-backs left, every other buffer as it was.
-/
import proofs.«104186_j20401094656620_1_alg».proof.Proof.Aggregate
import Idealize.ShloMosaic.Lib.Pipeline.Regions

set_option maxRecDepth 16384

noncomputable section

namespace Cert.KernelIdeal.Aggregate

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six distinct buffers behind the eight windows' arrays, listed. -/
theorem arrBufs_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_arg0) ↦{fullShare} U main_arg0) ∗ (((c : Thread nD τ).loc main_arg1) ↦{fullShare} U main_arg1)
          ∗ (((c : Thread nD τ).loc main_v5) ↦{fullShare} U main_v5) ∗ (((c : Thread nD τ).loc main_arg2) ↦{fullShare} U main_arg2)
          ∗ (((c : Thread nD τ).loc main_arg3) ↦{fullShare} U main_arg3) ∗ (((c : Thread nD τ).loc main_v6) ↦{fullShare} U main_v6)) := by
  unfold Pipeline.arrBufs
  exact bigSep_eq_bigSepL_of_eq [main_arg0, main_arg1, main_v5, main_arg2, main_arg3, main_v6] (by decide) (by decide) _

/-- The windows' arrays as the proof data holds them, window by window, at contents `G`. -/
theorem arrays_eq (c : Dev nD) (G : (w : Fin cfg1.W) → Buf (Elt F) ((cfg1.win w).arr.view.loc (c : Thread nD τ))) :
    ((dat V c).arrays G : sProp 𝕄)
      = iprop((((c : Thread nD τ).loc main_arg0) ↦{fullShare} G 0) ∗ (((c : Thread nD τ).loc main_arg1) ↦{fullShare.left} G 1)
          ∗ (((c : Thread nD τ).loc main_v5) ↦{fullShare.left} G 2) ∗ (((c : Thread nD τ).loc main_arg1) ↦{fullShare.right} G 3)
          ∗ (((c : Thread nD τ).loc main_v5) ↦{fullShare.right} G 4) ∗ (((c : Thread nD τ).loc main_arg2) ↦{fullShare} G 5)
          ∗ (((c : Thread nD τ).loc main_arg3) ↦{fullShare} G 6) ∗ (((c : Thread nD τ).loc main_v6) ↦{fullShare} G 7)) := by
  unfold Dat.arrays
  rw [bigSep_W1]
  rw [(arr_whole1 0).set_eq_univ, (arr_whole1 1).set_eq_univ, (arr_whole1 2).set_eq_univ,
    (arr_whole1 5).set_eq_univ, (arr_whole1 6).set_eq_univ, (arr_whole1 7).set_eq_univ]
  rfl

/-- The core's unscoped buffers are the buffers behind the windows' arrays and the rest. -/
theorem bufs_split (c : Dev nD) (U : (b : Ref sig .tc) → Buf (Elt F) ((c : Thread nD τ).loc b)) :
    (unscopedBufs c U : sProp 𝕄)
      = iprop(Pipeline.arrBufs (Ix := Unit) (Name := ℕ) (U := UR sig nD τ) (Lvl := ℕ) spec1 c U
          ∗ Pipeline.unscopedRest (Ix := Unit) (Name := ℕ) (U := UR sig nD τ) (Lvl := ℕ) spec1 c U) :=
  Pipeline.unscopedBufs_split₀ (Pipeline.pin (pcfgs (F := F)) fun p => (cfgs p).toPCfg_adm) 1 winFacts₀1.arr_unscoped c U

/-- An input window's array is never written: at every point it holds the entry contents. -/
theorem arrAt_input (c : Dev nD) (w : Fin cfg1.W) (hw : (cfg1.win w).isOut = false) (n : ℕ) :
    (dat V c).arrAt w n = V c (Pipeline.arrRef spec1 w) :=
  ((dat V c).arrAt_in w hw n).trans (dat_A V c w)

/-- ENTRY. The core's unscoped buffers at the entry contents are the windows' arrays at those contents — the features'
    and the inverse degrees' buffers each split into their two halves — beside the buffers no window reads. -/
theorem arrays_of_bufs (c : Dev nD) :
    (unscopedBufs c (V c) : sProp 𝕄)
      ⊢ iprop((dat V c).arrays ((dat V c).arrAt · 0) ∗ Pipeline.unscopedRest (Ix := Unit) (Name := ℕ) (U := UR sig nD τ) (Lvl := ℕ) spec1 c (V c)) := by
  rw [bufs_split c (V c), arrBufs_eq, arrays_eq]
  rw [arrAt_input V c 0 rfl, arrAt_input V c 1 rfl, arrAt_input V c 2 rfl, arrAt_input V c 3 rfl, arrAt_input V c 4 rfl,
    arrAt_input V c 5 rfl, arrAt_input V c 6 rfl, show (dat V c).arrAt 7 0 = V c (Pipeline.arrRef spec1 7) from dat_A V c 7]
  have e1 : ((((c : Thread nD τ).loc main_arg1) ↦{fullShare} V c main_arg1 : sProp 𝕄))
      ⊢ iprop((((c : Thread nD τ).loc main_arg1) ↦{fullShare.left} V c main_arg1) ∗ (((c : Thread nD τ).loc main_arg1) ↦{fullShare.right} V c main_arg1)) :=
    (pointsTo_share (PosShare.mem_left_op_right fullShare)).1
  have e5 : ((((c : Thread nD τ).loc main_v5) ↦{fullShare} V c main_v5 : sProp 𝕄))
      ⊢ iprop((((c : Thread nD τ).loc main_v5) ↦{fullShare.left} V c main_v5) ∗ (((c : Thread nD τ).loc main_v5) ↦{fullShare.right} V c main_v5)) :=
    (pointsTo_share (PosShare.mem_left_op_right fullShare)).1
  iintro ⟨⟨H0, H1, H5, H2, H3, H6⟩, Hrest⟩
  ihave H1' := e1 $$ H1
  icases H1' with ⟨H1l, H1r⟩
  ihave H5' := e5 $$ H5
  icases H5' with ⟨H5l, H5r⟩
  isplitr [Hrest]
  · isplitl [H0]; · iexact H0
    isplitl [H1l]; · iexact H1l
    isplitl [H5l]; · iexact H5l
    isplitl [H1r]; · iexact H1r
    isplitl [H5r]; · iexact H5r
    isplitl [H2]; · iexact H2
    isplitl [H3]; · iexact H3
    iexact H6
  · iexact Hrest

/-- EXIT. The windows' arrays after the last point — the inputs as entered, the result at what the write-backs left —
    beside the buffers no window reads are the core's unscoped buffers at any contents `V'` that have the result there
    and agree with the entry contents elsewhere: the halves of the features' and the inverse degrees' buffers join. -/
theorem bufs_of_arrays (c : Dev nD) (V' : (b : Ref sig .tc) → Buf (Elt F) ((c : Thread nD τ).loc b))
    (hout : V' main_v6 = (dat V c).arrAt 7 cfg1.N) (hrest : ∀ b : Ref sig .tc, b ≠ main_v6 → V' b = V c b) :
    iprop((dat V c).arrays ((dat V c).arrAt · cfg1.N) ∗ Pipeline.unscopedRest (Ix := Unit) (Name := ℕ) (U := UR sig nD τ) (Lvl := ℕ) spec1 c (V c))
      ⊢ (unscopedBufs c V' : sProp 𝕄) := by
  rw [bufs_split c V', arrBufs_eq, arrays_eq]
  rw [arrAt_input V c 0 rfl, arrAt_input V c 1 rfl, arrAt_input V c 2 rfl, arrAt_input V c 3 rfl, arrAt_input V c 4 rfl,
    arrAt_input V c 5 rfl, arrAt_input V c 6 rfl]
  rw [hrest main_arg0 (by decide), hrest main_arg1 (by decide), hrest main_v5 (by decide), hrest main_arg2 (by decide),
    hrest main_arg3 (by decide), hout]
  have hr : (Pipeline.unscopedRest (Ix := Unit) (Name := ℕ) (U := UR sig nD τ) (Lvl := ℕ) spec1 c V' : sProp 𝕄)
      = Pipeline.unscopedRest (Ix := Unit) (Name := ℕ) (U := UR sig nD τ) (Lvl := ℕ) spec1 c (V c) := by
    unfold Pipeline.unscopedRest
    exact bigSep_congr fun b hb => by
      rw [hrest b fun e => (Finset.mem_sdiff.mp hb).2 (Finset.mem_image.mpr ⟨7, Finset.mem_univ _, e.symm⟩)]
  rw [hr]
  have j1 : iprop((((c : Thread nD τ).loc main_arg1) ↦{fullShare.left} V c main_arg1) ∗ (((c : Thread nD τ).loc main_arg1) ↦{fullShare.right} V c main_arg1))
      ⊢ ((((c : Thread nD τ).loc main_arg1) ↦{fullShare} V c main_arg1 : sProp 𝕄)) :=
    (pointsTo_share (PosShare.mem_left_op_right fullShare)).2
  have j5 : iprop((((c : Thread nD τ).loc main_v5) ↦{fullShare.left} V c main_v5) ∗ (((c : Thread nD τ).loc main_v5) ↦{fullShare.right} V c main_v5))
      ⊢ ((((c : Thread nD τ).loc main_v5) ↦{fullShare} V c main_v5 : sProp 𝕄)) :=
    (pointsTo_share (PosShare.mem_left_op_right fullShare)).2
  iintro ⟨⟨H0, H1l, H5l, H1r, H5r, H2, H3, H6⟩, Hrest⟩
  isplitr [Hrest]
  · isplitl [H0]; · iexact H0
    isplitl [H1l H1r]
    · iapply j1
      isplitl [H1l]; · iexact H1l
      iexact H1r
    isplitl [H5l H5r]
    · iapply j5
      isplitl [H5l]; · iexact H5l
      iexact H5r
    isplitl [H2]; · iexact H2
    isplitl [H3]; · iexact H3
    iexact H6
  · iexact Hrest

end Cert.KernelIdeal.Aggregate

end
-- ==== Proof.Launch.lean ====
/-
  The program is: the column-sum region, seven host operations (add one, divide one by it, reshape the row of inverse
  degrees to a column), the aggregation region. Between two items every unscoped buffer of the core is held whole at a
  known valuation: the launch memory; after the first region the same with the column-sum result at what its write-backs
  left; after the host operations their results added; after the second region the layer's result at what its
  write-backs left. Beside the buffers the core carries its generator register and owes nothing. Each region splits its
  windows' arrays out of the buffers at entry and puts them back at exit. The run ends with every unscoped buffer at the
  last valuation, from which the frame (the arguments are never written) and the result's contents are read.
-/
import proofs.«104186_j20401094656620_1_alg».proof.Proof.ColSum
import proofs.«104186_j20401094656620_1_alg».proof.Proof.Aggregate
import proofs.«104186_j20401094656620_1_alg».proof.Proof.AggregateArrays
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev W0 : Dev nD → Valuation τ sig (Elt F) := fun c b => (s₀ m ρ).mem ((c : Dev nD), b)
/-- The same read at the TensorCore's references: what the column-sum region is entered with. -/
abbrev E0 : (c : Dev nD) → (b : Ref sig .tc) → Buf (Elt F) ((c : Thread nD τ).loc b) := fun c b => W0 m ρ c b

/-- After the column-sum region: its arrays at what the pipeline leaves, every other buffer as launched. -/
def W1 (c : Dev nD) : Valuation τ sig (Elt F) :=
  Pipeline.withArrays spec0 c (W0 m ρ c) fun w => (ColSum.dat (E0 m ρ) c).arrAt w cfg0.N
theorem W1_arr (c : Dev nD) (w : Fin cfg0.W) :
    W1 m ρ c (Proc.devRef .tc (Pipeline.arrRef spec0 w)) = (ColSum.dat (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b

/-- After the host operations: what the aggregation region is entered with. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- After the aggregation region: the result's buffer at what the pipeline leaves, every other buffer as entered. -/
def W3 (c : Dev nD) : Valuation τ sig (Elt F) :=
  Function.update (W2 m ρ c) (Proc.devRef .tc main_v6) ((Aggregate.dat (E2 m ρ) c).arrAt 7 cfg1.N)
theorem W3_out (c : Dev nD) : W3 m ρ c (Proc.devRef .tc main_v6) = (Aggregate.dat (E2 m ρ) c).arrAt 7 cfg1.N := by
  unfold W3; exact Function.update_self _ _ _
theorem W3_of_ne (c : Dev nD) (b : Ref sig .tc) (hb : b ≠ main_v6) :
    W3 m ρ c (Proc.devRef .tc b) = W2 m ρ c (Proc.devRef .tc b) := by
  unfold W3; exact Function.update_of_ne (StableHlo.devRef_ne_of_ne hb) _ _
abbrev E3 : (c : Dev nD) → (b : Ref sig .tc) → Buf (Elt F) ((c : Thread nD τ).loc b) := fun c b => W3 m ρ c b

/-! ## The proof data family and what rides beside the buffers -/

abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => ColSum.dat (E0 m ρ) c
  | ⟨1, _⟩ => fun c => Aggregate.dat (E2 m ρ) c

abbrev 𝒱₀ : Variants := Variants.none
abbrev L : GSem nD τ sig → Finset Unit := fun _ => ∅
abbrev lv : GSem nD τ sig → Unit → ℕ := fun _ _ => 0

/-- The core's generator register at some state, and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as a segment over the unscoped buffers from the contents after the first region. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

/-! ## The column-sum region as a segment -/

section Regions

-- the two bodies' obligations, proved in their own modules and handed in where the program's run is assembled
variable (hbody0 : ∀ c, BodyObligation (ColSum.dat (F := F) (E0 m ρ) c) (defs₀ (F := F)) Variants.none () Set.univ)
variable (hbody1 : ∀ c, BodyObligation (Aggregate.dat (F := F) (E2 m ρ) c) (defs₀ (F := F)) Variants.none () Set.univ)

theorem hF0 (c : Dev nD) (w : Fin cfg0.W) : (ColSum.dat (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

set_option backward.isDefEq.respectTransparency.types false in
/-- The column-sum region: entered from every unscoped buffer at the launch contents, left with them at the contents
    after it. Its two arrays (the adjacency, the row of column sums) are split out of the buffers and put back; the
    generator register goes through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hbody0 c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regions

/-! ## The aggregation region as a segment -/

/-- After the last point the aggregation's invariant gives the scoped rest back, the scratch's contents forgotten. -/
theorem scratch_out (V : (c : Dev nD) → (b : Ref sig .tc) → Buf (Elt F) ((c : Thread nD τ).loc b)) (c : Dev nD) :
    (Aggregate.dat V c).Φ (Fin.last cfg1.N) ⊢ (Pipeline.ΦA spec1 c : sProp 𝕄) := by
  rw [Aggregate.dat_Φ, Aggregate.inv_pos V c _ _ (by rw [Fin.val_last]; have : cfg1.N = 128 := N_1; omega)]
  unfold Pipeline.ΦA
  have hs : (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
    Pipeline.scopedRest_split_of_list spec1 c [cc1_scratch0] (by decide) (by decide)
  rw [hs]
  have hw := Memref.IsWhole.exists_owns_eq (Ix := Unit) (Name := ℕ) (U := UR sig nD τ) (Lvl := ℕ) (Val := Elt F)
    (c := (c : Thread nD τ)) (Memref.isWhole_whole cc1_scratch0) fullShare
  iintro ⟨Hs, Hrest, Hp⟩
  isplitr [Hp]
  · isplitl [Hs]
    · iapply (Entails.of_eq hw)
      iexists _; iexact Hs
    iexact Hrest
  · iexact Hp

section Regions

variable (hbody0 : ∀ c, BodyObligation (ColSum.dat (F := F) (E0 m ρ) c) (defs₀ (F := F)) Variants.none () Set.univ)
variable (hbody1 : ∀ c, BodyObligation (Aggregate.dat (F := F) (E2 m ρ) c) (defs₀ (F := F)) Variants.none () Set.univ)

/-- The last thread state without the core's debts: every unscoped buffer at the last contents, the generator
    register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The aggregation region: entered from every unscoped buffer at the contents after the host operations, left with
    the result's buffer at what the write-backs leave. Its arrays are dealt to the windows (the shared ones by halves)
    and joined back; the generator register and the scoped rest go through the invariant, which carries the scratch;
    nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (hbody1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Aggregate.arrays_of_bufs (E2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from scratch_out (E2 m ρ) c).trans ?_
    unfold Pipeline.ΦA
    iintro ⟨Hr, Hp⟩
    isplitl [Hp]; · iexact Hp
    isplitr; · iempintro
    iexact Hr
  hexit c := by
    have hjoin := Aggregate.bufs_of_arrays (E2 m ρ) c (E3 m ρ c) (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The launch -/

/-- @main's three items in order. -/
abbrev segs : List (Pipeline.Seg (pcfgs (F := F)) adm (pdats m ρ) () defs₀ 𝒱₀ L lv) :=
  [ .region (reg0 m ρ hbody0), .host (hseg m ρ), .region (reg1 m ρ hbody1) ]

theorem main_run (c : Dev nD) : main (F := F) c = Pipeline.Seg.run (segs m ρ hbody0 hbody1) :=
  main_segs adm (pdats m ρ) () 𝒱₀ L lv (hseg m ρ) (reg0 m ρ hbody0) (reg1 m ρ hbody1) rfl c

include hbody0 hbody1 in
set_option backward.isDefEq.respectTransparency.types false in
/-- THE RUN. From any memory with zero counters every weakly fair execution of @main terminates, nothing faulting, and
    in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ hbody0 hbody1)
    (fun c Q => by rw [main_run m ρ hbody0 hbody1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Regions

end Cert.KernelIdeal.Run

end
-- ==== Proof.Ends.lean ====
/-
  What the last boundary's contents are at the buffers the claims speak of. No item of the program writes an argument:
  the column-sum region only reads the adjacency, the host operations write their own seven results, the aggregation
  region writes the result only. So each argument's buffer ends as launched, which is the frame. The result's buffer ends
  at what the aggregation's write-backs left.
-/
import proofs.«104186_j20401094656620_1_alg».proof.Proof.Launch
import proofs.«104186_j20401094656620_1_alg».proof.Proof.Gen.KernelIdeal.Regions

set_option maxRecDepth 16384

noncomputable section

namespace Cert.KernelIdeal.Run

open Idealize.ShloMosaic Idealize.ShloMosaic.TcCoe
open Idealize.SL Idealize.SL.Sem
open Idealize.ShloMosaic.Pipeline (Dat BodyObligation)
open Cert.KernelIdeal

variable {F : FTy → Type} [FloatOps F]

variable (m : (ℓ : Loc nD τ sig) → Buf (Elt F) ℓ) (ρ : Dev nD → PrngReg)

/-- The host operations leave every buffer they do not write as it was. -/
theorem W2_keeps (c : Dev nD) (b : Ref sig .tc) (hb : b ∉ (Gen.hostOps1_W : List (Ref sig .tc))) :
    W2 m ρ c (Proc.devRef .tc b) = W1 m ρ c (Proc.devRef .tc b) :=
  StableHlo.after_of_writes_sub Gen.hostOps1 _ Gen.hostOps1_writes hb

theorem W3_arg0 (c : Dev nD) : W3 m ρ c (Proc.devRef .tc main_arg0) = m ((c : Thread nD τ).loc main_arg0) :=
  (W3_of_ne m ρ c main_arg0 (by decide)).trans <| (W2_keeps m ρ c main_arg0 (by decide)).trans <|
    (W1_arr m ρ c 0).trans <| ((ColSum.dat (E0 m ρ) c).arrAt_in 0 rfl _).trans <| (ColSum.dat_A (E0 m ρ) c 0).trans rfl
theorem W3_arg1 (c : Dev nD) : W3 m ρ c (Proc.devRef .tc main_arg1) = m ((c : Thread nD τ).loc main_arg1) :=
  (W3_of_ne m ρ c main_arg1 (by decide)).trans <| (W2_keeps m ρ c main_arg1 (by decide)).trans <|
    (W1_of_ne m ρ c main_arg1 (by decide)).trans rfl
theorem W3_arg2 (c : Dev nD) : W3 m ρ c (Proc.devRef .tc main_arg2) = m ((c : Thread nD τ).loc main_arg2) :=
  (W3_of_ne m ρ c main_arg2 (by decide)).trans <| (W2_keeps m ρ c main_arg2 (by decide)).trans <|
    (W1_of_ne m ρ c main_arg2 (by decide)).trans rfl
theorem W3_arg3 (c : Dev nD) : W3 m ρ c (Proc.devRef .tc main_arg3) = m ((c : Thread nD τ).loc main_arg3) :=
  (W3_of_ne m ρ c main_arg3 (by decide)).trans <| (W2_keeps m ρ c main_arg3 (by decide)).trans <|
    (W1_of_ne m ρ c main_arg3 (by decide)).trans rfl

/-- What the aggregation region is entered with at the arguments: the launch contents. -/
theorem W2_arg0 (c : Dev nD) : W2 m ρ c (Proc.devRef .tc main_arg0) = m ((c : Thread nD τ).loc main_arg0) :=
  (W2_keeps m ρ c main_arg0 (by decide)).trans <|
    (W1_arr m ρ c 0).trans <| ((ColSum.dat (E0 m ρ) c).arrAt_in 0 rfl _).trans <| (ColSum.dat_A (E0 m ρ) c 0).trans rfl
theorem W2_arg1 (c : Dev nD) : W2 m ρ c (Proc.devRef .tc main_arg1) = m ((c : Thread nD τ).loc main_arg1) :=
  (W2_keeps m ρ c main_arg1 (by decide)).trans <| (W1_of_ne m ρ c main_arg1 (by decide)).trans rfl
theorem W2_arg2 (c : Dev nD) : W2 m ρ c (Proc.devRef .tc main_arg2) = m ((c : Thread nD τ).loc main_arg2) :=
  (W2_keeps m ρ c main_arg2 (by decide)).trans <| (W1_of_ne m ρ c main_arg2 (by decide)).trans rfl
theorem W2_arg3 (c : Dev nD) : W2 m ρ c (Proc.devRef .tc main_arg3) = m ((c : Thread nD τ).loc main_arg3) :=
  (W2_keeps m ρ c main_arg3 (by decide)).trans <| (W1_of_ne m ρ c main_arg3 (by decide)).trans rfl

section

variable (hbody0 : ∀ c, BodyObligation (ColSum.dat (F := F) (E0 m ρ) c) (defs₀ (F := F)) Variants.none () Set.univ)
variable (hbody1 : ∀ c, BodyObligation (Aggregate.dat (F := F) (E2 m ρ) c) (defs₀ (F := F)) Variants.none () Set.univ)

include hbody0 hbody1 in
/-- THE RUN, read at the claims' buffers: the result at what the aggregation's write-backs left, each argument as launched. -/
theorem run_ends : θ_run defs (onTc (τ := τ) (main (F := F))) ⟨m, fun _ => 0, ρ⟩ (fun r => ∀ c : Dev nD,
      r.2.mem ((c.tc : Thread nD τ).loc main_v6) = (Aggregate.dat (E2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (W3_out m ρ c),
     (h c _ (mem_uc main_arg0 (by decide))).trans (W3_arg0 m ρ c),
     (h c _ (mem_uc main_arg1 (by decide))).trans (W3_arg1 m ρ c),
     (h c _ (mem_uc main_arg2 (by decide))).trans (W3_arg2 m ρ c),
     (h c _ (mem_uc main_arg3 (by decide))).trans (W3_arg3 m ρ c)⟩)
    (run_main m ρ hbody0 hbody1)

end

end Cert.KernelIdeal.Run

end
-- ==== Proof.ColSumBody.lean ====
/-
  The column-sum kernel's body at every grid point: from the tile in the input's staging buffer and the row buffer as the point before left it (anything where a column block begins), the body leaves the row buffer at the running column sums.
-/
import proofs.«104186_j20401094656620_1_alg».proof.Proof.ColSum

set_option maxRecDepth 16384

noncomputable section

namespace Cert.KernelIdeal.ColSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ### The rectangle that is all of a shape

Every access of the body goes through the unit-stride rectangle that starts at zero on each axis and has the
buffer's own sizes: all of the buffer's elements, each at its own index. Three facts about such a rectangle, for
any shape and element type, carry the whole body. -/

section Full

variable {s : Shape} {e : EltTy} {Val : EltTy → Type}

/-- It places each of its indices at itself: coordinate `a` of `x` goes to `0 + 1 · x a`. -/
theorem emb_full {off : Fin s.rank → Nat} (h0 : ∀ a, off a = 0) (inb : ∀ a, off a + s.size a ≤ s.size a) (x : s.Idx) :
    (Rect.unit (s := s) off s.size inb).emb x = x := by
  funext a; apply Fin.ext
  rw [Rect.emb_apply]
  show off a + 1 * (x a).val = (x a).val
  rw [h0 a]; omega

/-- So what a buffer reads through it is what the buffer reads whole, -/
theorem read_full (m : Memref sig .tc .vmem s e) {off : Fin s.rank → Nat} (h0 : ∀ a, off a = 0) (inb : ∀ a, off a + s.size a ≤ s.size a)
    (g : m.view.ty.Contents Val) :
    (m.access (Rect.unit (s := s) off s.size inb)).read Val g = m.view.read Val g := by
  funext x
  show _root_.cast _ (g (m.view.emb ((Rect.unit (s := s) off s.size inb).emb x))) = _root_.cast _ (g (m.view.emb x))
  rw [emb_full h0 inb]

/-- and after an unmasked write through it the buffer reads as what was written, whatever it held before. -/
theorem read_write_full (m : Memref sig .tc .vmem s e) {off : Fin s.rank → Nat} (h0 : ∀ a, off a = 0) (inb : ∀ a, off a + s.size a ≤ s.size a)
    (g : m.view.ty.Contents Val) (w : s.Idx → Val e) :
    m.view.read Val ((m.access (Rect.unit (s := s) off s.size inb)).write Val g w Finset.univ) = w := by
  funext y
  conv_lhs => rw [← emb_full h0 inb y]
  rw [View.read_slice_write_emb _ _ _ (Finset.mem_univ _)]

end Full

/-- The offsets the body writes for the row buffer and for the tile, `[0, 0]`, are zero on each axis. -/
theorem zeroRow : ∀ a : Fin S1x2048.rank, (![0, 0] : Fin 2 → Nat) a = 0 := by decide
theorem zeroTile : ∀ a : Fin S2048x2048.rank, (![0, 0] : Fin 2 → Nat) a = 0 := by decide

/-- The rectangles of the body's accesses: all of the 1×2048 row buffer, all of the 2048×2048 tile. -/
abbrev rRow : Rect S1x2048 := Rect.unit (s := S1x2048) ![0, 0] S1x2048.size inb_S1x2048_S1x2048_0_0
abbrev rTile : Rect S2048x2048 := Rect.unit (s := S2048x2048) ![0, 0] S2048x2048.size inb_S2048x2048_S2048x2048_0_0

/-! ### The body's one branch -/

/-- The condition of the body's `scf.if`, as it computes it from the grid coordinates: the row block's number
    (coordinate 1), as a 32-bit word, compared with zero; the comparison's bit widened and tested. -/
abbrev atFirst (i : grid0.Coords) : Prop :=
  Scalar.cmpi .ne (Scalar.extui (Scalar.cmpi .eq (BitVec.ofNat 32 (i 1).val) 0#32)) 0#32 = 1#1

/-- At point `t = 8·j + i` that coordinate is `i = t mod 8`: the branch is taken exactly where a column block
    begins. Decided over the grid's 64 points. -/
theorem atFirst_iff : ∀ t : Fin cfg0.N, atFirst (grid0.coords t) ↔ t.val % 8 = 0 :=
  (by decide +kernel : ∀ t : Fin grid0.N, atFirst (grid0.coords t) ↔ t.val % 8 = 0)

/-! ### The body on any two buffers

Stated for any row block's coordinates, any whole buffer `arg2` holding a tile `x` and any whole buffer `arg3` for
the row, with a continuation `K`: what the body leaves is handed to `K`. -/

/-- Where a column block begins (`i = 0`): the row buffer, whatever it holds, is read (the value unused) and
    overwritten with the zero row; read back it is the zero row; the tile is read; the row buffer is read once more
    (unused) and overwritten with the zero row plus the tile's column sums. The tile's buffer is left as found. -/
theorem run_first (c : Dev nD) (E : Set ℕ) (i : grid0.Coords) (hi : atFirst i)
    (arg2 : Memref sig .tc .vmem S2048x2048 .f32) (harg2 : arg2.IsWhole)
    (arg3 : Memref sig .tc .vmem S1x2048 .f32) (harg3 : arg3.IsWhole)
    (x : Vec F S2048x2048 .f32) (K : PUnit → sProp 𝕄) :
    iprop(owns (c : Thread nD τ) arg2 fullShare x ∗ (∃ d, owns (c : Thread nD τ) arg3 fullShare d))
      ⊢ iprop(((owns (c : Thread nD τ) arg2 fullShare x ∗ owns (c : Thread nD τ) arg3 fullShare (k0_pay2 (k0_pay1 (F := F)) x)) -∗ K ⟨⟩)
          -∗ wp frame (wpE (defs₀ (F := F)) Variants.none c none) E (cc0__colsum_kernel i arg2 harg2 arg3 harg3) K) := by
  simp only [cc0__colsum_kernel_eq_skeleton]; unfold cc0__colsum_kernel_skel
  unfold owns
  iintro ⟨⟨%g, %hg, HX⟩, ⟨%d, %f, -, HR⟩⟩ Hk
  simp only [Prog.lift, Prog.bind_op, Prog.bind_ret, Prog.bind_assoc, Prog.pure_eq_ret, dif_pos hi]
  -- the zeroing: a load whose value is dropped, the store of the zero row
  iapply (wp_load_rect Variants.none (c : Thread nD τ) none E (m := arg3) (r := rRow) (View.set_slice_subset _ _)) $$ HR
  iintro HR
  iapply (wp_store Variants.none (c : Thread nD τ) none E (m := arg3) (r := rRow) (Mk := Finset.univ) (View.set_slice_subset _ _)) $$ HR
  iintro HR
  -- the accumulation: the row, the tile, a load whose value is dropped, the store of the sum
  iapply (wp_load_rect Variants.none (c : Thread nD τ) none E (m := arg3) (r := rRow) (View.set_slice_subset _ _)) $$ HR
  iintro HR
  iapply (wp_load_rect Variants.none (c : Thread nD τ) none E (m := arg2) (r := rTile) (View.set_slice_subset _ _)) $$ HX
  iintro HX
  iapply (wp_load_rect Variants.none (c : Thread nD τ) none E (m := arg3) (r := rRow) (View.set_slice_subset _ _)) $$ HR
  iintro HR
  iapply (wp_store Variants.none (c : Thread nD τ) none E (m := arg3) (r := rRow) (Mk := Finset.univ) (View.set_slice_subset _ _)) $$ HR
  iintro HR
  rw [wp_ret]; imodintro
  iapply Hk
  isplitl [HX]
  · iexists g; isplitr; · ipureintro; exact hg
    iexact HX
  · iexists _; isplitr
    swap; · iexact HR
    ipureintro
    -- the last store is read back; the row it added to is the zero row read back; the tile is `x`
    rw [read_write_full arg3 zeroRow, read_full arg3 zeroRow, read_write_full arg3 zeroRow, read_full arg2 zeroTile, hg]

/-- Inside a column block (`i ≠ 0`) the zeroing is skipped: the row read is what the buffer held, `r`, and the buffer
    is left at `r` plus the tile's column sums. -/
theorem run_later (c : Dev nD) (E : Set ℕ) (i : grid0.Coords) (hi : ¬atFirst i)
    (arg2 : Memref sig .tc .vmem S2048x2048 .f32) (harg2 : arg2.IsWhole)
    (arg3 : Memref sig .tc .vmem S1x2048 .f32) (harg3 : arg3.IsWhole)
    (x : Vec F S2048x2048 .f32) (r : Vec F S1x2048 .f32) (K : PUnit → sProp 𝕄) :
    iprop(owns (c : Thread nD τ) arg2 fullShare x ∗ owns (c : Thread nD τ) arg3 fullShare r)
      ⊢ iprop(((owns (c : Thread nD τ) arg2 fullShare x ∗ owns (c : Thread nD τ) arg3 fullShare (k0_pay2 r x)) -∗ K ⟨⟩)
          -∗ wp frame (wpE (defs₀ (F := F)) Variants.none c none) E (cc0__colsum_kernel i arg2 harg2 arg3 harg3) K) := by
  simp only [cc0__colsum_kernel_eq_skeleton]; unfold cc0__colsum_kernel_skel
  unfold owns
  iintro ⟨⟨%g, %hg, HX⟩, ⟨%f, %hf, HR⟩⟩ Hk
  simp only [Prog.lift, Prog.bind_op, Prog.bind_ret, Prog.bind_assoc, Prog.pure_eq_ret, dif_neg hi]
  iapply (wp_load_rect Variants.none (c : Thread nD τ) none E (m := arg3) (r := rRow) (View.set_slice_subset _ _)) $$ HR
  iintro HR
  iapply (wp_load_rect Variants.none (c : Thread nD τ) none E (m := arg2) (r := rTile) (View.set_slice_subset _ _)) $$ HX
  iintro HX
  iapply (wp_load_rect Variants.none (c : Thread nD τ) none E (m := arg3) (r := rRow) (View.set_slice_subset _ _)) $$ HR
  iintro HR
  iapply (wp_store Variants.none (c : Thread nD τ) none E (m := arg3) (r := rRow) (Mk := Finset.univ) (View.set_slice_subset _ _)) $$ HR
  iintro HR
  rw [wp_ret]; imodintro
  iapply Hk
  isplitl [HX]
  · iexists g; isplitr; · ipureintro; exact hg
    iexact HX
  · iexists _; isplitr
    swap; · iexact HR
    ipureintro
    rw [read_write_full arg3 zeroRow, read_full arg3 zeroRow, read_full arg2 zeroTile, hg, hf]

/-! ### What the two staging buffers hold when the body runs -/

/-- The input's holds the point's tile: the window is fetched at every point, and its blocks lie inside the array, so
    the fetch fills the whole buffer with the array's block there. -/
theorem before_in (c : Dev nD) (t : Fin cfg0.N) (d) : (dat V c).before 0 t d = tile V c t := by
  rw [Dat.before_fetched _ 0 t (fetch0_0 t)]
  unfold Dat.fetched Dat.blockOf tile
  rw [dat_A]
  rfl

/-- Inside a column block (`t mod 8 ≠ 0`, so `t ≠ 0`) the row buffer holds what the point before left, the running
    sums up to `t − 1`: it was not written back in between (a write-back follows the points `≡ 7 mod 8` only, and
    `t − 1 ≡ 7` would make `t ≡ 0`), the window is idle nowhere and its block is cut nowhere. -/
theorem before_out_later (c : Dev nD) (t : Fin cfg0.N) (h : t.val % 8 ≠ 0) (d) :
    (dat V c).before 1 t d = partialSums V c (t.val - 1) (Nat.lt_of_le_of_lt (Nat.sub_le _ _) t.isLt) := by
  rw [Dat.before_out_kept _ 1 rfl t (by omega)
    (Bool.eq_false_iff.mpr fun hf => by have := (flush0_1 _).mp hf; dsimp only at this; omega)
    (fun _ => rfl) (fun _ _ => rfl)]
  dsimp only [dat]

/-! ### The body at a grid point -/

/-- The staging buffers the body is handed at point `t`: the tile's and the row's. -/
abbrev mIn (t : Fin cfg0.N) : Memref sig .tc .vmem S2048x2048 .f32 := win0_0.stage (cfg0.slots t 0)
abbrev mRow (t : Fin cfg0.N) : Memref sig .tc .vmem S1x2048 .f32 := win0_1.stage (cfg0.slots t 1)

/-- The body at any point `t`. The tile's buffer holds `tile t`. Where a column block begins the row buffer holds
    anything — which is all the zeroing asks — and is left at the zero row plus the tile's column sums,
    `partialSums t` there; elsewhere it holds `partialSums (t − 1)` and is left at that plus the tile's column sums,
    `partialSums t` again. The invariant and what the core owes are the same before and after, and pass through
    unread. -/
theorem sound_body (c : Dev nD) (t : Fin cfg0.N) :
    iprop((dat V c).Φ t.castSucc ∗ (dat V c).owesAt () t.castSucc
        ∗ (∃ d, owns (c : Thread nD τ) (mIn t) fullShare ((dat V c).before 0 t d))
        ∗ (∃ d, owns (c : Thread nD τ) (mRow t) fullShare ((dat V c).before 1 t d)))
      ⊢ wp frame (wpE (defs₀ (F := F)) Variants.none c none) Set.univ (bodyAt0 t) (fun _ =>
          iprop((dat V c).Φ t.succ ∗ (dat V c).owesAt () t.succ
            ∗ owns (c : Thread nD τ) (mIn t) fullShare ((dat V c).after 0 t)
            ∗ owns (c : Thread nD τ) (mRow t) fullShare ((dat V c).after 1 t))) := by
  simp only [before_in]
  rw [show (dat V c).Φ t.succ = (dat V c).Φ t.castSucc from rfl,
    show (dat V c).owesAt () t.succ = (dat V c).owesAt () t.castSucc from rfl, dat_after0, dat_after1]
  by_cases h : t.val % 8 = 0
  · rw [partialSums_first V c t h]
    iintro ⟨HΦ, Ho, ⟨%d0, HX⟩, ⟨%d1, HR⟩⟩
    iapply (run_first c Set.univ (grid0.coords t) ((atFirst_iff t).mpr h) _ _ _ _ (tile V c t) _) $$ [HX HR]
    · isplitl [HX]; · iexact HX
      iexists _; iexact HR
    iintro ⟨HX, HR⟩
    isplitl [HΦ]; · iexact HΦ
    isplitl [Ho]; · iexact Ho
    isplitl [HX]; · iexact HX
    iexact HR
  · rw [partialSums_later V c t h]
    simp only [before_out_later V c t h]
    iintro ⟨HΦ, Ho, ⟨%d0, HX⟩, ⟨%d1, HR⟩⟩
    iapply (run_later c Set.univ (grid0.coords t) (fun hc => h ((atFirst_iff t).mp hc)) _ _ _ _ (tile V c t) _ _) $$ [HX HR]
    · isplitl [HX]; · iexact HX
      iexact HR
    iintro ⟨HX, HR⟩
    isplitl [HΦ]; · iexact HΦ
    isplitl [Ho]; · iexact Ho
    isplitl [HX]; · iexact HX
    iexact HR

/-- The body's obligation at every grid point. -/
theorem body_obligation (c : Dev nD) :
    BodyObligation (dat (F := F) V c) (defs₀ (F := F)) Variants.none () Set.univ := fun t => by
  rw [bigSep_W0, bigSep_W0]
  exact sound_body V c t

end Cert.KernelIdeal.ColSum

end
-- ==== Proof.AggregateBody.lean ====
/-
  The aggregation kernel's body at every grid point: from the windows' blocks in their staging buffers and the scratch as the point before left it (anything where a row block begins), the body leaves the scratch at the running product and, at a closing point, the output's buffer at the closed tile.
-/
import proofs.«104186_j20401094656620_1_alg».proof.Proof.Aggregate
import Idealize.ShloMosaic.Lib.Pipeline.Value

set_option maxRecDepth 16384

noncomputable section

namespace Cert.KernelIdeal.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ### Whole-buffer loads and stores

Every access of the kernel is of a whole buffer: the rectangle at offset zero of the buffer's full size. A load
through it of contents reading `X` reads `X`; a store through it leaves its payload, whatever was there. -/

theorem zeros₂ : (![0, 0] : Fin 2 → Nat) = fun _ => 0 := by funext k; fin_cases k <;> rfl
theorem zeros₁ : (![0] : Fin 1 → Nat) = fun _ => 0 := by funext k; fin_cases k; rfl

/-- The whole of a whole buffer, loaded: what the buffer reads. -/
theorem load_all {S : Shape} {e : EltTy} {m : Memref sig .tc .vmem S e} (h : m.IsWhole) {off : Fin S.rank → Nat}
    (hz : off = fun _ => 0) (inb : ∀ k, off k + S.size k ≤ S.size k) (X : S.Idx → Elt F e) :
    View.readAt (Elt F) m.view (Rect.unit off S.size inb).toLoadRect (h.unread X) = X := by
  rw [View.readAt_eq_ld, h.read_unread, View.ld_unit_zero hz]

/-- The whole of a buffer, stored last: the buffer reads the payload, whatever was stored or held before. -/
theorem store_all {S : Shape} {e : EltTy} (v : View sig .tc .vmem S e) (f : v.ty.Contents (Elt F)) {off : Fin S.rank → Nat}
    (hz : off = fun _ => 0) (inb : ∀ k, off k + S.size k ≤ S.size k) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self .., View.mem_set_unit_zero hz inb y⟩),
    View.canon_cons_unit_zero hz]

/-! ### The kernel's two branches

The first branch is taken where the contraction block (grid coordinate 1) is 0, the second where it is 15. -/

/-- The first branch's condition, as the kernel computes it from the contraction block. -/
abbrev atStart (i : grid1.Coords) : Prop :=
  Scalar.cmpi .ne (Scalar.extui (Scalar.cmpi .eq (BitVec.ofNat 32 (i 1).val) 0#32)) 0#32 = 1#1
/-- The second branch's condition. -/
abbrev atClose (i : grid1.Coords) : Prop := k1_cond2 i = 1#1

/-! ### The kernel on any whole buffers, by the path it takes

Stated with a continuation: from the nine buffers at their contents, and a proof that the buffers as the path leaves
them give `K`, the kernel runs to `K`. -/

/-- Contraction block 0: the scratch, whatever it held, is cleared and then takes the first product; the output
    buffer is not touched. -/
theorem run_start (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S64x64 .f32) (harg7 : arg7.IsWhole) (arg8 : Memref sig .tc .vmem S64 .f32) (harg8 : arg8.IsWhole) (arg9 : Memref sig .tc .vmem S2048x64 .f32) (harg9 : arg9.IsWhole) (arg10 : Memref sig .tc .vmem S2048x64 .f32) (harg10 : arg10.IsWhole)
    (h1 : atStart i) (h2 : ¬ atClose i) (a : Vec F S2048x1024 .f32) (fr : Vec F S2048x64 .f32) (dr : Vec F S2048x1 .f32) (fc : Vec F S1024x64 .f32) (dc : Vec F S1024x1 .f32)
    (wt : Vec F S64x64 .f32) (bs : Vec F S64 .f32) (o s : Vec F S2048x64 .f32) (K : PUnit → sProp 𝕄) :
    iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare s
        ∗ (iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare (k1_pay2 fc dc a (k1_pay1 (F := F)))) -∗ K ⟨⟩))
      ⊢ wp frame (wpE (defs₀ (F := F)) Variants.none c none) Set.univ (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, Hk⟩
  obtain rfl := harg2.eq_unread e2; obtain rfl := harg3.eq_unread e3; obtain rfl := harg4.eq_unread e4
  obtain rfl := harg5.eq_unread e5; obtain rfl := harg6.eq_unread e6; obtain rfl := harg7.eq_unread e7
  obtain rfl := harg8.eq_unread e8; obtain rfl := harg9.eq_unread e9; obtain rfl := harg10.eq_unread e10
  sl_exec (disch := first | exact h1 | exact h2)
  sl_step
  iapply Hk
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  isplitl [H6]; · iexists _; isplitr; · ipureintro; exact e6
                  iexact H6
  isplitl [H7]; · iexists _; isplitr; · ipureintro; exact e7
                  iexact H7
  isplitl [H8]; · iexists _; isplitr; · ipureintro; exact e8
                  iexact H8
  isplitl [H9]; · iexists _; isplitr; · ipureintro; exact e9
                  iexact H9
  iexists _; isplitr
  swap; · iexact H10
  ipureintro; sl_unfold_run_names
  rw [store_all _ _ zeros₂, load_all harg5 zeros₂, load_all harg6 zeros₂, load_all harg2 zeros₂, View.readCov_cons_toLoadRect]

/-- Contraction blocks 1 … 14: the scratch takes one more product; the output buffer is not touched. -/
theorem run_mid (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S64x64 .f32) (harg7 : arg7.IsWhole) (arg8 : Memref sig .tc .vmem S64 .f32) (harg8 : arg8.IsWhole) (arg9 : Memref sig .tc .vmem S2048x64 .f32) (harg9 : arg9.IsWhole) (arg10 : Memref sig .tc .vmem S2048x64 .f32) (harg10 : arg10.IsWhole)
    (h1 : ¬ atStart i) (h2 : ¬ atClose i) (a : Vec F S2048x1024 .f32) (fr : Vec F S2048x64 .f32) (dr : Vec F S2048x1 .f32) (fc : Vec F S1024x64 .f32) (dc : Vec F S1024x1 .f32)
    (wt : Vec F S64x64 .f32) (bs : Vec F S64 .f32) (o s : Vec F S2048x64 .f32) (K : PUnit → sProp 𝕄) :
    iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare s
        ∗ (iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare (k1_pay2 fc dc a s)) -∗ K ⟨⟩))
      ⊢ wp frame (wpE (defs₀ (F := F)) Variants.none c none) Set.univ (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, Hk⟩
  obtain rfl := harg2.eq_unread e2; obtain rfl := harg3.eq_unread e3; obtain rfl := harg4.eq_unread e4
  obtain rfl := harg5.eq_unread e5; obtain rfl := harg6.eq_unread e6; obtain rfl := harg7.eq_unread e7
  obtain rfl := harg8.eq_unread e8; obtain rfl := harg9.eq_unread e9; obtain rfl := harg10.eq_unread e10
  sl_exec (disch := first | exact h1 | exact h2)
  sl_step
  iapply Hk
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  isplitl [H6]; · iexists _; isplitr; · ipureintro; exact e6
                  iexact H6
  isplitl [H7]; · iexists _; isplitr; · ipureintro; exact e7
                  iexact H7
  isplitl [H8]; · iexists _; isplitr; · ipureintro; exact e8
                  iexact H8
  isplitl [H9]; · iexists _; isplitr; · ipureintro; exact e9
                  iexact H9
  iexists _; isplitr
  swap; · iexact H10
  ipureintro
  rw [store_all _ _ zeros₂, load_all harg5 zeros₂, load_all harg6 zeros₂, load_all harg2 zeros₂, load_all harg10 zeros₂]

/-- Contraction block 15: the scratch takes the last product, and the output buffer, whatever it held, the closing
    arithmetic on the finished scratch. -/
theorem run_close (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S64x64 .f32) (harg7 : arg7.IsWhole) (arg8 : Memref sig .tc .vmem S64 .f32) (harg8 : arg8.IsWhole) (arg9 : Memref sig .tc .vmem S2048x64 .f32) (harg9 : arg9.IsWhole) (arg10 : Memref sig .tc .vmem S2048x64 .f32) (harg10 : arg10.IsWhole)
    (h1 : ¬ atStart i) (h2 : atClose i) (a : Vec F S2048x1024 .f32) (fr : Vec F S2048x64 .f32) (dr : Vec F S2048x1 .f32) (fc : Vec F S1024x64 .f32) (dc : Vec F S1024x1 .f32)
    (wt : Vec F S64x64 .f32) (bs : Vec F S64 .f32) (o s : Vec F S2048x64 .f32) (K : PUnit → sProp 𝕄) :
    iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare s
        ∗ (iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare (k1_pay3 fr dr (k1_pay2 fc dc a s) dr wt bs) ∗ owns (c : Thread nD τ) arg10 fullShare (k1_pay2 fc dc a s)) -∗ K ⟨⟩))
      ⊢ wp frame (wpE (defs₀ (F := F)) Variants.none c none) Set.univ (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, Hk⟩
  obtain rfl := harg2.eq_unread e2; obtain rfl := harg3.eq_unread e3; obtain rfl := harg4.eq_unread e4
  obtain rfl := harg5.eq_unread e5; obtain rfl := harg6.eq_unread e6; obtain rfl := harg7.eq_unread e7
  obtain rfl := harg8.eq_unread e8; obtain rfl := harg9.eq_unread e9; obtain rfl := harg10.eq_unread e10
  sl_exec (disch := first | exact h1 | exact h2)
  sl_step
  iapply Hk
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  isplitl [H6]; · iexists _; isplitr; · ipureintro; exact e6
                  iexact H6
  isplitl [H7]; · iexists _; isplitr; · ipureintro; exact e7
                  iexact H7
  isplitl [H8]; · iexists _; isplitr; · ipureintro; exact e8
                  iexact H8
  isplitl [H9]
  · iexists _; isplitr
    swap; · iexact H9
    ipureintro; sl_unfold_run_names
    rw [store_all _ _ zeros₂, load_all harg3 zeros₂, load_all harg4 zeros₂, load_all harg7 zeros₂, load_all harg8 zeros₁,
      View.readCov_cons_toLoadRect, load_all harg5 zeros₂, load_all harg6 zeros₂, load_all harg2 zeros₂, load_all harg10 zeros₂]
  iexists _; isplitr
  swap; · iexact H10
  ipureintro; sl_unfold_run_names
  rw [store_all _ _ zeros₂, load_all harg5 zeros₂, load_all harg6 zeros₂, load_all harg2 zeros₂, load_all harg10 zeros₂]

-- the TensorCore's buffer contents when the aggregation region is entered
variable (V : (c : Dev nD) → (b : Ref sig .tc) → Buf (Elt F) ((c : Thread nD τ).loc b))

/-! ### Which points take which path, and where the output window is idle

Point `t` is at contraction block `t % 16`. -/

theorem atStart_iff : ∀ t : Fin cfg1.N, atStart (cfg1.grid.coords t) ↔ t.val % 16 = 0 :=
  (by decide +kernel : ∀ t : Fin grid1.N, atStart (grid1.coords t) ↔ t.val % 16 = 0)

theorem atClose_iff : ∀ t : Fin cfg1.N, atClose (cfg1.grid.coords t) ↔ t.val % 16 = 15 :=
  (by decide +kernel : ∀ t : Fin grid1.N, atClose (grid1.coords t) ↔ t.val % 16 = 15)

/-- Off the last contraction block the output window is idle, -/
theorem out_idle {i : grid1.Coords} (h : ¬ atClose i) : cfg1.idle 7 i = true := by
  have hb : (k1_cond2 i == 1#1) = false := beq_eq_false_iff_ne.mpr h
  show (!(k1_cond2 i == 1#1)) = true
  rw [hb]; rfl

/-- at it, live; -/
theorem out_live {i : grid1.Coords} (h : atClose i) : cfg1.idle 7 i = false := by
  have hb : (k1_cond2 i == 1#1) = true := beq_iff_eq.mpr h
  show (!(k1_cond2 i == 1#1)) = false
  rw [hb]; rfl

/-- and off it the output's block is not written back. -/
theorem out_kept (t : Fin cfg1.N) (h : t.val % 16 ≠ 15) : (cfg1.win 7).flush t = false := by
  cases hf : (cfg1.win 7).flush t with
  | false => rfl
  | true => exact absurd ((flush1_7 t).mp hf) h

/-! ### The input windows hold their blocks, and the body leaves them there

The seven input windows are uncut and never idle, and the body stores into none of them: whether or not the point
fetches, the window's buffer holds the block of the window's array at the point. -/

theorem blockOf_eq (c : Dev nD) (w : Fin cfg1.W) (t : Fin cfg1.N) : (dat V c).blockOf w t = blk V c w t := by
  unfold Dat.blockOf blk; rw [dat_A]

theorem found0 (c : Dev nD) (t : Fin cfg1.N) (d) : (dat V c).before 0 t d = blk V c 0 t := by
  rw [(dat V c).before_in_eq_fetched 0 rfl (fun _ => rfl) (fun _ _ _ => rfl) (fun t => by rw [dat_after0, blockOf_eq]) t d]
  unfold Dat.fetched; rw [blockOf_eq]; rfl
theorem found1 (c : Dev nD) (t : Fin cfg1.N) (d) : (dat V c).before 1 t d = blk V c 1 t := by
  rw [(dat V c).before_in_eq_fetched 1 rfl (fun _ => rfl) (fun _ _ _ => rfl) (fun t => by rw [dat_after1, blockOf_eq]) t d]
  unfold Dat.fetched; rw [blockOf_eq]; rfl
theorem found2 (c : Dev nD) (t : Fin cfg1.N) (d) : (dat V c).before 2 t d = blk V c 2 t := by
  rw [(dat V c).before_in_eq_fetched 2 rfl (fun _ => rfl) (fun _ _ _ => rfl) (fun t => by rw [dat_after2, blockOf_eq]) t d]
  unfold Dat.fetched; rw [blockOf_eq]; rfl
theorem found3 (c : Dev nD) (t : Fin cfg1.N) (d) : (dat V c).before 3 t d = blk V c 3 t := by
  rw [(dat V c).before_in_eq_fetched 3 rfl (fun _ => rfl) (fun _ _ _ => rfl) (fun t => by rw [dat_after3, blockOf_eq]) t d]
  unfold Dat.fetched; rw [blockOf_eq]; rfl
theorem found4 (c : Dev nD) (t : Fin cfg1.N) (d) : (dat V c).before 4 t d = blk V c 4 t := by
  rw [(dat V c).before_in_eq_fetched 4 rfl (fun _ => rfl) (fun _ _ _ => rfl) (fun t => by rw [dat_after4, blockOf_eq]) t d]
  unfold Dat.fetched; rw [blockOf_eq]; rfl
theorem found5 (c : Dev nD) (t : Fin cfg1.N) (d) : (dat V c).before 5 t d = blk V c 5 t := by
  rw [(dat V c).before_in_eq_fetched 5 rfl (fun _ => rfl) (fun _ _ _ => rfl) (fun t => by rw [dat_after5, blockOf_eq]) t d]
  unfold Dat.fetched; rw [blockOf_eq]; rfl
theorem found6 (c : Dev nD) (t : Fin cfg1.N) (d) : (dat V c).before 6 t d = blk V c 6 t := by
  rw [(dat V c).before_in_eq_fetched 6 rfl (fun _ => rfl) (fun _ _ _ => rfl) (fun t => by rw [dat_after6, blockOf_eq]) t d]
  unfold Dat.fetched; rw [blockOf_eq]; rfl

theorem left0 (c : Dev nD) (t : Fin cfg1.N) :
    (dat V c).leavesExact 0 t = owns (c : Thread nD τ) (st1_0 t) fullShare (blk V c 0 t) := by
  unfold Dat.leavesExact; rw [dat_after0]
theorem left1 (c : Dev nD) (t : Fin cfg1.N) :
    (dat V c).leavesExact 1 t = owns (c : Thread nD τ) (st1_1 t) fullShare (blk V c 1 t) := by
  unfold Dat.leavesExact; rw [dat_after1]
theorem left2 (c : Dev nD) (t : Fin cfg1.N) :
    (dat V c).leavesExact 2 t = owns (c : Thread nD τ) (st1_2 t) fullShare (blk V c 2 t) := by
  unfold Dat.leavesExact; rw [dat_after2]
theorem left3 (c : Dev nD) (t : Fin cfg1.N) :
    (dat V c).leavesExact 3 t = owns (c : Thread nD τ) (st1_3 t) fullShare (blk V c 3 t) := by
  unfold Dat.leavesExact; rw [dat_after3]
theorem left4 (c : Dev nD) (t : Fin cfg1.N) :
    (dat V c).leavesExact 4 t = owns (c : Thread nD τ) (st1_4 t) fullShare (blk V c 4 t) := by
  unfold Dat.leavesExact; rw [dat_after4]
theorem left5 (c : Dev nD) (t : Fin cfg1.N) :
    (dat V c).leavesExact 5 t = owns (c : Thread nD τ) (st1_5 t) fullShare (blk V c 5 t) := by
  unfold Dat.leavesExact; rw [dat_after5]
theorem left6 (c : Dev nD) (t : Fin cfg1.N) :
    (dat V c).leavesExact 6 t = owns (c : Thread nD τ) (st1_6 t) fullShare (blk V c 6 t) := by
  unfold Dat.leavesExact; rw [dat_after6]

/-- At a closing point the output's buffer is left at the closed tile. -/
theorem left7 (c : Dev nD) (t : Fin cfg1.N) (h : atClose (cfg1.grid.coords t)) :
    (dat V c).leavesExact 7 t = owns (c : Thread nD τ) (st1_7 t) fullShare (closedTile V c t) := by
  unfold Dat.leavesExact; rw [out_live h, dat_after7]

/-! ### The invariant around a point -/

/-- After point `t`: the scratch at the running product there. -/
theorem inv_next (c : Dev nD) (t : Fin cfg1.N) :
    (dat V c).Φ t.succ = iprop(owns (c : Thread nD τ) (Memref.whole cc1_scratch0) fullShare (runningProduct V c t.val t.isLt)
      ∗ Pipeline.scopedRestBut (Ix := Unit) (Name := ℕ) (U := UR sig nD τ) (Lvl := ℕ) (Val := Elt F) spec1 c [cc1_scratch0]
      ∗ ∃ r, prngReg c r) := by
  rw [dat_Φ]; exact inv_succ V c t.val t.isLt

/-- Before a point that is not the first: the scratch at the running product of the point before. -/
theorem inv_here (c : Dev nD) (t : Fin cfg1.N) (hz : t.val ≠ 0) :
    (dat V c).Φ t.castSucc = iprop(owns (c : Thread nD τ) (Memref.whole cc1_scratch0) fullShare
        (runningProduct V c (t.val - 1) (Nat.lt_of_le_of_lt (Nat.sub_le _ _) t.isLt))
      ∗ Pipeline.scopedRestBut (Ix := Unit) (Name := ℕ) (U := UR sig nD τ) (Lvl := ℕ) (Val := Elt F) spec1 c [cc1_scratch0]
      ∗ ∃ r, prngReg c r) := by
  rw [dat_Φ]; exact inv_pos V c _ _ hz

/-- The scoped buffers the region is handed, the scratch set apart from the rest. -/
theorem scoped_open (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Before any point, the first included, the invariant holds the scratch at SOME contents beside the rest: at the
    first point the scratch is one of the scoped buffers the region was handed. -/
theorem inv_scratch (c : Dev nD) (t : Fin cfg1.N) :
    (dat V c).Φ t.castSucc ⊢ iprop((∃ s, owns (c : Thread nD τ) (Memref.whole cc1_scratch0) fullShare s)
      ∗ Pipeline.scopedRestBut (Ix := Unit) (Name := ℕ) (U := UR sig nD τ) (Lvl := ℕ) (Val := Elt F) spec1 c [cc1_scratch0]
      ∗ ∃ r, prngReg c r) := by
  by_cases hz : t.val = 0
  · rw [dat_Φ, inv_zero V c t.castSucc.val _ hz]
    unfold Pipeline.ΦA
    rw [scoped_open]
    simp only [owns_whole]
    iintro ⟨⟨Hs, Hrest⟩, Hg⟩
    isplitl [Hs]; · iexact Hs
    isplitl [Hrest]; · iexact Hrest
    iexact Hg
  · rw [inv_here V c t hz]
    iintro ⟨Hs, Hrest, Hg⟩
    isplitl [Hs]; · iexists _; iexact Hs
    isplitl [Hrest]; · iexact Hrest
    iexact Hg

/-! ### The body at a point -/

/-- What the body is handed at point `t`, the windows one by one, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it hands back. -/
def returned (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t ∗ (dat V c).leavesExact 7 t)

/-- The core owes nothing at any point. -/
theorem owes_next (c : Dev nD) (t : Fin cfg1.N) : (dat V c).owesAt () t.succ = (dat V c).owesAt () t.castSucc := rfl

/-- A point that begins a row block: the scratch, whatever the invariant holds it at, ends at the first product of the
    row block; the output's buffer goes back as it came. -/
theorem point_start (c : Dev nD) (t : Fin cfg1.N) (h0 : t.val % 16 = 0) :
    handed V c t ⊢ wp frame (wpE (defs₀ (F := F)) Variants.none c none) Set.univ (bodyAt1 t) (fun _ => returned V c t) := by
  have hS : atStart (cfg1.grid.coords t) := (atStart_iff t).mpr h0
  have hC : ¬ atClose (cfg1.grid.coords t) := fun h => by have := (atClose_iff t).mp h; omega
  unfold handed returned bodyAt1
  rw [Dat.leavesExact_idle (dat V c) 7 t (out_idle hC) (out_kept t (by omega))]
  rw [left0, left1, left2, left3, left4, left5, left6, inv_next, owes_next, runningProduct_first V c t h0]
  simp only [found0, found1, found2, found3, found4, found5, found6]
  refine (sep_mono (inv_scratch V c t) .rfl).trans ?_
  iintro ⟨⟨⟨%s, Hs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_start c (cfg1.grid.coords t) _ _ _ _ _ _ _ _ _ _ _ _ _ _ _ _ _ _ hS hC (blk V c 0 t) (blk V c 1 t) (blk V c 2 t) (blk V c 3 t) (blk V c 4 t) (blk V c 5 t) (blk V c 6 t) ((dat V c).before 7 t d7) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hrest Hg]
  · isplitl [Hs]; · iexact Hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- A point inside a row block: the scratch goes from the running product of the point before to this point's; the
    output's buffer goes back as it came. -/
theorem point_mid (c : Dev nD) (t : Fin cfg1.N) (h0 : t.val % 16 ≠ 0) (h15 : t.val % 16 ≠ 15) :
    handed V c t ⊢ wp frame (wpE (defs₀ (F := F)) Variants.none c none) Set.univ (bodyAt1 t) (fun _ => returned V c t) := by
  have hS : ¬ atStart (cfg1.grid.coords t) := fun h => h0 ((atStart_iff t).mp h)
  have hC : ¬ atClose (cfg1.grid.coords t) := fun h => h15 ((atClose_iff t).mp h)
  have hz : t.val ≠ 0 := fun h => h0 (by rw [h])
  unfold handed returned bodyAt1
  rw [Dat.leavesExact_idle (dat V c) 7 t (out_idle hC) (out_kept t h15)]
  rw [left0, left1, left2, left3, left4, left5, left6, inv_next, owes_next, runningProduct_later V c t h0, inv_here V c t hz]
  simp only [found0, found1, found2, found3, found4, found5, found6]
  iintro ⟨⟨Hs, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_mid c (cfg1.grid.coords t) _ _ _ _ _ _ _ _ _ _ _ _ _ _ _ _ _ _ hS hC (blk V c 0 t) (blk V c 1 t) (blk V c 2 t) (blk V c 3 t) (blk V c 4 t) (blk V c 5 t) (blk V c 6 t) ((dat V c).before 7 t d7) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hrest Hg]
  · isplitl [Hs]; · iexact Hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- A point that closes a row block: the scratch takes the last product, and the output's buffer, whatever it held,
    the closed tile. -/
theorem point_close (c : Dev nD) (t : Fin cfg1.N) (h15 : t.val % 16 = 15) :
    handed V c t ⊢ wp frame (wpE (defs₀ (F := F)) Variants.none c none) Set.univ (bodyAt1 t) (fun _ => returned V c t) := by
  have h0 : t.val % 16 ≠ 0 := by omega
  have hS : ¬ atStart (cfg1.grid.coords t) := fun h => h0 ((atStart_iff t).mp h)
  have hC : atClose (cfg1.grid.coords t) := (atClose_iff t).mpr h15
  have hz : t.val ≠ 0 := fun h => h0 (by rw [h])
  unfold handed returned bodyAt1
  rw [left7 V c t hC]
  unfold closedTile
  rw [left0, left1, left2, left3, left4, left5, left6, inv_next, owes_next, runningProduct_later V c t h0, inv_here V c t hz]
  simp only [found0, found1, found2, found3, found4, found5, found6]
  iintro ⟨⟨Hs, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_close c (cfg1.grid.coords t) _ _ _ _ _ _ _ _ _ _ _ _ _ _ _ _ _ _ hS hC (blk V c 0 t) (blk V c 1 t) (blk V c 2 t) (blk V c 3 t) (blk V c 4 t) (blk V c 5 t) (blk V c 6 t) ((dat V c).before 7 t d7) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hrest Hg]
  · isplitl [Hs]; · iexact Hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point, by the contraction block the point is at. -/
theorem sound_body (c : Dev nD) (t : Fin cfg1.N) : handed V c t ⊢ wp frame (wpE (defs₀ (F := F)) Variants.none c none) Set.univ (bodyAt1 t) (fun _ => returned V c t) := by
  by_cases h0 : t.val % 16 = 0
  · exact point_start V c t h0
  · by_cases h15 : t.val % 16 = 15
    · exact point_close V c t h15
    · exact point_mid V c t h0 h15

/-- The body's obligation at every grid point. -/
theorem body_obligation (c : Dev nD) :
    BodyObligation (dat (F := F) V c) (defs₀ (F := F)) Variants.none () Set.univ := fun t => by
  rw [bigSep_W1, bigSep_W1]
  exact sound_body V c t

end Cert.KernelIdeal.Aggregate

end
-- ==== Proof.Spec.lean ====
/-
  The layer both programs compute, as one function of the four argument arrays on the extended reals.
  With s_j = Σ_i A[i, j] the column sums of the adjacency A and d_j = 1 / (s_j + 1) the inverse degrees of A + I,
  the scaled features are xs[j, k] = X[j, k] · d_j, the aggregation is agg[r, k] = ((Σ_j A[r, j] · xs[j, k]) + xs[r, k]) · d_r
  (that is D⁻¹ (A + I) D⁻¹ X with the diagonal scalings applied to vectors), and the result is
  max ((Σ_k agg[r, k] · W[k, e]) + b[e], 0). The number 1 is kept as the float word both programs print for it.
-/
import Idealize.ShloMosaic.PureOps.Ideal
import Idealize.ShloMosaic.PureOps.Ideal.Laws
import Idealize.ShloMosaic.Lib.ValueIdx

noncomputable section

namespace Cert.Spec

open Idealize.ShloMosaic

/-- The word both programs print for 1.0, read on the extended reals. -/
def one : EReal := Ideal.ofBits .f32 0x3F800000#32

/-- Column sums of the adjacency. -/
def colSum (A : Fin 16384 → Fin 16384 → EReal) (j : Fin 16384) : EReal := ∑ i : Fin 16384, A i j

/-- Inverse degrees of A + I. -/
def invDeg (A : Fin 16384 → Fin 16384 → EReal) (j : Fin 16384) : EReal := Ideal.div one (colSum A j + one)

/-- The layer for given inverse degrees `d`. -/
def layerOf (A : Fin 16384 → Fin 16384 → EReal) (X : Fin 16384 → Fin 64 → EReal) (d : Fin 16384 → EReal)
    (W : Fin 64 → Fin 64 → EReal) (b : Fin 64 → EReal) (r : Fin 16384) (e : Fin 64) : EReal :=
  max ((∑ k : Fin 64, (((∑ j : Fin 16384, A r j * (X j k * d j)) + X r k * d r) * d r) * W k e) + b e) 0

/-- The layer. -/
def layer (A : Fin 16384 → Fin 16384 → EReal) (X : Fin 16384 → Fin 64 → EReal)
    (W : Fin 64 → Fin 64 → EReal) (b : Fin 64 → EReal) (r : Fin 16384) (e : Fin 64) : EReal :=
  layerOf A X (invDeg A) W b r e

end Cert.Spec

end
-- ==== Proof.ColSumValue.lean ====
/-
  What the column-sum region leaves in its [1, 16384] result, on the extended reals: entry (0, j) is the sum over all
  16384 rows i of A[i, j]. The row buffer after point t = 8·J + I holds, at column c, the sum of A over the rows of row
  blocks 0 … I of column block J (induction over the points of one column block; the restart at I = 0 begins from the
  zero row); the write-back after I = 7 puts the full column sums of column block J at columns 2048·J … of the result,
  and the eight column blocks cover the row. A sum over 8 blocks of 2048 rows is the sum over 16384 rows.
-/
import proofs.«104186_j20401094656620_1_alg».proof.Proof.ColSum
import proofs.«104186_j20401094656620_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ColSum

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Value

/-! ## The body's arithmetic at one column -/

/-- The zero row reads 0 at every column. -/
theorem zeroRow_apply (q : Fin 2048) : (k0_pay1 (F := Ideal) : S1x2048.Idx → EReal) (ix2 (0 : Fin 1) q) = 0 :=
  Ideal.ofBits_zero_f32

/-- One step of the body at column q: the row read plus the tile's column sum there. -/
theorem rowStep_apply (v3 : Vec Ideal S1x2048 .f32) (v5 : Vec Ideal S2048x2048 .f32) (q : Fin 2048) :
    (k0_pay2 v3 v5 : S1x2048.Idx → EReal) (ix2 (0 : Fin 1) q)
      = (v3 : S1x2048.Idx → EReal) (ix2 (0 : Fin 1) q) + ∑ p : Fin 2048, (v5 : S2048x2048.Idx → EReal) (ix2 p q) := by
  unfold k0_pay2
  refine (addf_apply _ _ _).trans ?_
  congr 1
  · rw [shapeCast_self]
  · refine (shapeCast_a_1a_apply _ _ 0 q).trans ?_
    refine (Ideal.multiReduction_add_single v5 _ reduces_S2048x2048_S2048 _ _ (ix1 q)).trans ?_
    refine Finset.sum_congr rfl fun p _ => congrArg v5 ?_
    funext a
    match a with
    | ⟨0, _⟩ => rfl
    | ⟨1, _⟩ => rfl

/-! ## The tile of a grid point as entries of the adjacency -/

variable (V : (c : Dev nD) → (b : Ref sig .tc) → Buf (Elt Ideal) ((c : Thread nD τ).loc b))

/-- The adjacency as the region finds it, at its literal type. -/
abbrev adj (c : Dev nD) : S16384x16384.Idx → EReal := V c main_arg0

/-- The two index maps over the grid: point t reads row block t mod 8 and column block t div 8, and writes column
    block t div 8 of the one row. -/
theorem idx_facts : ∀ t : Fin cfg0.N, win0_0.index t (0 : Fin 2) = t.val % 8 ∧ win0_0.index t (1 : Fin 2) = t.val / 8
    ∧ win0_1.index t (0 : Fin 2) = 0 ∧ win0_1.index t (1 : Fin 2) = t.val / 8 :=
  (by decide +kernel : ∀ t : Fin grid0.N, _)

/-- The tile at point t, read at (p, q), is the adjacency at row 2048·(t mod 8) + p, column 2048·(t div 8) + q. -/
theorem tile_apply (c : Dev nD) (t : Fin cfg0.N) (p q : Fin 2048) (k : S16384x16384.Idx)
    (hk0 : (k 0).val = 2048 * (t.val % 8) + p.val) (hk1 : (k 1).val = 2048 * (t.val / 8) + q.val) :
    (tile (F := Ideal) V c t : S2048x2048.Idx → EReal) (ix2 p q) = adj V c k := by
  obtain ⟨e0, e1, -, -⟩ := idx_facts t
  unfold tile
  rw [View.read_apply]
  show V c main_arg0 _ = V c main_arg0 k
  congr 1
  funext a
  apply Fin.ext
  match a with
  | ⟨0, _⟩ => show win0_0.index t (0 : Fin 2) * 2048 + 1 * p.val = (k 0).val; rw [e0, hk0]; omega
  | ⟨1, _⟩ => show win0_0.index t (1 : Fin 2) * 2048 + 1 * q.val = (k 1).val; rw [e1, hk1]; omega

/-! ## The row buffer over the points of one column block -/

/-- The column sums of the tile of point n at column q, as entries of the adjacency; stated for every natural n (row block
    n mod 8, column block n div 8 mod 8), so that sums over points need no bound. -/
def tileSum (c : Dev nD) (n : ℕ) (q : Fin 2048) : EReal :=
  ∑ p : Fin 2048, adj V c (ix2 (⟨2048 * (n % 8) + p.val, by omega⟩ : Fin 16384) (⟨2048 * (n / 8 % 8) + q.val, by omega⟩ : Fin 16384))

/-- One step of the body at point t and column q adds that tile's column sum to the row it found. -/
theorem step_apply (c : Dev nD) (t : Fin cfg0.N) (acc : Vec Ideal S1x2048 .f32) (q : Fin 2048) :
    (k0_pay2 acc (tile (F := Ideal) V c t) : S1x2048.Idx → EReal) (ix2 (0 : Fin 1) q)
      = (acc : S1x2048.Idx → EReal) (ix2 (0 : Fin 1) q) + tileSum V c t.val q := by
  refine (rowStep_apply acc (tile (F := Ideal) V c t) q).trans ?_
  congr 1
  refine Finset.sum_congr rfl fun p _ => tile_apply V c t p q _ rfl ?_
  show 2048 * (t.val / 8 % 8) + q.val = 2048 * (t.val / 8) + q.val
  have ht := t.isLt
  have hN : cfg0.N = 64 := N_0
  omega

/-- The row buffer depends on the point's number only. -/
theorem partialSums_congr (c : Dev nD) (n m : ℕ) (h : n < cfg0.N) (h' : m < cfg0.N) (e : n = m) :
    partialSums (F := Ideal) V c n h = partialSums (F := Ideal) V c m h' := by
  subst e; rfl

/-- After point 8·J + I the row buffer holds, at column q, the tile column sums of the points 8·J … 8·J + I. -/
theorem partialSums_apply (c : Dev nD) (J : ℕ) : ∀ (I : ℕ) (_ : I < 8) (h : 8 * J + I < cfg0.N) (q : Fin 2048),
    (partialSums (F := Ideal) V c (8 * J + I) h : S1x2048.Idx → EReal) (ix2 (0 : Fin 1) q)
      = ∑ s ∈ Finset.range (I + 1), tileSum V c (8 * J + s) q
  | 0, _, h, q => by
    refine (congrFun (partialSums_first (F := Ideal) V c ⟨8 * J + 0, h⟩ (by show (8 * J + 0) % 8 = 0; omega)) _).trans ?_
    rw [step_apply, zeroRow_apply, zero_add, Finset.sum_range_one]
  | I + 1, hI, h, q => by
    refine (congrFun (partialSums_later (F := Ideal) V c ⟨8 * J + (I + 1), h⟩ (by show (8 * J + (I + 1)) % 8 ≠ 0; omega)) _).trans ?_
    rw [step_apply, Finset.sum_range_succ]
    congr 1
    exact (congrFun (partialSums_congr V c _ _ _ (Nat.lt_of_succ_lt h) rfl) _).trans (partialSums_apply c J I (by omega) (Nat.lt_of_succ_lt h) q)

/-- A sum over 16384 rows is the sum over 8 blocks of 2048 rows. -/
theorem sum_rows_blocks {M : Type*} [AddCommMonoid M] (f : Fin 16384 → M) :
    ∑ r : Fin 16384, f r = ∑ s : Fin 8, ∑ p : Fin 2048, f ⟨2048 * s.val + p.val, by omega⟩ := by
  have e := Equiv.sum_comp (finProdFinEquiv (m := 8) (n := 2048)) (f : Fin (8 * 2048) → M)
  rw [Fintype.sum_prod_type] at e
  refine e.symm.trans ?_
  refine Finset.sum_congr rfl fun s _ => Finset.sum_congr rfl fun p _ => congrArg f (Fin.ext ?_)
  show p.val + 2048 * s.val = 2048 * s.val + p.val
  omega

/-- The column sums of the adjacency as one row: entry (0, j) is the sum of column j over all 16384 rows. -/
def colSums (c : Dev nD) : S1x16384.Idx → EReal :=
  fun i => ∑ r : Fin 16384, adj V c (ix2 r (⟨(i 1).val, idx2_lt1 i⟩ : Fin 16384))

/-- After the last row block of column block J the row buffer holds the full column sums of that column block. -/
theorem partialSums_last (c : Dev nD) (t : Fin cfg0.N) (h7 : t.val % 8 = 7) (q : Fin 2048) (i : S1x16384.Idx)
    (hi : (i 1).val = 2048 * (t.val / 8) + q.val) :
    (partialSums (F := Ideal) V c t.val t.isLt : S1x2048.Idx → EReal) (ix2 (0 : Fin 1) q) = colSums V c i := by
  have ht := t.isLt
  have hN : cfg0.N = 64 := N_0
  have e : t.val = 8 * (t.val / 8) + 7 := by omega
  refine (congrFun (partialSums_congr V c _ _ t.isLt (e ▸ t.isLt) e) _).trans ?_
  refine (partialSums_apply V c (t.val / 8) 7 (by omega) _ q).trans ?_
  unfold colSums
  rw [sum_rows_blocks, Finset.sum_range]
  refine Finset.sum_congr rfl fun s _ => ?_
  unfold tileSum
  refine Finset.sum_congr rfl fun p _ => congrArg (adj V c) ?_
  have hs := s.isLt
  funext a
  apply Fin.ext
  match a with
  | ⟨0, _⟩ => show 2048 * ((8 * (t.val / 8) + s.val) % 8) + p.val = 2048 * s.val + p.val; omega
  | ⟨1, _⟩ => show 2048 * ((8 * (t.val / 8) + s.val) / 8 % 8) + q.val = (i 1).val; omega

/-! ## From the write-backs to the result row -/

/-- The same at any index x of the row buffer: it sits in the column-sum row at column 2048·(t div 8) + x₁. -/
theorem partialSums_last_apply (c : Dev nD) (t : Fin cfg0.N) (h7 : t.val % 8 = 7) (x : S1x2048.Idx) (i : S1x16384.Idx)
    (hi : (i 1).val = 2048 * (t.val / 8) + (x 1).val) :
    (partialSums (F := Ideal) V c t.val t.isLt : S1x2048.Idx → EReal) x = colSums V c i := by
  obtain ⟨q, rfl⟩ : ∃ q : Fin 2048, x = ix2 (0 : Fin 1) q := ⟨⟨(x 1).val, idx2_lt1 x⟩, by
    funext a
    match a with
    | ⟨0, _⟩ => exact Fin.ext (by have := idx2_lt0 x; show (x 0).val = 0; omega)
    | ⟨1, _⟩ => rfl⟩
  exact partialSums_last V c t h7 q i hi

/-- Point t's block of the result row holds columns 2048·(t div 8) …: if the row buffer after t agrees with a row G
    there, what t writes back is its block of G. -/
theorem flushed_eq_of (c : Dev nD) (t : Fin cfg0.N) (G : S1x16384.Idx → EReal)
    (hG : ∀ (x : S1x2048.Idx) (i : S1x16384.Idx), (i 1).val = 2048 * (t.val / 8) + (x 1).val →
      (partialSums (F := Ideal) V c t.val t.isLt : S1x2048.Idx → EReal) x = G i) :
    (dat (F := Ideal) V c).flushed 1 t = ((cfg0.win 1).blk t).view.read (Elt Ideal) G := by
  obtain ⟨-, -, -, e1⟩ := idx_facts t
  show (cfg0.win 1).cut (grid0.coords t) ((dat (F := Ideal) V c).after 1 t) = _
  rw [dat_after1]
  funext x
  rw [View.read_apply]
  refine hG _ _ ?_
  refine ((cfg0.win 1).rect_emb_val t x 1).trans ?_
  rw [e1]
  show t.val / 8 * 2048 + (x 1).val = 2048 * (t.val / 8) + (x 1).val
  omega

/-- What a write-back point writes is its block of the column-sum row. -/
theorem flushed_eq (c : Dev nD) (t : Fin cfg0.N) (hf : (cfg0.win 1).flush t = true) :
    (dat (F := Ideal) V c).flushed 1 t = ((cfg0.win 1).blk t).view.read (Elt Ideal) (colSums V c) :=
  flushed_eq_of V c t (colSums V c) (partialSums_last_apply V c t ((flush0_1 t).mp hf))

/-- An index of the row is in point t's block iff each coordinate is in the block's range on its axis. -/
theorem mem_blk (t : Fin cfg0.N) (i : S1x16384.Idx) :
    i ∈ ((cfg0.win 1).blk t).view.set
      ↔ ∀ a : Fin 2, win0_1.index t a * S1x2048.size a ≤ (i a).val ∧ (i a).val < win0_1.index t a * S1x2048.size a + S1x2048.size a := by
  show i ∈ ((View.whole main_v0).slice (win0_1.rect t)).set ↔ _
  rw [View.set_slice_whole, Rect.mem_set_unit]
  exact Iff.rfl

/-- Every column of the row lies in the block written back after the last row block of its column block. -/
theorem covered (i : S1x16384.Idx) :
    ∃ t : Fin cfg0.N, (cfg0.win 1).flush t = true ∧ i ∈ ((cfg0.win 1).blk t).view.set := by
  have hN : cfg0.N = 64 := N_0
  have h0 : (i 0).val < 1 := idx2_lt0 i
  have h1 : (i 1).val < 16384 := idx2_lt1 i
  obtain ⟨t, ht⟩ : ∃ t : Fin cfg0.N, t.val = 8 * ((i 1).val / 2048) + 7 := ⟨⟨8 * ((i 1).val / 2048) + 7, by omega⟩, rfl⟩
  refine ⟨t, (flush0_1 t).mpr (by omega), ?_⟩
  obtain ⟨-, -, e0, e1⟩ := idx_facts t
  rw [mem_blk]
  intro a
  match a with
  | ⟨0, _⟩ =>
    show win0_1.index t (0 : Fin 2) * 1 ≤ (i 0).val ∧ (i 0).val < win0_1.index t (0 : Fin 2) * 1 + 1
    rw [e0]; omega
  | ⟨1, _⟩ =>
    show win0_1.index t (1 : Fin 2) * 2048 ≤ (i 1).val ∧ (i 1).val < win0_1.index t (1 : Fin 2) * 2048 + 2048
    rw [e1]; omega

/-- So the result array ends holding the column-sum row. -/
theorem final_row (c : Dev nD) : (dat (F := Ideal) V c).arrAt 1 cfg0.N = colSums V c :=
  (dat (F := Ideal) V c).arrAt_eq_of_cover 1 (colSums V c) (flushed_eq V c) covered

end Value

variable (V : (c : Dev nD) → (b : Ref sig .tc) → Buf (Elt Ideal) ((c : Thread nD τ).loc b))

/-- After the region, entry (0, j) of the result is the j-th column sum of the adjacency as the region found it. -/
theorem result_row (c : Dev nD) (j : Fin 16384) :
    ((dat (F := Ideal) V c).arrAt 1 cfg0.N : S1x16384.Idx → EReal) (ix2 (0 : Fin 1) j)
      = Cert.Spec.colSum (fun i j' => (V c main_arg0 : S16384x16384.Idx → EReal) (ix2 i j')) j := by
  refine (congrFun (Value.final_row V c) _).trans ?_
  rfl

end Cert.KernelIdeal.ColSum

end
-- ==== Proof.AggregateValueTiles.lean ====
/-
  The three tiles the aggregation body computes, read entry by entry on the extended reals, as functions of the tiles
  it loads. There a change of float format is the identity, a matrix product into a zero accumulator is the plain sum
  over the contracted axis, a [n, 1] column spread over the columns reads its one entry per row, and a [64] vector
  spread over the rows reads its entry per column. So
    the cleared scratch is 0 everywhere;
    the accumulation step leaves acc[p, k] + Σ_q a[p, q] · (x[q, k] · d[q, 0]);
    the closing step leaves max ((Σ_k ((acc[p, k] + x[p, k] · d[p, 0]) · d'[p, 0]) · w[k, e]) + b[e], 0).
-/
import proofs.«104186_j20401094656620_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Aggregate

open Idealize.ShloMosaic Idealize.ShloMosaic.ValueIdx
open Cert.KernelIdeal Cert.KernelIdeal.Gen

/-! ## A column spread over the columns -/

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an entry -/

/-- The 2048×1024 by 1024×64 product's dimension numbers. -/
abbrev dotA : DotDims S2048x1024 S1024x64 S2048x64 := dot_S2048x1024_S1024x64_S2048x64_1_0_0_1_n_n
/-- The 2048×64 by 64×64 product's dimension numbers. -/
abbrev dotW : DotDims S2048x64 S64x64 S2048x64 := dot_S2048x64_S64x64_S2048x64_1_0_0_1_n_n

theorem lhsA_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhsA_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhsA_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhsA_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- Entry (p, k) of a 2048×1024 by 1024×64 product into the zero tile: the sum over the 1024 contracted positions. -/
theorem matmulA_apply (l : FVec Ideal S2048x1024 .bf16) (r : FVec Ideal S1024x64 .bf16) (p : Fin 2048) (k : Fin 64) :
    matmul dot_S2048x1024_S1024x64_S2048x64_1_0_0_1_n_n none l r (constant (F := Ideal) S2048x64 .f32 0x00000000#32) (ix2 p k)
      = ∑ q : Fin 1024, l (ix2 p q) * r (ix2 q k) := by
  simp only [matmul]
  rw [Ideal.matmul_constant_zero_apply, ← Equiv.sum_comp (contrEquiv1 dot_S2048x1024_S1024x64_S2048x64_1_0_0_1_n_n 1024 rfl rfl).symm]
  refine Finset.sum_congr rfl fun q _ => ?_
  have hq := contrEquiv1_symm_val dot_S2048x1024_S1024x64_S2048x64_1_0_0_1_n_n 1024 rfl rfl q
  have el : dot_S2048x1024_S1024x64_S2048x64_1_0_0_1_n_n.lhsIdx (ix2 p k) ((contrEquiv1 dot_S2048x1024_S1024x64_S2048x64_1_0_0_1_n_n 1024 rfl rfl).symm q) = ix2 p q := funext fun a => Fin.ext (by
    match a with
    | ⟨0, _⟩ => exact lhsA_0 _ _
    | ⟨1, _⟩ => exact (lhsA_1 _ _).trans hq)
  have er : dot_S2048x1024_S1024x64_S2048x64_1_0_0_1_n_n.rhsIdx (ix2 p k) ((contrEquiv1 dot_S2048x1024_S1024x64_S2048x64_1_0_0_1_n_n 1024 rfl rfl).symm q) = ix2 q k := funext fun a => Fin.ext (by
    match a with
    | ⟨0, _⟩ => exact (rhsA_0 _ _).trans hq
    | ⟨1, _⟩ => exact rhsA_1 _ _)
  rw [el, er]

theorem lhsW_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhsW_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhsW_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhsW_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- Entry (p, e) of a 2048×64 by 64×64 product into the zero tile: the sum over the 64 contracted positions. -/
theorem matmulW_apply (l : FVec Ideal S2048x64 .bf16) (r : FVec Ideal S64x64 .bf16) (p : Fin 2048) (e : Fin 64) :
    matmul dot_S2048x64_S64x64_S2048x64_1_0_0_1_n_n none l r (constant (F := Ideal) S2048x64 .f32 0x00000000#32) (ix2 p e)
      = ∑ k : Fin 64, l (ix2 p k) * r (ix2 k e) := by
  simp only [matmul]
  rw [Ideal.matmul_constant_zero_apply, ← Equiv.sum_comp (contrEquiv1 dot_S2048x64_S64x64_S2048x64_1_0_0_1_n_n 64 rfl rfl).symm]
  refine Finset.sum_congr rfl fun q _ => ?_
  have hq := contrEquiv1_symm_val dot_S2048x64_S64x64_S2048x64_1_0_0_1_n_n 64 rfl rfl q
  have el : dot_S2048x64_S64x64_S2048x64_1_0_0_1_n_n.lhsIdx (ix2 p e) ((contrEquiv1 dot_S2048x64_S64x64_S2048x64_1_0_0_1_n_n 64 rfl rfl).symm q) = ix2 p q := funext fun a => Fin.ext (by
    match a with
    | ⟨0, _⟩ => exact lhsW_0 _ _
    | ⟨1, _⟩ => exact (lhsW_1 _ _).trans hq)
  have er : dot_S2048x64_S64x64_S2048x64_1_0_0_1_n_n.rhsIdx (ix2 p e) ((contrEquiv1 dot_S2048x64_S64x64_S2048x64_1_0_0_1_n_n 64 rfl rfl).symm q) = ix2 q e := funext fun a => Fin.ext (by
    match a with
    | ⟨0, _⟩ => exact (rhsW_0 _ _).trans hq
    | ⟨1, _⟩ => exact rhsW_1 _ _)
  rw [el, er]

/-! ## The body's three tiles at an entry -/

/-- The cleared scratch is 0 at every entry. -/
theorem cleared_apply (p : Fin 2048) (k : Fin 64) : (k1_pay1 (F := Ideal)) (ix2 p k) = 0 := by
  unfold k1_pay1
  rw [shapeCast_self]
  exact Ideal.ofBits_zero_f32

/-- The accumulation step at entry (p, k): what the scratch held plus the tile product's entry. -/
theorem step_apply (x : Vec Ideal S1024x64 .f32) (d : Vec Ideal S1024x1 .f32) (a : Vec Ideal S2048x1024 .f32)
    (acc : Vec Ideal S2048x64 .f32) (p : Fin 2048) (k : Fin 64) :
    k1_pay2 x d a acc (ix2 p k) = acc (ix2 p k) + ∑ q : Fin 1024, a (ix2 p q) * (x (ix2 q k) * d (ix2 q (0 : Fin 1))) := by
  unfold k1_pay2
  rw [shapeCast_self, shapeCast_self]
  refine (addf_apply _ _ _).trans ?_
  refine congrArg (acc (ix2 p k) + ·) ?_
  refine (matmulA_apply _ _ p k).trans ?_
  refine Finset.sum_congr rfl fun q _ => ?_
  refine congrArg (a (ix2 p q) * ·) ?_
  show x (ix2 q k) * broadcastTo S1024x64 d broadcasts_S1024x1_S1024x64 (ix2 q k) = _
  rw [broadcastTo_a1_ab_apply]

/-- The closing step at entry (p, e). -/
theorem close_apply (x : Vec Ideal S2048x64 .f32) (d : Vec Ideal S2048x1 .f32) (acc : Vec Ideal S2048x64 .f32)
    (d' : Vec Ideal S2048x1 .f32) (w : Vec Ideal S64x64 .f32) (b : Vec Ideal S64 .f32) (p : Fin 2048) (e : Fin 64) :
    k1_pay3 x d acc d' w b (ix2 p e)
      = max ((∑ k : Fin 64, ((acc (ix2 p k) + x (ix2 p k) * d (ix2 p (0 : Fin 1))) * d' (ix2 p (0 : Fin 1))) * w (ix2 k e)) + b (ix1 e)) 0 := by
  unfold k1_pay3
  rw [shapeCast_self, shapeCast_self]
  refine (maximumf_apply _ _ _).trans ?_
  refine congrArg₂ max ?_ Ideal.ofBits_zero_f32
  refine (addf_apply _ _ _).trans ?_
  refine congrArg₂ (· + ·) ?_ ?_
  · refine (matmulW_apply _ _ p e).trans ?_
    refine Finset.sum_congr rfl fun k _ => ?_
    refine congrArg (· * w (ix2 k e)) ?_
    show (acc (ix2 p k) + x (ix2 p k) * broadcastTo S2048x64 d broadcasts_S2048x1_S2048x64 (ix2 p k))
        * broadcastTo S2048x64 d' broadcasts_S2048x1_S2048x64 (ix2 p k) = _
    rw [broadcastTo_a1_ab_apply, broadcastTo_a1_ab_apply]
  · rw [broadcastTo_1b_ab_apply, shapeCast_a_1a_apply]

end Cert.KernelIdeal.Aggregate

end
-- ==== Proof.AggregateValueBlocks.lean ====
/-
  Where the aggregation kernel's windows sit in their arrays. Grid point t of the 8 × 16 grid is row block t / 16 and
  contraction block t % 16. At that point the adjacency window holds rows 2048·(t / 16) … and columns 1024·(t % 16) …
  of A; the row-block windows hold rows 2048·(t / 16) … of the features and of the inverse-degree column; the
  contraction-block windows hold rows 1024·(t % 16) … of the same two arrays; the weight and bias windows hold their
  whole arrays; the result window is rows 2048·(t / 16) … of the result. Each statement below reads one entry of a
  window's block as the entry of its array at: block index × block size + position inside the block.
-/
import proofs.«104186_j20401094656620_1_alg».proof.Proof.Aggregate
import Idealize.ShloMosaic.Lib.Pipeline.Value
import Idealize.ShloMosaic.Lib.ValueIdx

set_option maxRecDepth 16384

noncomputable section

namespace Cert.KernelIdeal.Aggregate

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The block indices at a grid point -/

/-- The adjacency window moves with both grid coordinates. -/
theorem index_adj : ∀ t : Fin cfg1.N, win1_0.index t (0 : Fin 2) = t.val / 16 ∧ win1_0.index t (1 : Fin 2) = t.val % 16 :=
  (by decide +kernel : ∀ t : Fin grid1.N, win1_0.index t (0 : Fin 2) = t.val / 16 ∧ win1_0.index t (1 : Fin 2) = t.val % 16)
/-- The row-block windows of the features and of the inverse degrees move with the row block only. -/
theorem index_rowX : ∀ t : Fin cfg1.N, win1_1.index t (0 : Fin 2) = t.val / 16 ∧ win1_1.index t (1 : Fin 2) = 0 :=
  (by decide +kernel : ∀ t : Fin grid1.N, win1_1.index t (0 : Fin 2) = t.val / 16 ∧ win1_1.index t (1 : Fin 2) = 0)
theorem index_rowD : ∀ t : Fin cfg1.N, win1_2.index t (0 : Fin 2) = t.val / 16 ∧ win1_2.index t (1 : Fin 2) = 0 :=
  (by decide +kernel : ∀ t : Fin grid1.N, win1_2.index t (0 : Fin 2) = t.val / 16 ∧ win1_2.index t (1 : Fin 2) = 0)
/-- The contraction-block windows of the same two arrays move with the contraction block only. -/
theorem index_colX : ∀ t : Fin cfg1.N, win1_3.index t (0 : Fin 2) = t.val % 16 ∧ win1_3.index t (1 : Fin 2) = 0 :=
  (by decide +kernel : ∀ t : Fin grid1.N, win1_3.index t (0 : Fin 2) = t.val % 16 ∧ win1_3.index t (1 : Fin 2) = 0)
theorem index_colD : ∀ t : Fin cfg1.N, win1_4.index t (0 : Fin 2) = t.val % 16 ∧ win1_4.index t (1 : Fin 2) = 0 :=
  (by decide +kernel : ∀ t : Fin grid1.N, win1_4.index t (0 : Fin 2) = t.val % 16 ∧ win1_4.index t (1 : Fin 2) = 0)
/-- The weight and the bias windows never move. -/
theorem index_weight : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem index_bias : ∀ t : Fin cfg1.N, win1_6.index t (0 : Fin 1) = 0 :=
  (by decide +kernel : ∀ t : Fin grid1.N, win1_6.index t (0 : Fin 1) = 0)
/-- The result window moves with the row block only. -/
theorem index_result : ∀ t : Fin cfg1.N, win1_7.index t (0 : Fin 2) = t.val / 16 ∧ win1_7.index t (1 : Fin 2) = 0 :=
  (by decide +kernel : ∀ t : Fin grid1.N, win1_7.index t (0 : Fin 2) = t.val / 16 ∧ win1_7.index t (1 : Fin 2) = 0)

/-! ## One entry of each input block -/

/-- Entry (p, q) of the adjacency block at point t is A[2048·(t / 16) + p, 1024·(t % 16) + q]. -/
theorem adjBlock_apply (c : Dev nD) (t : Fin cfg1.N) (p : Fin 2048) (q : Fin 1024) (i j : Fin 16384)
    (hi : i.val = 2048 * (t.val / 16) + p.val) (hj : j.val = 1024 * (t.val % 16) + q.val) :
    (blk V c 0 t : S2048x1024.Idx → EReal) (ix2 p q) = (V c main_arg0 : S16384x16384.Idx → EReal) (ix2 i j) := by
  obtain ⟨e0, e1⟩ := index_adj t
  show (V c main_arg0 : S16384x16384.Idx → EReal) (((cfg1.win 0).blk t).view.emb (ix2 p q)) = _
  refine congrArg (V c main_arg0 : S16384x16384.Idx → EReal) (funext fun a => Fin.ext ?_)
  match a with
  | ⟨0, _⟩ => show win1_0.index t (0 : Fin 2) * 2048 + 1 * p.val = i.val; rw [e0, hi]; omega
  | ⟨1, _⟩ => show win1_0.index t (1 : Fin 2) * 1024 + 1 * q.val = j.val; rw [e1, hj]; omega

/-- Entry (p, k) of the row-block features window at point t is X[2048·(t / 16) + p, k]. -/
theorem rowFeat_apply (c : Dev nD) (t : Fin cfg1.N) (p : Fin 2048) (k : Fin 64) (i : Fin 16384)
    (hi : i.val = 2048 * (t.val / 16) + p.val) :
    (blk V c 1 t : S2048x64.Idx → EReal) (ix2 p k) = (V c main_arg1 : S16384x64.Idx → EReal) (ix2 i k) := by
  obtain ⟨e0, e1⟩ := index_rowX t
  show (V c main_arg1 : S16384x64.Idx → EReal) (((cfg1.win 1).blk t).view.emb (ix2 p k)) = _
  refine congrArg (V c main_arg1 : S16384x64.Idx → EReal) (funext fun a => Fin.ext ?_)
  match a with
  | ⟨0, _⟩ => show win1_1.index t (0 : Fin 2) * 2048 + 1 * p.val = i.val; rw [e0, hi]; omega
  | ⟨1, _⟩ => show win1_1.index t (1 : Fin 2) * 64 + 1 * k.val = k.val; rw [e1]; omega

/-- Entry (p, 0) of the row-block inverse-degree window at point t is d[2048·(t / 16) + p, 0]. -/
theorem rowDeg_apply (c : Dev nD) (t : Fin cfg1.N) (p : Fin 2048) (i : Fin 16384)
    (hi : i.val = 2048 * (t.val / 16) + p.val) :
    (blk V c 2 t : S2048x1.Idx → EReal) (ix2 p (0 : Fin 1)) = (V c main_v5 : S16384x1.Idx → EReal) (ix2 i (0 : Fin 1)) := by
  obtain ⟨e0, e1⟩ := index_rowD t
  show (V c main_v5 : S16384x1.Idx → EReal) (((cfg1.win 2).blk t).view.emb (ix2 p (0 : Fin 1))) = _
  refine congrArg (V c main_v5 : S16384x1.Idx → EReal) (funext fun a => Fin.ext ?_)
  match a with
  | ⟨0, _⟩ => show win1_2.index t (0 : Fin 2) * 2048 + 1 * p.val = i.val; rw [e0, hi]; omega
  | ⟨1, _⟩ => show win1_2.index t (1 : Fin 2) * 1 + 1 * 0 = 0; rw [e1]

/-- Entry (q, k) of the contraction-block features window at point t is X[1024·(t % 16) + q, k]. -/
theorem colFeat_apply (c : Dev nD) (t : Fin cfg1.N) (q : Fin 1024) (k : Fin 64) (j : Fin 16384)
    (hj : j.val = 1024 * (t.val % 16) + q.val) :
    (blk V c 3 t : S1024x64.Idx → EReal) (ix2 q k) = (V c main_arg1 : S16384x64.Idx → EReal) (ix2 j k) := by
  obtain ⟨e0, e1⟩ := index_colX t
  show (V c main_arg1 : S16384x64.Idx → EReal) (((cfg1.win 3).blk t).view.emb (ix2 q k)) = _
  refine congrArg (V c main_arg1 : S16384x64.Idx → EReal) (funext fun a => Fin.ext ?_)
  match a with
  | ⟨0, _⟩ => show win1_3.index t (0 : Fin 2) * 1024 + 1 * q.val = j.val; rw [e0, hj]; omega
  | ⟨1, _⟩ => show win1_3.index t (1 : Fin 2) * 64 + 1 * k.val = k.val; rw [e1]; omega

/-- Entry (q, 0) of the contraction-block inverse-degree window at point t is d[1024·(t % 16) + q, 0]. -/
theorem colDeg_apply (c : Dev nD) (t : Fin cfg1.N) (q : Fin 1024) (j : Fin 16384)
    (hj : j.val = 1024 * (t.val % 16) + q.val) :
    (blk V c 4 t : S1024x1.Idx → EReal) (ix2 q (0 : Fin 1)) = (V c main_v5 : S16384x1.Idx → EReal) (ix2 j (0 : Fin 1)) := by
  obtain ⟨e0, e1⟩ := index_colD t
  show (V c main_v5 : S16384x1.Idx → EReal) (((cfg1.win 4).blk t).view.emb (ix2 q (0 : Fin 1))) = _
  refine congrArg (V c main_v5 : S16384x1.Idx → EReal) (funext fun a => Fin.ext ?_)
  match a with
  | ⟨0, _⟩ => show win1_4.index t (0 : Fin 2) * 1024 + 1 * q.val = j.val; rw [e0, hj]; omega
  | ⟨1, _⟩ => show win1_4.index t (1 : Fin 2) * 1 + 1 * 0 = 0; rw [e1]

/-- The weight window holds the whole weight at every point. -/
theorem weight_apply (c : Dev nD) (t : Fin cfg1.N) (k e : Fin 64) :
    (blk V c 5 t : S64x64.Idx → EReal) (ix2 k e) = (V c main_arg2 : S64x64.Idx → EReal) (ix2 k e) := by
  obtain ⟨e0, e1⟩ := index_weight t
  show (V c main_arg2 : S64x64.Idx → EReal) (((cfg1.win 5).blk t).view.emb (ix2 k e)) = _
  refine congrArg (V c main_arg2 : S64x64.Idx → EReal) (funext fun a => Fin.ext ?_)
  match a with
  | ⟨0, _⟩ => show win1_5.index t (0 : Fin 2) * 64 + 1 * k.val = k.val; rw [e0]; omega
  | ⟨1, _⟩ => show win1_5.index t (1 : Fin 2) * 64 + 1 * e.val = e.val; rw [e1]; omega

/-- The bias window holds the whole bias at every point. -/
theorem bias_apply (c : Dev nD) (t : Fin cfg1.N) (e : Fin 64) :
    (blk V c 6 t : S64.Idx → EReal) (ix1 e) = (V c main_arg3 : S64.Idx → EReal) (ix1 e) := by
  have e0 := index_bias t
  show (V c main_arg3 : S64.Idx → EReal) (((cfg1.win 6).blk t).view.emb (ix1 e)) = _
  refine congrArg (V c main_arg3 : S64.Idx → EReal) (funext fun a => Fin.ext ?_)
  match a with
  | ⟨0, _⟩ => show win1_6.index t (0 : Fin 1) * 64 + 1 * e.val = e.val; rw [e0]; omega

end Cert.KernelIdeal.Aggregate

end
-- ==== Proof.AggregateValue.lean ====
/-
  What the aggregation region leaves in its [16384, 64] result, on the extended reals, as a function of the arrays it
  was entered with: the adjacency A, the features X, the [16384, 1] column of inverse degrees d, the weight W and the
  bias b. The scratch after point t = 16·I + J holds, at (row, k), the sum over the columns of contraction blocks 0 … J of
  A[2048·I + row, col] · (X[col, k] · d[col]) (induction over the points of one row block; the restart at J = 0 begins
  from the zero tile; a matrix product into a zero accumulator is the plain sum; the format changes are the identity).
  The closing point J = 15 stores max ((Σ_k ((acc + X·d) · d)[row, k] · W[k, e]) + b[e], 0), which the write-back puts at
  rows 2048·I … of the result, and the eight row blocks cover it. A sum over 16 blocks of 1024 columns is the sum over
  16384 columns.
-/
import proofs.«104186_j20401094656620_1_alg».proof.Proof.Aggregate
import proofs.«104186_j20401094656620_1_alg».proof.Proof.Spec
import proofs.«104186_j20401094656620_1_alg».proof.Proof.AggregateValueTiles
import proofs.«104186_j20401094656620_1_alg».proof.Proof.AggregateValueBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Aggregate

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The arrays by coordinates, and rows and columns by block -/

/-- The adjacency, the features, the inverse degrees, the weight and the bias as the region finds them. -/
abbrev adj (c : Dev nD) (i j : Fin 16384) : EReal := (V c main_arg0 : S16384x16384.Idx → EReal) (ix2 i j)
abbrev feat (c : Dev nD) (i : Fin 16384) (k : Fin 64) : EReal := (V c main_arg1 : S16384x64.Idx → EReal) (ix2 i k)
abbrev deg (c : Dev nD) (j : Fin 16384) : EReal := (V c main_v5 : S16384x1.Idx → EReal) (ix2 j (0 : Fin 1))
abbrev weight (c : Dev nD) (k e : Fin 64) : EReal := (V c main_arg2 : S64x64.Idx → EReal) (ix2 k e)
abbrev bias (c : Dev nD) (e : Fin 64) : EReal := (V c main_arg3 : S64.Idx → EReal) (ix1 e)

/-- Row p of row block I (wrapped into the array so that it is a row for every natural I; below 8 nothing wraps). -/
def rowOf (I : ℕ) (p : Fin 2048) : Fin 16384 := ⟨(2048 * I + p.val) % 16384, Nat.mod_lt _ (by decide)⟩
/-- Column q of contraction block s (wrapped likewise; below 16 nothing wraps). -/
def colOf (s : ℕ) (q : Fin 1024) : Fin 16384 := ⟨(1024 * s + q.val) % 16384, Nat.mod_lt _ (by decide)⟩

theorem rowOf_val (I : ℕ) (hI : I < 8) (p : Fin 2048) : (rowOf I p).val = 2048 * I + p.val := by
  have hp := p.isLt
  show (2048 * I + p.val) % 16384 = _
  exact Nat.mod_eq_of_lt (by omega)
theorem colOf_val (s : ℕ) (hs : s < 16) (q : Fin 1024) : (colOf s q).val = 1024 * s + q.val := by
  have hq := q.isLt
  show (1024 * s + q.val) % 16384 = _
  exact Nat.mod_eq_of_lt (by omega)

/-- Sixteen blocks of 1024 columns are the 16384 columns: a sum block by block is the sum over all of them. -/
theorem sum_colBlocks (g : Fin 16384 → EReal) :
    ∑ s ∈ Finset.range 16, ∑ q : Fin 1024, g (colOf s q) = ∑ j : Fin 16384, g j := by
  rw [Finset.sum_range fun s => ∑ q : Fin 1024, g (colOf s q), ← Fintype.sum_prod_type']
  refine Fintype.sum_equiv (finProdFinEquiv (m := 16) (n := 1024)) _ g fun x => congrArg g (Fin.ext ?_)
  have h1 := x.1.isLt
  have h2 := x.2.isLt
  rw [colOf_val _ h1]
  show 1024 * x.1.val + x.2.val = x.2.val + 1024 * x.1.val
  omega

/-! ## The scratch after a grid point -/

/-- Contraction block s's share of the aggregation at row i and feature k. -/
def share (c : Dev nD) (i : Fin 16384) (k : Fin 64) (s : ℕ) : EReal :=
  ∑ q : Fin 1024, adj V c i (colOf s q) * (feat V c (colOf s q) k * deg V c (colOf s q))

theorem point_lt (n : ℕ) (h : n < cfg1.N) : n < 128 := lt_of_lt_of_eq h N_1

/-- One accumulation step at point n adds that point's contraction block's share, at the point's row block. -/
theorem step_at (c : Dev nD) (n : ℕ) (h : n < cfg1.N) (acc : Vec Ideal S2048x64 .f32) (p : Fin 2048) (k : Fin 64) :
    k1_pay2 (blk V c 3 ⟨n, h⟩) (blk V c 4 ⟨n, h⟩) (blk V c 0 ⟨n, h⟩) acc (ix2 p k)
      = acc (ix2 p k) + share V c (rowOf (n / 16) p) k (n % 16) := by
  have hn := point_lt n h
  have hrow : (rowOf (n / 16) p).val = 2048 * (n / 16) + p.val := rowOf_val _ (by omega) p
  have hcol : ∀ q : Fin 1024, (colOf (n % 16) q).val = 1024 * (n % 16) + q.val := colOf_val _ (by omega)
  refine (step_apply (blk V c 3 ⟨n, h⟩) (blk V c 4 ⟨n, h⟩) (blk V c 0 ⟨n, h⟩) acc p k).trans ?_
  refine congrArg (acc (ix2 p k) + ·) (Finset.sum_congr rfl fun q _ => ?_)
  exact congrArg₂ (· * ·) (adjBlock_apply V c ⟨n, h⟩ p q (rowOf (n / 16) p) (colOf (n % 16) q) hrow (hcol q))
    (congrArg₂ (· * ·) (colFeat_apply V c ⟨n, h⟩ q k (colOf (n % 16) q) (hcol q))
      (colDeg_apply V c ⟨n, h⟩ q (colOf (n % 16) q) (hcol q)))

/-- The scratch after a point that begins a row block: the zero tile plus that point's step. -/
theorem scratch_restart (c : Dev nD) (n : ℕ) (h : n < cfg1.N) (h0 : n % 16 = 0) :
    runningProduct V c n h = k1_pay2 (blk V c 3 ⟨n, h⟩) (blk V c 4 ⟨n, h⟩) (blk V c 0 ⟨n, h⟩) (k1_pay1 (F := Ideal)) :=
  runningProduct_first V c ⟨n, h⟩ h0
/-- The scratch after any other point: the previous point's scratch plus this point's step. -/
theorem scratch_continue (c : Dev nD) (n : ℕ) (h : n + 1 < cfg1.N) (h0 : (n + 1) % 16 ≠ 0) :
    runningProduct V c (n + 1) h
      = k1_pay2 (blk V c 3 ⟨n + 1, h⟩) (blk V c 4 ⟨n + 1, h⟩) (blk V c 0 ⟨n + 1, h⟩) (runningProduct V c n (Nat.lt_of_succ_lt h)) :=
  runningProduct_later V c ⟨n + 1, h⟩ h0

/-- After point n = 16·I + J the scratch holds, at (p, k), the shares of contraction blocks 0 … J at row p of row block I. -/
theorem scratch_apply (c : Dev nD) : ∀ (n : ℕ) (h : n < cfg1.N) (p : Fin 2048) (k : Fin 64),
    runningProduct V c n h (ix2 p k) = ∑ s ∈ Finset.range (n % 16 + 1), share V c (rowOf (n / 16) p) k s
  | 0, h, p, k => by
    refine (congrFun (scratch_restart V c 0 h rfl) (ix2 p k)).trans ?_
    refine (step_at V c 0 h (k1_pay1 (F := Ideal)) p k).trans ?_
    rw [cleared_apply, zero_add]
    exact (Finset.sum_range_one _).symm
  | n + 1, h, p, k => by
    by_cases h0 : (n + 1) % 16 = 0
    · refine (congrFun (scratch_restart V c (n + 1) h h0) (ix2 p k)).trans ?_
      refine (step_at V c (n + 1) h (k1_pay1 (F := Ideal)) p k).trans ?_
      rw [cleared_apply, zero_add, h0]
      exact (Finset.sum_range_one _).symm
    · have hd : (n + 1) / 16 = n / 16 := by omega
      have hm : (n + 1) % 16 = n % 16 + 1 := by omega
      refine (congrFun (scratch_continue V c n h h0) (ix2 p k)).trans ?_
      refine (step_at V c (n + 1) h (runningProduct V c n (Nat.lt_of_succ_lt h)) p k).trans ?_
      rw [scratch_apply c n (Nat.lt_of_succ_lt h) p k, hd, hm, Finset.sum_range_succ _ (n % 16 + 1)]

/-- So after a row block's last point the scratch holds the whole aggregation sum of the row. -/
theorem scratch_closed (c : Dev nD) (n : ℕ) (h : n < cfg1.N) (h15 : n % 16 = 15) (p : Fin 2048) (k : Fin 64) :
    runningProduct V c n h (ix2 p k)
      = ∑ j : Fin 16384, adj V c (rowOf (n / 16) p) j * (feat V c j k * deg V c j) := by
  rw [scratch_apply V c n h p k, h15]
  exact sum_colBlocks fun j => adj V c (rowOf (n / 16) p) j * (feat V c j k * deg V c j)

/-! ## The tile a closing point stores -/

/-- The layer at the arrays the region was entered with. -/
def layerAt (c : Dev nD) (r : Fin 16384) (e : Fin 64) : EReal :=
  Cert.Spec.layerOf (adj V c) (feat V c) (deg V c) (weight V c) (bias V c) r e

theorem layerAt_eq (c : Dev nD) (r : Fin 16384) (e : Fin 64) :
    layerAt V c r e
      = max ((∑ k : Fin 64, (((∑ j : Fin 16384, adj V c r j * (feat V c j k * deg V c j)) + feat V c r k * deg V c r)
          * deg V c r) * weight V c k e) + bias V c e) 0 := rfl

/-- At the last point of row block I the stored tile holds, at (p, e), the layer's entry (2048·I + p, e): the scratch
    is the row's whole aggregation sum, the row-block windows give the row's own features and inverse degree. -/
theorem closed_apply (c : Dev nD) (t : Fin cfg1.N) (h15 : t.val % 16 = 15) (p : Fin 2048) (e : Fin 64) :
    closedTile V c t (ix2 p e) = layerAt V c (rowOf (t.val / 16) p) e := by
  have hn := point_lt t.val t.isLt
  have hrow : (rowOf (t.val / 16) p).val = 2048 * (t.val / 16) + p.val := rowOf_val _ (by omega) p
  unfold closedTile
  refine (close_apply (blk V c 1 t) (blk V c 2 t) (runningProduct V c t.val t.isLt) (blk V c 2 t) (blk V c 5 t)
    (blk V c 6 t) p e).trans ?_
  rw [layerAt_eq]
  refine congrArg₂ max (congrArg₂ (· + ·) (Finset.sum_congr rfl fun k _ => ?_) (bias_apply V c t e)) rfl
  exact congrArg₂ (· * ·)
    (congrArg₂ (· * ·)
      (congrArg₂ (· + ·) (scratch_closed V c t.val t.isLt h15 p k)
        (congrArg₂ (· * ·) (rowFeat_apply V c t p k (rowOf (t.val / 16) p) hrow)
          (rowDeg_apply V c t p (rowOf (t.val / 16) p) hrow)))
      (rowDeg_apply V c t p (rowOf (t.val / 16) p) hrow))
    (weight_apply V c t k e)

/-! ## From the stored tiles to the result array -/

/-- The result array's contents after the region: the layer at every entry. -/
def resultArr (c : Dev nD) : S16384x64.Idx → EReal := fun i => layerAt V c (i 0) (i 1)

/-- What a closing point writes back is its block of that one array: rows 2048·I … of it. -/
theorem flushed_eq (c : Dev nD) (t : Fin cfg1.N) (hf : (cfg1.win 7).flush t = true) :
    (dat V c).flushed 7 t = ((cfg1.win 7).blk t).view.read (Elt Ideal) (resultArr V c) := by
  have h15 : t.val % 16 = 15 := (flush1_7 t).mp hf
  have hn := point_lt t.val t.isLt
  obtain ⟨e0, e1⟩ := index_result t
  funext y
  obtain ⟨p, e, rfl⟩ : ∃ (p : Fin 2048) (e : Fin 64), y = (ix2 p e : S2048x64.Idx) :=
    ⟨y 0, y 1, funext fun a => by match a with | ⟨0, _⟩ => rfl | ⟨1, _⟩ => rfl⟩
  have hrow : (rowOf (t.val / 16) p).val = 2048 * (t.val / 16) + p.val := rowOf_val _ (by omega) p
  have hx : (cfg1.win 7).xinj (grid1.coords t) (ix2 p e) = (ix2 p e : S2048x64.Idx) :=
    funext fun a => by match a with | ⟨0, _⟩ => rfl | ⟨1, _⟩ => rfl
  show (dat V c).after 7 t ((cfg1.win 7).xinj (grid1.coords t) (ix2 p e))
    = resultArr V c (((cfg1.win 7).blk t).view.emb (ix2 p e))
  rw [dat_after7, hx, closed_apply V c t h15 p e]
  show layerAt V c (rowOf (t.val / 16) p) e = layerAt V c _ _
  refine congrArg₂ (layerAt V c) (Fin.ext ?_) (Fin.ext ?_)
  · show (rowOf (t.val / 16) p).val = win1_7.index t (0 : Fin 2) * 2048 + 1 * p.val
    rw [e0, hrow]; omega
  · show e.val = win1_7.index t (1 : Fin 2) * 64 + 1 * e.val
    rw [e1]; omega

/-- Every entry of the result lies in the block of its row block's closing point. -/
theorem covered (i : S16384x64.Idx) :
    ∃ t : Fin cfg1.N, (cfg1.win 7).flush t = true ∧ i ∈ ((cfg1.win 7).blk t).view.set := by
  have h0 : (i 0).val < 16384 := (i 0).isLt
  have h1 : (i 1).val < 64 := (i 1).isLt
  have hlt : 16 * ((i 0).val / 2048) + 15 < cfg1.N := by rw [show cfg1.N = 128 from N_1]; omega
  obtain ⟨t, ht⟩ : ∃ t : Fin cfg1.N, t.val = 16 * ((i 0).val / 2048) + 15 := ⟨⟨_, hlt⟩, rfl⟩
  obtain ⟨e0, e1⟩ := index_result t
  refine ⟨t, (flush1_7 t).mpr (by omega), ?_⟩
  show i ∈ ((View.whole main_v6).slice (win1_7.rect t)).set
  rw [View.set_slice_whole, Rect.mem_set_unit]
  intro a
  match a with
  | ⟨0, _⟩ =>
    show win1_7.index t (0 : Fin 2) * 2048 ≤ (i 0).val ∧ (i 0).val < win1_7.index t (0 : Fin 2) * 2048 + 2048
    rw [e0]; omega
  | ⟨1, _⟩ =>
    show win1_7.index t (1 : Fin 2) * 64 ≤ (i 1).val ∧ (i 1).val < win1_7.index t (1 : Fin 2) * 64 + 64
    rw [e1]; omega

/-- So the result array ends holding the layer at every entry. -/
theorem result_eq (c : Dev nD) : (dat V c).arrAt 7 cfg1.N = resultArr V c :=
  (dat V c).arrAt_eq_of_cover 7 (resultArr V c) (flushed_eq V c) covered

/-- After the region, entry (r, e) of the result is the layer at the entry arrays, with the inverse degrees read off
    the [16384, 1] column the region was handed. -/
theorem result_entry (c : Dev nD) (r : Fin 16384) (e : Fin 64) :
    ((dat (F := Ideal) V c).arrAt 7 cfg1.N : S16384x64.Idx → EReal) (ix2 r e)
      = Cert.Spec.layerOf (fun i j => (V c main_arg0 : S16384x16384.Idx → EReal) (ix2 i j))
          (fun i k => (V c main_arg1 : S16384x64.Idx → EReal) (ix2 i k))
          (fun j => (V c main_v5 : S16384x1.Idx → EReal) (ix2 j (0 : Fin 1)))
          (fun k e' => (V c main_arg2 : S64x64.Idx → EReal) (ix2 k e'))
          (fun e' => (V c main_arg3 : S64.Idx → EReal) (ix1 e')) r e :=
  congrFun (result_eq V c) (ix2 r e)

end Cert.KernelIdeal.Aggregate

end
-- ==== Proof.Result.lean ====
/-
  The result of the idealized kernel, entry by entry, as the layer of the launch arrays. The aggregation region leaves
  the layer at the arrays it was entered with; those are the launch arrays at the four arguments, and at the column of
  inverse degrees what the host operations computed from the column-sum region's row: one divided by (column sum plus
  one), the [1, 16384] row reshaped to a [16384, 1] column (entry (j, 0) of the column is entry (0, j) of the row).
-/
import proofs.«104186_j20401094656620_1_alg».proof.Proof.Ends
import proofs.«104186_j20401094656620_1_alg».proof.Proof.Spec
import proofs.«104186_j20401094656620_1_alg».proof.Proof.ColSumValue
import proofs.«104186_j20401094656620_1_alg».proof.Proof.AggregateValue
import Idealize.ShloMosaic.Lib.StableHlo.Run
import Idealize.ShloMosaic.Lib.Pipeline.Value
import Idealize.ShloMosaic.Lib.ValueIdx

set_option maxRecDepth 16384

noncomputable section

namespace Cert.KernelIdeal.Run

open Idealize.ShloMosaic Idealize.ShloMosaic.TcCoe Idealize.ShloMosaic.ValueIdx
open Idealize.SL Idealize.SL.Sem
open Idealize.ShloMosaic.Pipeline (Dat BodyObligation)
open Cert.KernelIdeal

variable (m : (ℓ : Loc nD τ sig) → Buf (Elt Ideal) ℓ) (ρ : Dev nD → PrngReg)

/-- The row of column sums after the first region, at its literal type. -/
abbrev sumsRow (c : Dev nD) : S1x16384.Idx → EReal := W1 m ρ c (Proc.devRef .tc main_v0)
/-- The column of inverse degrees after the host operations, at its literal type. -/
abbrev degCol (c : Dev nD) : S16384x1.Idx → EReal := W2 m ρ c (Proc.devRef .tc main_v5)

/-- The column of inverse degrees after the host operations, read at row `j`: one over (the row's entry `j` plus one). -/
theorem invDeg_column (c : Dev nD) (j : Fin 16384) :
    degCol m ρ c (ix2 j (0 : Fin 1)) = Ideal.div Cert.Spec.one (sumsRow m ρ c (ix2 (0 : Fin 1) j) + Cert.Spec.one) := by
  have e : degCol m ρ c
      = shapeCast S16384x1 (Host.divf (broadcastInDim S1x16384 ![] Gen.bcast_S_S1x16384 (constant (F := Ideal) S_ .f32 0x3F800000#32))
          (addf (sumsRow m ρ c)
            (broadcastInDim S1x16384 ![] Gen.bcast_S_S1x16384 (constant (F := Ideal) S_ .f32 0x3F800000#32))))
          Gen.shapeCasts_S1x16384_S16384x1 := by
    show StableHlo.after Gen.hostOps1 (W1 m ρ c) (Proc.devRef .tc main_v5) = _
    after_results
    rfl
  rw [e, shapeCast_apply _ _ (ix2 j (0 : Fin 1)) (ix2 (0 : Fin 1) j) (by
    rw [Shape.rowMajor_val_two, Shape.rowMajor_val_two]; show (0 : ℕ) * 16384 + j.val = j.val * 1 + 0; omega)]
  rfl

/-- The inverse degrees the aggregation region is entered with are those of the launch adjacency. -/
theorem entry_invDeg (c : Dev nD) (j : Fin 16384) :
    (E2 m ρ c main_v5 : S16384x1.Idx → EReal) (ix2 j (0 : Fin 1))
      = Cert.Spec.invDeg (fun i j' => (m ((c : Thread nD τ).loc main_arg0) : S16384x16384.Idx → EReal) (ix2 i j')) j := by
  rw [show (E2 m ρ c main_v5 : S16384x1.Idx → EReal) = degCol m ρ c from rfl, invDeg_column]
  unfold Cert.Spec.invDeg
  rw [show sumsRow m ρ c = ((ColSum.dat (F := Ideal) (E0 m ρ) c).arrAt 1 cfg0.N : S1x16384.Idx → EReal) from W1_arr m ρ c 1, ColSum.result_row]

/-- The result the aggregation's write-backs leave, at entry (r, e): the layer of the launch arrays. -/
theorem result_layer (c : Dev nD) (r : Fin 16384) (e : Fin 64) :
    ((Aggregate.dat (F := Ideal) (E2 m ρ) c).arrAt 7 cfg1.N : S16384x64.Idx → EReal) (ix2 r e)
      = Cert.Spec.layer (fun i j => (m ((c : Thread nD τ).loc main_arg0) : S16384x16384.Idx → EReal) (ix2 i j))
          (fun i k => (m ((c : Thread nD τ).loc main_arg1) : S16384x64.Idx → EReal) (ix2 i k))
          (fun k e' => (m ((c : Thread nD τ).loc main_arg2) : S64x64.Idx → EReal) (ix2 k e'))
          (fun e' => (m ((c : Thread nD τ).loc main_arg3) : S64.Idx → EReal) (ix1 e')) r e := by
  rw [Aggregate.result_entry]
  unfold Cert.Spec.layer
  have h0 : (E2 m ρ c main_arg0 : S16384x16384.Idx → EReal) = m ((c : Thread nD τ).loc main_arg0) := W2_arg0 m ρ c
  have h1 : (E2 m ρ c main_arg1 : S16384x64.Idx → EReal) = m ((c : Thread nD τ).loc main_arg1) := W2_arg1 m ρ c
  have h2 : (E2 m ρ c main_arg2 : S64x64.Idx → EReal) = m ((c : Thread nD τ).loc main_arg2) := W2_arg2 m ρ c
  have h3 : (E2 m ρ c main_arg3 : S64.Idx → EReal) = m ((c : Thread nD τ).loc main_arg3) := W2_arg3 m ρ c
  have hd : (fun j => (E2 m ρ c main_v5 : S16384x1.Idx → EReal) (ix2 j (0 : Fin 1)))
      = Cert.Spec.invDeg (fun i j' => (m ((c : Thread nD τ).loc main_arg0) : S16384x16384.Idx → EReal) (ix2 i j')) :=
    funext fun j => entry_invDeg m ρ c j
  rw [h0, h1, h2, h3, hd]

end Cert.KernelIdeal.Run

end
-- ==== Proof.RefValue.lean ====
/-
  The reference's result, on the extended reals, entry by entry: it is the layer of the four argument arrays. The
  reference sums A over its rows (starting from the zero word), adds one, divides one by that, spreads the quotient
  along the feature axis, scales the features, multiplies by A, adds the scaled features, scales again, multiplies by
  the weight, adds the bias spread along the rows, and takes the maximum with the zero word. Read at index (r, e) each
  stage is the corresponding piece of the layer's formula.
-/
import proofs.«104186_j20401094656620_1_alg».proof.Proof.Gen.ReferenceIdeal.Run
import proofs.«104186_j20401094656620_1_alg».proof.Proof.Gen.ReferenceIdeal.Read
import proofs.«104186_j20401094656620_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Read

/-! ## Index equations: the composed index functions at an index given by its coordinates -/

/-- The column sum's source at column `j`, step `k`, is entry (k, j). -/
theorem sumSrc_eq (j k : Fin 16384) : idx_main_v0 (ix1 j) k = ix2 k j :=
  funext fun a => Fin.ext (by match a with | ⟨0, _⟩ => rfl | ⟨1, _⟩ => rfl)

/-- Spreading a vector over rows along the feature axis, in two steps, reads it at the row. -/
theorem spreadA_eq (j : Fin 16384) (k : Fin 64) : idx_main_v5 (idx_main_v6 (ix2 j k)) = ix1 j :=
  funext fun a => Fin.ext (by match a with | ⟨0, _⟩ => rfl)

/-- The second spreading of the same vector reads it at the row as well. -/
theorem spreadB_eq (j : Fin 16384) (k : Fin 64) : idx_main_v10 (idx_main_v11 (ix2 j k)) = ix1 j :=
  funext fun a => Fin.ext (by match a with | ⟨0, _⟩ => rfl)

/-- The first product's left factor at (r, k), step `j`, is entry (r, j) … -/
theorem aggL_eq (r : Fin 16384) (k : Fin 64) (j : Fin 16384) : lidx_main_v8 (ix2 r k) j = ix2 r j :=
  funext fun a => Fin.ext (by match a with | ⟨0, _⟩ => rfl | ⟨1, _⟩ => rfl)

/-- … and its right factor is entry (j, k). -/
theorem aggR_eq (r : Fin 16384) (k : Fin 64) (j : Fin 16384) : ridx_main_v8 (ix2 r k) j = ix2 j k :=
  funext fun a => Fin.ext (by match a with | ⟨0, _⟩ => rfl | ⟨1, _⟩ => rfl)

/-- The second product's left factor at (r, e), step `k`, is entry (r, k) … -/
theorem outL_eq (r : Fin 16384) (e k : Fin 64) : lidx_main_v13 (ix2 r e) k = ix2 r k :=
  funext fun a => Fin.ext (by match a with | ⟨0, _⟩ => rfl | ⟨1, _⟩ => rfl)

/-- … and its right factor is entry (k, e). -/
theorem outR_eq (r : Fin 16384) (e k : Fin 64) : ridx_main_v13 (ix2 r e) k = ix2 k e :=
  funext fun a => Fin.ext (by match a with | ⟨0, _⟩ => rfl | ⟨1, _⟩ => rfl)

/-- The bias spread along the rows, in two steps, reads it at the column. -/
theorem biasSrc_eq (r : Fin 16384) (e : Fin 64) : idx_main_v14 (idx_main_v15 (ix2 r e)) = ix1 e :=
  funext fun a => Fin.ext (by match a with | ⟨0, _⟩ => rfl)

/-! ## The stages, entry by entry -/

section Stages

variable (x0 : S16384x16384.Idx → EReal) (x1 : S16384x64.Idx → EReal) (x2 : S64x64.Idx → EReal)
  (x3 : S64.Idx → EReal)

/-- The quotient stage at `j` is the inverse degree d_j = 1 / (s_j + 1), s_j the j-th column sum: the sum starts from
    the zero word, which is 0, and both ones are the same word. -/
theorem invDeg_entry (j : Fin 16384) :
    val_main_v4 (F := Ideal) x0 (ix1 j) = Cert.Spec.invDeg (fun i j => x0 (ix2 i j)) j := by
  rw [val_main_v4_apply, val_main_v3_apply, val_main_cst_1_apply, val_main_v2_apply, val_main_v0_apply,
    val_main_v1_apply, val_main_cst_0_apply, val_main_cst_apply]
  simp only [Ideal.hostDivf_def, Ideal.addf_def, Ideal.ofBits_def, Ideal.ofBits_zero_f32, zero_add, sumSrc_eq]
  rfl

/-- The inverse degrees spread along the feature axis: at (j, k) it is d_j. -/
theorem spreadA_entry (j : Fin 16384) (k : Fin 64) :
    val_main_v6 (F := Ideal) x0 (ix2 j k) = Cert.Spec.invDeg (fun i j => x0 (ix2 i j)) j := by
  rw [val_main_v6_apply, val_main_v5_apply, spreadA_eq, invDeg_entry]

/-- The second spreading at (j, k) is d_j too. -/
theorem spreadB_entry (j : Fin 16384) (k : Fin 64) :
    val_main_v11 (F := Ideal) x0 (ix2 j k) = Cert.Spec.invDeg (fun i j => x0 (ix2 i j)) j := by
  rw [val_main_v11_apply, val_main_v10_apply, spreadB_eq, invDeg_entry]

/-- The scaled features: xs[j, k] = X[j, k] · d_j. -/
theorem scaled_entry (j : Fin 16384) (k : Fin 64) :
    val_main_v7 (F := Ideal) x0 x1 (ix2 j k)
      = x1 (ix2 j k) * Cert.Spec.invDeg (fun i j => x0 (ix2 i j)) j := by
  rw [val_main_v7_apply, spreadA_entry, Ideal.mulf_def]

/-- The product with the adjacency: at (r, k) it is Σ_j A[r, j] · xs[j, k]. -/
theorem neigh_entry (r : Fin 16384) (k : Fin 64) :
    val_main_v8 (F := Ideal) x0 x1 (ix2 r k)
      = ∑ j : Fin 16384, x0 (ix2 r j) * (x1 (ix2 j k) * Cert.Spec.invDeg (fun i j => x0 (ix2 i j)) j) := by
  rw [val_main_v8_apply]
  refine Finset.sum_congr rfl fun j _ => ?_
  rw [aggL_eq, aggR_eq, scaled_entry]

/-- The aggregation: agg[r, k] = ((Σ_j A[r, j] · xs[j, k]) + xs[r, k]) · d_r. -/
theorem agg_entry (r : Fin 16384) (k : Fin 64) :
    val_main_v12 (F := Ideal) x0 x1 (ix2 r k)
      = ((∑ j : Fin 16384, x0 (ix2 r j) * (x1 (ix2 j k) * Cert.Spec.invDeg (fun i j => x0 (ix2 i j)) j))
          + x1 (ix2 r k) * Cert.Spec.invDeg (fun i j => x0 (ix2 i j)) r)
        * Cert.Spec.invDeg (fun i j => x0 (ix2 i j)) r := by
  rw [val_main_v12_apply, val_main_v9_apply, neigh_entry, scaled_entry, spreadB_entry, Ideal.mulf_def, Ideal.addf_def]

/-- The bias spread along the rows: at (r, e) it is b[e]. -/
theorem bias_entry (r : Fin 16384) (e : Fin 64) :
    val_main_v15 (F := Ideal) x3 (ix2 r e) = x3 (ix1 e) := by
  rw [val_main_v15_apply, val_main_v14_apply, biasSrc_eq]

/-- The zero word spread over the result: 0 everywhere. -/
theorem zero_entry (r : Fin 16384) (e : Fin 64) :
    val_main_call0_v0 (F := Ideal) (ix2 r e) = 0 := by
  rw [val_main_call0_v0_apply, val_main_call0_cst_apply, Ideal.ofBits_def, Ideal.ofBits_zero_f32]

end Stages

/-- The reference's last stage at entry (r, e) is the layer of the argument arrays. -/
theorem reference_entry (x0 : S16384x16384.Idx → EReal) (x1 : S16384x64.Idx → EReal) (x2 : S64x64.Idx → EReal)
    (x3 : S64.Idx → EReal) (r : Fin 16384) (e : Fin 64) :
    val_main_v17 (F := Ideal) x0 x1 x2 x3 (ix2 r e)
      = Cert.Spec.layer (fun i j => x0 (ix2 i j)) (fun i k => x1 (ix2 i k)) (fun k e' => x2 (ix2 k e'))
          (fun e' => x3 (ix1 e')) r e := by
  rw [val_main_v17_apply, val_main_v16_apply, val_main_v13_apply, bias_entry, zero_entry, Ideal.maximumf_def,
    Ideal.addf_def]
  unfold Cert.Spec.layer Cert.Spec.layerOf
  refine congrArg (fun t => max (t + x3 (ix1 e)) 0) (Finset.sum_congr rfl fun k _ => ?_)
  rw [outL_eq, outR_eq, agg_entry]

end Cert.ReferenceIdeal.RefValue

end
-- ==== Proof.Bits.ColSum.lean ====
/-
  The column-sum kernel's grid is (column block j, row block i), eight of each, the row block moving fastest:
  point t = 8·j + i reads the 2048×2048 tile of A at rows 2048·i …, columns 2048·j …, and keeps ONE 1×2048 row buffer per
  column block, which it clears when i = 0 and to which it adds the tile's column sums at every i. The buffer is written
  back to row 0, columns 2048·j … of the [1, 16384] result after i = 7. What the row buffer holds after point t is
  therefore a recursion over t (`partialSums`): restarted from the zero row at the points t ≡ 0 (mod 8), continued
  from the previous point otherwise. This module states the pipeline's proof data over that recursion, for any float
  instance, and proves the body's obligation at every grid point.
-/
import proofs.«104186_j20401094656620_1_alg».proof.Proof.Gen.Kernel.Launch
import proofs.«104186_j20401094656620_1_alg».proof.Proof.Gen.Kernel.Skeleton
import proofs.«104186_j20401094656620_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.ColSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the column-sum region is entered
variable (V : (c : Dev nD) → (b : Ref sig .tc) → Buf (Elt F) ((c : Thread nD τ).loc b))

/-- The tile of `A` that grid point `t` reads: window 0's block there, off the array as the region finds it. -/
def tile (c : Dev nD) (t : Fin cfg0.N) : ((cfg0.win 0).xblock (cfg0.grid.coords t)).Idx → Elt F (cfg0.win 0).elt :=
  ((cfg0.win 0).blk t).view.read (Elt F) (V c (Pipeline.arrRef spec0 0))

/-- The row buffer after grid point `n`: the zero row plus this tile's column sums where a column block begins
    (n ≡ 0 mod 8), the previous point's row plus this tile's column sums elsewhere. -/
def partialSums (c : Dev nD) : (n : ℕ) → n < cfg0.N → Vec F S1x2048 .f32
  | 0, h => k0_pay2 (k0_pay1 (F := F)) (tile V c ⟨0, h⟩)
  | n + 1, h =>
    if (n + 1) % 8 = 0 then k0_pay2 (k0_pay1 (F := F)) (tile V c ⟨n + 1, h⟩)
    else k0_pay2 (partialSums c n (Nat.lt_of_succ_lt h)) (tile V c ⟨n + 1, h⟩)

theorem partialSums_first (c : Dev nD) (t : Fin cfg0.N) (h : t.val % 8 = 0) :
    partialSums V c t.val t.isLt = k0_pay2 (k0_pay1 (F := F)) (tile V c t) := by
  obtain ⟨n, hn⟩ := t
  cases n with
  | zero => rfl
  | succ n => exact if_pos h

theorem partialSums_later (c : Dev nD) (t : Fin cfg0.N) (h : t.val % 8 ≠ 0) :
    partialSums V c t.val t.isLt
      = k0_pay2 (partialSums V c (t.val - 1) (Nat.lt_of_le_of_lt (Nat.sub_le _ _) t.isLt)) (tile V c t) := by
  obtain ⟨n, hn⟩ := t
  cases n with
  | zero => exact absurd rfl h
  | succ n => exact if_neg h

/-- The proof data of the column-sum pipeline on core `c`: the arrays as the region finds them; after the body the
    input's buffer still at its tile and the output's at the running column sums; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => tile V c t
    | ⟨1, _⟩ => partialSums V c t.val t.isLt
  Φ _ := Pipeline.ΦA spec0 c
  q _ := fullShare
  owed _ := 0

theorem dat_A (c : Dev nD) (w : Fin cfg0.W) : (dat V c).A w = V c (Pipeline.arrRef spec0 w) := by
  dsimp only [dat]
theorem dat_after0 (c : Dev nD) (t : Fin cfg0.N) : (dat V c).after 0 t = tile V c t := by dsimp only [dat]
theorem dat_after1 (c : Dev nD) (t : Fin cfg0.N) : (dat V c).after 1 t = partialSums V c t.val t.isLt := by dsimp only [dat]

end Cert.Kernel.ColSum

end
-- ==== Proof.Bits.Aggregate.lean ====
/-
  The aggregation kernel's grid is (row block i, contraction block j), 8 × 16, the contraction block moving fastest:
  point t = 16·i + j multiplies the 2048×1024 tile of A at rows 2048·i …, columns 1024·j … with the 1024×64 tile of
  scaled features (features · d_inv, rows 1024·j …), and adds the product into a 2048×64 scratch it clears at j = 0.
  At j = 15 it closes the row block: adds the row block's own scaled features, scales by d_inv, multiplies by the
  64×64 weight, adds the bias, clamps at zero, and stores the 2048×64 output tile, which the pipeline then writes back
  to rows 2048·i … of the result. What the scratch holds after point t is a recursion over t (`runningProduct`),
  restarted at the points t ≡ 0 (mod 16); the output tile at a closing point is one function of that point's blocks and
  scratch (`closedTile`). The features and d_inv each reach the kernel through TWO windows (row block and contraction
  block), so each of those arrays is held at half shares, one half per window. This module states the pipeline's proof
  data over these, for any float instance, and proves the body's obligation at every grid point.
-/
import proofs.«104186_j20401094656620_1_alg».proof.Proof.Gen.Kernel.Launch
import proofs.«104186_j20401094656620_1_alg».proof.Proof.Gen.Kernel.Skeleton
import proofs.«104186_j20401094656620_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the aggregation region is entered
variable (V : (c : Dev nD) → (b : Ref sig .tc) → Buf (Elt F) ((c : Thread nD τ).loc b))

/-- Window `w`'s block at grid point `t`, off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after grid point `n`: the zero tile plus this point's product where a row block begins (n ≡ 0 mod 16),
    the previous point's scratch plus this point's product elsewhere. -/
def runningProduct (c : Dev nD) : (n : ℕ) → n < cfg1.N → Vec F S2048x64 .f32
  | 0, h => k1_pay2 (blk V c 3 ⟨0, h⟩) (blk V c 4 ⟨0, h⟩) (blk V c 0 ⟨0, h⟩) (k1_pay1 (F := F))
  | n + 1, h =>
    if (n + 1) % 16 = 0 then k1_pay2 (blk V c 3 ⟨n + 1, h⟩) (blk V c 4 ⟨n + 1, h⟩) (blk V c 0 ⟨n + 1, h⟩) (k1_pay1 (F := F))
    else k1_pay2 (blk V c 3 ⟨n + 1, h⟩) (blk V c 4 ⟨n + 1, h⟩) (blk V c 0 ⟨n + 1, h⟩) (runningProduct c n (Nat.lt_of_succ_lt h))

theorem runningProduct_first (c : Dev nD) (t : Fin cfg1.N) (h : t.val % 16 = 0) :
    runningProduct V c t.val t.isLt = k1_pay2 (blk V c 3 t) (blk V c 4 t) (blk V c 0 t) (k1_pay1 (F := F)) := by
  obtain ⟨n, hn⟩ := t
  cases n with
  | zero => rfl
  | succ n => exact if_pos h

theorem runningProduct_later (c : Dev nD) (t : Fin cfg1.N) (h : t.val % 16 ≠ 0) :
    runningProduct V c t.val t.isLt
      = k1_pay2 (blk V c 3 t) (blk V c 4 t) (blk V c 0 t)
          (runningProduct V c (t.val - 1) (Nat.lt_of_le_of_lt (Nat.sub_le _ _) t.isLt)) := by
  obtain ⟨n, hn⟩ := t
  cases n with
  | zero => exact absurd rfl h
  | succ n => exact if_neg h

/-- The output tile a closing point (t ≡ 15 mod 16) stores: the layer's closing arithmetic on that point's row-block
    features and d_inv (read twice), the scratch as this point leaves it, the weight and the bias. -/
def closedTile (c : Dev nD) (t : Fin cfg1.N) : Vec F S2048x64 .f32 :=
  k1_pay3 (blk V c 1 t) (blk V c 2 t) (runningProduct V c t.val t.isLt) (blk V c 2 t) (blk V c 5 t) (blk V c 6 t)

/-- The region's invariant before position `n`: before the first point the scoped rest (the scratch at anything) and
    the generator register; afterwards the scratch at what the point before left, the other scoped buffers unopened,
    the generator register. -/
def inv (c : Dev nD) : (n : ℕ) → n ≤ cfg1.N → sProp 𝕄
  | 0, _ => Pipeline.ΦA spec1 c
  | n + 1, hn => iprop(owns (c : Thread nD τ) (Memref.whole cc1_scratch0) fullShare (runningProduct V c n hn)
      ∗ Pipeline.scopedRestBut (Ix := Unit) (Name := ℕ) (U := UR sig nD τ) (Lvl := ℕ) (Val := Elt F) spec1 c [cc1_scratch0]
      ∗ ∃ r, prngReg c r)

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop(owns (c : Thread nD τ) (Memref.whole cc1_scratch0) fullShare (runningProduct V c n hn)
      ∗ Pipeline.scopedRestBut (Ix := Unit) (Name := ℕ) (U := UR sig nD τ) (Lvl := ℕ) (Val := Elt F) spec1 c [cc1_scratch0]
      ∗ ∃ r, prngReg c r) := rfl

theorem inv_pos (c : Dev nD) (n : ℕ) (h : n ≤ cfg1.N) (hz : n ≠ 0) :
    inv V c n h = iprop(owns (c : Thread nD τ) (Memref.whole cc1_scratch0) fullShare (runningProduct V c (n - 1) (by omega))
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

/-- The proof data of the aggregation pipeline on core `c`: the arrays as the region finds them; after the body every
    input's buffer still at its block and the output's at the closed tile; the invariant carrying the scratch; the
    features and d_inv arrays at half shares per window; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => closedTile V c t
  Φ t := inv V c t.val (Nat.le_of_lt_succ t.isLt)
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
    | ⟨6, _⟩ => fullShare
    | ⟨7, _⟩ => fullShare
  owed _ := 0

theorem dat_A (c : Dev nD) (w : Fin cfg1.W) : (dat V c).A w = V c (Pipeline.arrRef spec1 w) := by
  dsimp only [dat]
theorem dat_after0 (c : Dev nD) (t : Fin cfg1.N) : (dat V c).after 0 t = blk V c 0 t := by dsimp only [dat]
theorem dat_after1 (c : Dev nD) (t : Fin cfg1.N) : (dat V c).after 1 t = blk V c 1 t := by dsimp only [dat]
theorem dat_after2 (c : Dev nD) (t : Fin cfg1.N) : (dat V c).after 2 t = blk V c 2 t := by dsimp only [dat]
theorem dat_after3 (c : Dev nD) (t : Fin cfg1.N) : (dat V c).after 3 t = blk V c 3 t := by dsimp only [dat]
theorem dat_after4 (c : Dev nD) (t : Fin cfg1.N) : (dat V c).after 4 t = blk V c 4 t := by dsimp only [dat]
theorem dat_after5 (c : Dev nD) (t : Fin cfg1.N) : (dat V c).after 5 t = blk V c 5 t := by dsimp only [dat]
theorem dat_after6 (c : Dev nD) (t : Fin cfg1.N) : (dat V c).after 6 t = blk V c 6 t := by dsimp only [dat]
theorem dat_after7 (c : Dev nD) (t : Fin cfg1.N) : (dat V c).after 7 t = closedTile V c t := by dsimp only [dat]
theorem dat_Φ (c : Dev nD) (t : Fin (cfg1.N + 1)) : (dat V c).Φ t = inv V c t.val (Nat.le_of_lt_succ t.isLt) := by
  dsimp only [dat]

end Cert.Kernel.Aggregate

end
-- ==== Proof.Bits.AggregateArrays.lean ====
/-
  The aggregation kernel receives the features through two windows (the row block's tile and the contraction block's
  tile) and the inverse degrees likewise, so two of its input arrays are each behind TWO windows. Entering the region, the
  core's unscoped buffers are dealt to the windows: an array behind one window whole, an array behind two windows as its
  two half shares at the same contents, one half per window; leaving it, the halves are joined again and the result's
  buffer is taken at what the write-backs left, every other buffer as it was.
-/
import proofs.«104186_j20401094656620_1_alg».proof.Proof.Bits.Aggregate
import Idealize.ShloMosaic.Lib.Pipeline.Regions

set_option maxRecDepth 16384

noncomputable section

namespace Cert.Kernel.Aggregate

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The six distinct buffers behind the eight windows' arrays, listed. -/
theorem arrBufs_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_arg0) ↦{fullShare} U main_arg0) ∗ (((c : Thread nD τ).loc main_arg1) ↦{fullShare} U main_arg1)
          ∗ (((c : Thread nD τ).loc main_v5) ↦{fullShare} U main_v5) ∗ (((c : Thread nD τ).loc main_arg2) ↦{fullShare} U main_arg2)
          ∗ (((c : Thread nD τ).loc main_arg3) ↦{fullShare} U main_arg3) ∗ (((c : Thread nD τ).loc main_v6) ↦{fullShare} U main_v6)) := by
  unfold Pipeline.arrBufs
  exact bigSep_eq_bigSepL_of_eq [main_arg0, main_arg1, main_v5, main_arg2, main_arg3, main_v6] (by decide) (by decide) _

/-- The windows' arrays as the proof data holds them, window by window, at contents `G`. -/
theorem arrays_eq (c : Dev nD) (G : (w : Fin cfg1.W) → Buf (Elt F) ((cfg1.win w).arr.view.loc (c : Thread nD τ))) :
    ((dat V c).arrays G : sProp 𝕄)
      = iprop((((c : Thread nD τ).loc main_arg0) ↦{fullShare} G 0) ∗ (((c : Thread nD τ).loc main_arg1) ↦{fullShare.left} G 1)
          ∗ (((c : Thread nD τ).loc main_v5) ↦{fullShare.left} G 2) ∗ (((c : Thread nD τ).loc main_arg1) ↦{fullShare.right} G 3)
          ∗ (((c : Thread nD τ).loc main_v5) ↦{fullShare.right} G 4) ∗ (((c : Thread nD τ).loc main_arg2) ↦{fullShare} G 5)
          ∗ (((c : Thread nD τ).loc main_arg3) ↦{fullShare} G 6) ∗ (((c : Thread nD τ).loc main_v6) ↦{fullShare} G 7)) := by
  unfold Dat.arrays
  rw [bigSep_W1]
  rw [(arr_whole1 0).set_eq_univ, (arr_whole1 1).set_eq_univ, (arr_whole1 2).set_eq_univ,
    (arr_whole1 5).set_eq_univ, (arr_whole1 6).set_eq_univ, (arr_whole1 7).set_eq_univ]
  rfl

/-- The core's unscoped buffers are the buffers behind the windows' arrays and the rest. -/
theorem bufs_split (c : Dev nD) (U : (b : Ref sig .tc) → Buf (Elt F) ((c : Thread nD τ).loc b)) :
    (unscopedBufs c U : sProp 𝕄)
      = iprop(Pipeline.arrBufs (Ix := Unit) (Name := ℕ) (U := UR sig nD τ) (Lvl := ℕ) spec1 c U
          ∗ Pipeline.unscopedRest (Ix := Unit) (Name := ℕ) (U := UR sig nD τ) (Lvl := ℕ) spec1 c U) :=
  Pipeline.unscopedBufs_split₀ (Pipeline.pin (pcfgs (F := F)) fun p => (cfgs p).toPCfg_adm) 1 winFacts₀1.arr_unscoped c U

/-- An input window's array is never written: at every point it holds the entry contents. -/
theorem arrAt_input (c : Dev nD) (w : Fin cfg1.W) (hw : (cfg1.win w).isOut = false) (n : ℕ) :
    (dat V c).arrAt w n = V c (Pipeline.arrRef spec1 w) :=
  ((dat V c).arrAt_in w hw n).trans (dat_A V c w)

/-- ENTRY. The core's unscoped buffers at the entry contents are the windows' arrays at those contents — the features'
    and the inverse degrees' buffers each split into their two halves — beside the buffers no window reads. -/
theorem arrays_of_bufs (c : Dev nD) :
    (unscopedBufs c (V c) : sProp 𝕄)
      ⊢ iprop((dat V c).arrays ((dat V c).arrAt · 0) ∗ Pipeline.unscopedRest (Ix := Unit) (Name := ℕ) (U := UR sig nD τ) (Lvl := ℕ) spec1 c (V c)) := by
  rw [bufs_split c (V c), arrBufs_eq, arrays_eq]
  rw [arrAt_input V c 0 rfl, arrAt_input V c 1 rfl, arrAt_input V c 2 rfl, arrAt_input V c 3 rfl, arrAt_input V c 4 rfl,
    arrAt_input V c 5 rfl, arrAt_input V c 6 rfl, show (dat V c).arrAt 7 0 = V c (Pipeline.arrRef spec1 7) from dat_A V c 7]
  have e1 : ((((c : Thread nD τ).loc main_arg1) ↦{fullShare} V c main_arg1 : sProp 𝕄))
      ⊢ iprop((((c : Thread nD τ).loc main_arg1) ↦{fullShare.left} V c main_arg1) ∗ (((c : Thread nD τ).loc main_arg1) ↦{fullShare.right} V c main_arg1)) :=
    (pointsTo_share (PosShare.mem_left_op_right fullShare)).1
  have e5 : ((((c : Thread nD τ).loc main_v5) ↦{fullShare} V c main_v5 : sProp 𝕄))
      ⊢ iprop((((c : Thread nD τ).loc main_v5) ↦{fullShare.left} V c main_v5) ∗ (((c : Thread nD τ).loc main_v5) ↦{fullShare.right} V c main_v5)) :=
    (pointsTo_share (PosShare.mem_left_op_right fullShare)).1
  iintro ⟨⟨H0, H1, H5, H2, H3, H6⟩, Hrest⟩
  ihave H1' := e1 $$ H1
  icases H1' with ⟨H1l, H1r⟩
  ihave H5' := e5 $$ H5
  icases H5' with ⟨H5l, H5r⟩
  isplitr [Hrest]
  · isplitl [H0]; · iexact H0
    isplitl [H1l]; · iexact H1l
    isplitl [H5l]; · iexact H5l
    isplitl [H1r]; · iexact H1r
    isplitl [H5r]; · iexact H5r
    isplitl [H2]; · iexact H2
    isplitl [H3]; · iexact H3
    iexact H6
  · iexact Hrest

/-- EXIT. The windows' arrays after the last point — the inputs as entered, the result at what the write-backs left —
    beside the buffers no window reads are the core's unscoped buffers at any contents `V'` that have the result there
    and agree with the entry contents elsewhere: the halves of the features' and the inverse degrees' buffers join. -/
theorem bufs_of_arrays (c : Dev nD) (V' : (b : Ref sig .tc) → Buf (Elt F) ((c : Thread nD τ).loc b))
    (hout : V' main_v6 = (dat V c).arrAt 7 cfg1.N) (hrest : ∀ b : Ref sig .tc, b ≠ main_v6 → V' b = V c b) :
    iprop((dat V c).arrays ((dat V c).arrAt · cfg1.N) ∗ Pipeline.unscopedRest (Ix := Unit) (Name := ℕ) (U := UR sig nD τ) (Lvl := ℕ) spec1 c (V c))
      ⊢ (unscopedBufs c V' : sProp 𝕄) := by
  rw [bufs_split c V', arrBufs_eq, arrays_eq]
  rw [arrAt_input V c 0 rfl, arrAt_input V c 1 rfl, arrAt_input V c 2 rfl, arrAt_input V c 3 rfl, arrAt_input V c 4 rfl,
    arrAt_input V c 5 rfl, arrAt_input V c 6 rfl]
  rw [hrest main_arg0 (by decide), hrest main_arg1 (by decide), hrest main_v5 (by decide), hrest main_arg2 (by decide),
    hrest main_arg3 (by decide), hout]
  have hr : (Pipeline.unscopedRest (Ix := Unit) (Name := ℕ) (U := UR sig nD τ) (Lvl := ℕ) spec1 c V' : sProp 𝕄)
      = Pipeline.unscopedRest (Ix := Unit) (Name := ℕ) (U := UR sig nD τ) (Lvl := ℕ) spec1 c (V c) := by
    unfold Pipeline.unscopedRest
    exact bigSep_congr fun b hb => by
      rw [hrest b fun e => (Finset.mem_sdiff.mp hb).2 (Finset.mem_image.mpr ⟨7, Finset.mem_univ _, e.symm⟩)]
  rw [hr]
  have j1 : iprop((((c : Thread nD τ).loc main_arg1) ↦{fullShare.left} V c main_arg1) ∗ (((c : Thread nD τ).loc main_arg1) ↦{fullShare.right} V c main_arg1))
      ⊢ ((((c : Thread nD τ).loc main_arg1) ↦{fullShare} V c main_arg1 : sProp 𝕄)) :=
    (pointsTo_share (PosShare.mem_left_op_right fullShare)).2
  have j5 : iprop((((c : Thread nD τ).loc main_v5) ↦{fullShare.left} V c main_v5) ∗ (((c : Thread nD τ).loc main_v5) ↦{fullShare.right} V c main_v5))
      ⊢ ((((c : Thread nD τ).loc main_v5) ↦{fullShare} V c main_v5 : sProp 𝕄)) :=
    (pointsTo_share (PosShare.mem_left_op_right fullShare)).2
  iintro ⟨⟨H0, H1l, H5l, H1r, H5r, H2, H3, H6⟩, Hrest⟩
  isplitr [Hrest]
  · isplitl [H0]; · iexact H0
    isplitl [H1l H1r]
    · iapply j1
      isplitl [H1l]; · iexact H1l
      iexact H1r
    isplitl [H5l H5r]
    · iapply j5
      isplitl [H5l]; · iexact H5l
      iexact H5r
    isplitl [H2]; · iexact H2
    isplitl [H3]; · iexact H3
    iexact H6
  · iexact Hrest

end Cert.Kernel.Aggregate

end
-- ==== Proof.Bits.Launch.lean ====
/-
  The program is: the column-sum region, seven host operations (add one, divide one by it, reshape the row of inverse
  degrees to a column), the aggregation region. Between two items every unscoped buffer of the core is held whole at a
  known valuation: the launch memory; after the first region the same with the column-sum result at what its write-backs
  left; after the host operations their results added; after the second region the layer's result at what its
  write-backs left. Beside the buffers the core carries its generator register and owes nothing. Each region splits its
  windows' arrays out of the buffers at entry and puts them back at exit. The run ends with every unscoped buffer at the
  last valuation, from which the frame (the arguments are never written) and the result's contents are read.
-/
import proofs.«104186_j20401094656620_1_alg».proof.Proof.Bits.ColSum
import proofs.«104186_j20401094656620_1_alg».proof.Proof.Bits.Aggregate
import proofs.«104186_j20401094656620_1_alg».proof.Proof.Bits.AggregateArrays
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- At launch. -/
abbrev W0 : Dev nD → Valuation τ sig (Elt F) := fun c b => (s₀ m ρ).mem ((c : Dev nD), b)
/-- The same read at the TensorCore's references: what the column-sum region is entered with. -/
abbrev E0 : (c : Dev nD) → (b : Ref sig .tc) → Buf (Elt F) ((c : Thread nD τ).loc b) := fun c b => W0 m ρ c b

/-- After the column-sum region: its arrays at what the pipeline leaves, every other buffer as launched. -/
def W1 (c : Dev nD) : Valuation τ sig (Elt F) :=
  Pipeline.withArrays spec0 c (W0 m ρ c) fun w => (ColSum.dat (E0 m ρ) c).arrAt w cfg0.N
theorem W1_arr (c : Dev nD) (w : Fin cfg0.W) :
    W1 m ρ c (Proc.devRef .tc (Pipeline.arrRef spec0 w)) = (ColSum.dat (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev E1 : (c : Dev nD) → (b : Ref sig .tc) → Buf (Elt F) ((c : Thread nD τ).loc b) := fun c b => W1 m ρ c b

/-- After the host operations: what the aggregation region is entered with. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b

/-- After the aggregation region: the result's buffer at what the pipeline leaves, every other buffer as entered. -/
def W3 (c : Dev nD) : Valuation τ sig (Elt F) :=
  Function.update (W2 m ρ c) (Proc.devRef .tc main_v6) ((Aggregate.dat (E2 m ρ) c).arrAt 7 cfg1.N)
theorem W3_out (c : Dev nD) : W3 m ρ c (Proc.devRef .tc main_v6) = (Aggregate.dat (E2 m ρ) c).arrAt 7 cfg1.N := by
  unfold W3; exact Function.update_self _ _ _
theorem W3_of_ne (c : Dev nD) (b : Ref sig .tc) (hb : b ≠ main_v6) :
    W3 m ρ c (Proc.devRef .tc b) = W2 m ρ c (Proc.devRef .tc b) := by
  unfold W3; exact Function.update_of_ne (StableHlo.devRef_ne_of_ne hb) _ _
abbrev E3 : (c : Dev nD) → (b : Ref sig .tc) → Buf (Elt F) ((c : Thread nD τ).loc b) := fun c b => W3 m ρ c b

/-! ## The proof data family and what rides beside the buffers -/

abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => ColSum.dat (E0 m ρ) c
  | ⟨1, _⟩ => fun c => Aggregate.dat (E2 m ρ) c

abbrev 𝒱₀ : Variants := Variants.none
abbrev L : GSem nD τ sig → Finset Unit := fun _ => ∅
abbrev lv : GSem nD τ sig → Unit → ℕ := fun _ _ => 0

/-- The core's generator register at some state, and the core owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations as a segment over the unscoped buffers from the contents after the first region. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

/-! ## The column-sum region as a segment -/

section Regions

-- the two bodies' obligations, proved in their own modules and handed in where the program's run is assembled
variable (hbody0 : ∀ c, BodyObligation (ColSum.dat (F := F) (E0 m ρ) c) (defs₀ (F := F)) Variants.none () Set.univ)
variable (hbody1 : ∀ c, BodyObligation (Aggregate.dat (F := F) (E2 m ρ) c) (defs₀ (F := F)) Variants.none () Set.univ)

theorem hF0 (c : Dev nD) (w : Fin cfg0.W) : (ColSum.dat (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

set_option backward.isDefEq.respectTransparency.types false in
/-- The column-sum region: entered from every unscoped buffer at the launch contents, left with them at the contents
    after it. Its two arrays (the adjacency, the row of column sums) are split out of the buffers and put back; the
    generator register goes through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hbody0 c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Regions

/-! ## The aggregation region as a segment -/

/-- After the last point the aggregation's invariant gives the scoped rest back, the scratch's contents forgotten. -/
theorem scratch_out (V : (c : Dev nD) → (b : Ref sig .tc) → Buf (Elt F) ((c : Thread nD τ).loc b)) (c : Dev nD) :
    (Aggregate.dat V c).Φ (Fin.last cfg1.N) ⊢ (Pipeline.ΦA spec1 c : sProp 𝕄) := by
  rw [Aggregate.dat_Φ, Aggregate.inv_pos V c _ _ (by rw [Fin.val_last]; have : cfg1.N = 128 := N_1; omega)]
  unfold Pipeline.ΦA
  have hs : (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
    Pipeline.scopedRest_split_of_list spec1 c [cc1_scratch0] (by decide) (by decide)
  rw [hs]
  have hw := Memref.IsWhole.exists_owns_eq (Ix := Unit) (Name := ℕ) (U := UR sig nD τ) (Lvl := ℕ) (Val := Elt F)
    (c := (c : Thread nD τ)) (Memref.isWhole_whole cc1_scratch0) fullShare
  iintro ⟨Hs, Hrest, Hp⟩
  isplitr [Hp]
  · isplitl [Hs]
    · iapply (Entails.of_eq hw)
      iexists _; iexact Hs
    iexact Hrest
  · iexact Hp

section Regions

variable (hbody0 : ∀ c, BodyObligation (ColSum.dat (F := F) (E0 m ρ) c) (defs₀ (F := F)) Variants.none () Set.univ)
variable (hbody1 : ∀ c, BodyObligation (Aggregate.dat (F := F) (E2 m ρ) c) (defs₀ (F := F)) Variants.none () Set.univ)

/-- The last thread state without the core's debts: every unscoped buffer at the last contents, the generator
    register at some state. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The aggregation region: entered from every unscoped buffer at the contents after the host operations, left with
    the result's buffer at what the write-backs leave. Its arrays are dealt to the windows (the shared ones by halves)
    and joined back; the generator register and the scoped rest go through the invariant, which carries the scratch;
    nothing is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (hbody1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Aggregate.arrays_of_bufs (E2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from scratch_out (E2 m ρ) c).trans ?_
    unfold Pipeline.ΦA
    iintro ⟨Hr, Hp⟩
    isplitl [Hp]; · iexact Hp
    isplitr; · iempintro
    iexact Hr
  hexit c := by
    have hjoin := Aggregate.bufs_of_arrays (E2 m ρ) c (E3 m ρ c) (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The launch -/

/-- @main's three items in order. -/
abbrev segs : List (Pipeline.Seg (pcfgs (F := F)) adm (pdats m ρ) () defs₀ 𝒱₀ L lv) :=
  [ .region (reg0 m ρ hbody0), .host (hseg m ρ), .region (reg1 m ρ hbody1) ]

theorem main_run (c : Dev nD) : main (F := F) c = Pipeline.Seg.run (segs m ρ hbody0 hbody1) :=
  main_segs adm (pdats m ρ) () 𝒱₀ L lv (hseg m ρ) (reg0 m ρ hbody0) (reg1 m ρ hbody1) rfl c

include hbody0 hbody1 in
set_option backward.isDefEq.respectTransparency.types false in
/-- THE RUN. From any memory with zero counters every weakly fair execution of @main terminates, nothing faulting, and
    in every final state each unscoped buffer of each core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ hbody0 hbody1)
    (fun c Q => by rw [main_run m ρ hbody0 hbody1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Regions

end Cert.Kernel.Run

end
-- ==== Proof.Bits.Ends.lean ====
/-
  What the last boundary's contents are at the buffers the claims speak of. No item of the program writes an argument:
  the column-sum region only reads the adjacency, the host operations write their own seven results, the aggregation
  region writes the result only. So each argument's buffer ends as launched, which is the frame. The result's buffer ends
  at what the aggregation's write-backs left.
-/
import proofs.«104186_j20401094656620_1_alg».proof.Proof.Bits.Launch
import proofs.«104186_j20401094656620_1_alg».proof.Proof.Gen.Kernel.Regions

set_option maxRecDepth 16384

noncomputable section

namespace Cert.Kernel.Run

open Idealize.ShloMosaic Idealize.ShloMosaic.TcCoe
open Idealize.SL Idealize.SL.Sem
open Idealize.ShloMosaic.Pipeline (Dat BodyObligation)
open Cert.Kernel

variable {F : FTy → Type} [FloatOps F]

variable (m : (ℓ : Loc nD τ sig) → Buf (Elt F) ℓ) (ρ : Dev nD → PrngReg)

/-- The host operations leave every buffer they do not write as it was. -/
theorem W2_keeps (c : Dev nD) (b : Ref sig .tc) (hb : b ∉ (Gen.hostOps1_W : List (Ref sig .tc))) :
    W2 m ρ c (Proc.devRef .tc b) = W1 m ρ c (Proc.devRef .tc b) :=
  StableHlo.after_of_writes_sub Gen.hostOps1 _ Gen.hostOps1_writes hb

theorem W3_arg0 (c : Dev nD) : W3 m ρ c (Proc.devRef .tc main_arg0) = m ((c : Thread nD τ).loc main_arg0) :=
  (W3_of_ne m ρ c main_arg0 (by decide)).trans <| (W2_keeps m ρ c main_arg0 (by decide)).trans <|
    (W1_arr m ρ c 0).trans <| ((ColSum.dat (E0 m ρ) c).arrAt_in 0 rfl _).trans <| (ColSum.dat_A (E0 m ρ) c 0).trans rfl
theorem W3_arg1 (c : Dev nD) : W3 m ρ c (Proc.devRef .tc main_arg1) = m ((c : Thread nD τ).loc main_arg1) :=
  (W3_of_ne m ρ c main_arg1 (by decide)).trans <| (W2_keeps m ρ c main_arg1 (by decide)).trans <|
    (W1_of_ne m ρ c main_arg1 (by decide)).trans rfl
theorem W3_arg2 (c : Dev nD) : W3 m ρ c (Proc.devRef .tc main_arg2) = m ((c : Thread nD τ).loc main_arg2) :=
  (W3_of_ne m ρ c main_arg2 (by decide)).trans <| (W2_keeps m ρ c main_arg2 (by decide)).trans <|
    (W1_of_ne m ρ c main_arg2 (by decide)).trans rfl
theorem W3_arg3 (c : Dev nD) : W3 m ρ c (Proc.devRef .tc main_arg3) = m ((c : Thread nD τ).loc main_arg3) :=
  (W3_of_ne m ρ c main_arg3 (by decide)).trans <| (W2_keeps m ρ c main_arg3 (by decide)).trans <|
    (W1_of_ne m ρ c main_arg3 (by decide)).trans rfl

/-- What the aggregation region is entered with at the arguments: the launch contents. -/
theorem W2_arg0 (c : Dev nD) : W2 m ρ c (Proc.devRef .tc main_arg0) = m ((c : Thread nD τ).loc main_arg0) :=
  (W2_keeps m ρ c main_arg0 (by decide)).trans <|
    (W1_arr m ρ c 0).trans <| ((ColSum.dat (E0 m ρ) c).arrAt_in 0 rfl _).trans <| (ColSum.dat_A (E0 m ρ) c 0).trans rfl
theorem W2_arg1 (c : Dev nD) : W2 m ρ c (Proc.devRef .tc main_arg1) = m ((c : Thread nD τ).loc main_arg1) :=
  (W2_keeps m ρ c main_arg1 (by decide)).trans <| (W1_of_ne m ρ c main_arg1 (by decide)).trans rfl
theorem W2_arg2 (c : Dev nD) : W2 m ρ c (Proc.devRef .tc main_arg2) = m ((c : Thread nD τ).loc main_arg2) :=
  (W2_keeps m ρ c main_arg2 (by decide)).trans <| (W1_of_ne m ρ c main_arg2 (by decide)).trans rfl
theorem W2_arg3 (c : Dev nD) : W2 m ρ c (Proc.devRef .tc main_arg3) = m ((c : Thread nD τ).loc main_arg3) :=
  (W2_keeps m ρ c main_arg3 (by decide)).trans <| (W1_of_ne m ρ c main_arg3 (by decide)).trans rfl

section

variable (hbody0 : ∀ c, BodyObligation (ColSum.dat (F := F) (E0 m ρ) c) (defs₀ (F := F)) Variants.none () Set.univ)
variable (hbody1 : ∀ c, BodyObligation (Aggregate.dat (F := F) (E2 m ρ) c) (defs₀ (F := F)) Variants.none () Set.univ)

include hbody0 hbody1 in
/-- THE RUN, read at the claims' buffers: the result at what the aggregation's write-backs left, each argument as launched. -/
theorem run_ends : θ_run defs (onTc (τ := τ) (main (F := F))) ⟨m, fun _ => 0, ρ⟩ (fun r => ∀ c : Dev nD,
      r.2.mem ((c.tc : Thread nD τ).loc main_v6) = (Aggregate.dat (E2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (W3_out m ρ c),
     (h c _ (mem_uc main_arg0 (by decide))).trans (W3_arg0 m ρ c),
     (h c _ (mem_uc main_arg1 (by decide))).trans (W3_arg1 m ρ c),
     (h c _ (mem_uc main_arg2 (by decide))).trans (W3_arg2 m ρ c),
     (h c _ (mem_uc main_arg3 (by decide))).trans (W3_arg3 m ρ c)⟩)
    (run_main m ρ hbody0 hbody1)

end

end Cert.Kernel.Run

end
-- ==== Proof.Bits.ColSumBody.lean ====
/-
  The column-sum kernel's body at every grid point: from the tile in the input's staging buffer and the row buffer as the point before left it (anything where a column block begins), the body leaves the row buffer at the running column sums.
-/
import proofs.«104186_j20401094656620_1_alg».proof.Proof.Bits.ColSum

set_option maxRecDepth 16384

noncomputable section

namespace Cert.Kernel.ColSum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ### The rectangle that is all of a shape

Every access of the body goes through the unit-stride rectangle that starts at zero on each axis and has the
buffer's own sizes: all of the buffer's elements, each at its own index. Three facts about such a rectangle, for
any shape and element type, carry the whole body. -/

section Full

variable {s : Shape} {e : EltTy} {Val : EltTy → Type}

/-- It places each of its indices at itself: coordinate `a` of `x` goes to `0 + 1 · x a`. -/
theorem emb_full {off : Fin s.rank → Nat} (h0 : ∀ a, off a = 0) (inb : ∀ a, off a + s.size a ≤ s.size a) (x : s.Idx) :
    (Rect.unit (s := s) off s.size inb).emb x = x := by
  funext a; apply Fin.ext
  rw [Rect.emb_apply]
  show off a + 1 * (x a).val = (x a).val
  rw [h0 a]; omega

/-- So what a buffer reads through it is what the buffer reads whole, -/
theorem read_full (m : Memref sig .tc .vmem s e) {off : Fin s.rank → Nat} (h0 : ∀ a, off a = 0) (inb : ∀ a, off a + s.size a ≤ s.size a)
    (g : m.view.ty.Contents Val) :
    (m.access (Rect.unit (s := s) off s.size inb)).read Val g = m.view.read Val g := by
  funext x
  show _root_.cast _ (g (m.view.emb ((Rect.unit (s := s) off s.size inb).emb x))) = _root_.cast _ (g (m.view.emb x))
  rw [emb_full h0 inb]

/-- and after an unmasked write through it the buffer reads as what was written, whatever it held before. -/
theorem read_write_full (m : Memref sig .tc .vmem s e) {off : Fin s.rank → Nat} (h0 : ∀ a, off a = 0) (inb : ∀ a, off a + s.size a ≤ s.size a)
    (g : m.view.ty.Contents Val) (w : s.Idx → Val e) :
    m.view.read Val ((m.access (Rect.unit (s := s) off s.size inb)).write Val g w Finset.univ) = w := by
  funext y
  conv_lhs => rw [← emb_full h0 inb y]
  rw [View.read_slice_write_emb _ _ _ (Finset.mem_univ _)]

end Full

/-- The offsets the body writes for the row buffer and for the tile, `[0, 0]`, are zero on each axis. -/
theorem zeroRow : ∀ a : Fin S1x2048.rank, (![0, 0] : Fin 2 → Nat) a = 0 := by decide
theorem zeroTile : ∀ a : Fin S2048x2048.rank, (![0, 0] : Fin 2 → Nat) a = 0 := by decide

/-- The rectangles of the body's accesses: all of the 1×2048 row buffer, all of the 2048×2048 tile. -/
abbrev rRow : Rect S1x2048 := Rect.unit (s := S1x2048) ![0, 0] S1x2048.size inb_S1x2048_S1x2048_0_0
abbrev rTile : Rect S2048x2048 := Rect.unit (s := S2048x2048) ![0, 0] S2048x2048.size inb_S2048x2048_S2048x2048_0_0

/-! ### The body's one branch -/

/-- The condition of the body's `scf.if`, as it computes it from the grid coordinates: the row block's number
    (coordinate 1), as a 32-bit word, compared with zero; the comparison's bit widened and tested. -/
abbrev atFirst (i : grid0.Coords) : Prop :=
  Scalar.cmpi .ne (Scalar.extui (Scalar.cmpi .eq (BitVec.ofNat 32 (i 1).val) 0#32)) 0#32 = 1#1

/-- At point `t = 8·j + i` that coordinate is `i = t mod 8`: the branch is taken exactly where a column block
    begins. Decided over the grid's 64 points. -/
theorem atFirst_iff : ∀ t : Fin cfg0.N, atFirst (grid0.coords t) ↔ t.val % 8 = 0 :=
  (by decide +kernel : ∀ t : Fin grid0.N, atFirst (grid0.coords t) ↔ t.val % 8 = 0)

/-! ### The body on any two buffers

Stated for any row block's coordinates, any whole buffer `arg2` holding a tile `x` and any whole buffer `arg3` for
the row, with a continuation `K`: what the body leaves is handed to `K`. -/

/-- Where a column block begins (`i = 0`): the row buffer, whatever it holds, is read (the value unused) and
    overwritten with the zero row; read back it is the zero row; the tile is read; the row buffer is read once more
    (unused) and overwritten with the zero row plus the tile's column sums. The tile's buffer is left as found. -/
theorem run_first (c : Dev nD) (E : Set ℕ) (i : grid0.Coords) (hi : atFirst i)
    (arg2 : Memref sig .tc .vmem S2048x2048 .f32) (harg2 : arg2.IsWhole)
    (arg3 : Memref sig .tc .vmem S1x2048 .f32) (harg3 : arg3.IsWhole)
    (x : Vec F S2048x2048 .f32) (K : PUnit → sProp 𝕄) :
    iprop(owns (c : Thread nD τ) arg2 fullShare x ∗ (∃ d, owns (c : Thread nD τ) arg3 fullShare d))
      ⊢ iprop(((owns (c : Thread nD τ) arg2 fullShare x ∗ owns (c : Thread nD τ) arg3 fullShare (k0_pay2 (k0_pay1 (F := F)) x)) -∗ K ⟨⟩)
          -∗ wp frame (wpE (defs₀ (F := F)) Variants.none c none) E (cc0__colsum_kernel i arg2 harg2 arg3 harg3) K) := by
  simp only [cc0__colsum_kernel_eq_skeleton]; unfold cc0__colsum_kernel_skel
  unfold owns
  iintro ⟨⟨%g, %hg, HX⟩, ⟨%d, %f, -, HR⟩⟩ Hk
  simp only [Prog.lift, Prog.bind_op, Prog.bind_ret, Prog.bind_assoc, Prog.pure_eq_ret, dif_pos hi]
  -- the zeroing: a load whose value is dropped, the store of the zero row
  iapply (wp_load_rect Variants.none (c : Thread nD τ) none E (m := arg3) (r := rRow) (View.set_slice_subset _ _)) $$ HR
  iintro HR
  iapply (wp_store Variants.none (c : Thread nD τ) none E (m := arg3) (r := rRow) (Mk := Finset.univ) (View.set_slice_subset _ _)) $$ HR
  iintro HR
  -- the accumulation: the row, the tile, a load whose value is dropped, the store of the sum
  iapply (wp_load_rect Variants.none (c : Thread nD τ) none E (m := arg3) (r := rRow) (View.set_slice_subset _ _)) $$ HR
  iintro HR
  iapply (wp_load_rect Variants.none (c : Thread nD τ) none E (m := arg2) (r := rTile) (View.set_slice_subset _ _)) $$ HX
  iintro HX
  iapply (wp_load_rect Variants.none (c : Thread nD τ) none E (m := arg3) (r := rRow) (View.set_slice_subset _ _)) $$ HR
  iintro HR
  iapply (wp_store Variants.none (c : Thread nD τ) none E (m := arg3) (r := rRow) (Mk := Finset.univ) (View.set_slice_subset _ _)) $$ HR
  iintro HR
  rw [wp_ret]; imodintro
  iapply Hk
  isplitl [HX]
  · iexists g; isplitr; · ipureintro; exact hg
    iexact HX
  · iexists _; isplitr
    swap; · iexact HR
    ipureintro
    -- the last store is read back; the row it added to is the zero row read back; the tile is `x`
    rw [read_write_full arg3 zeroRow, read_full arg3 zeroRow, read_write_full arg3 zeroRow, read_full arg2 zeroTile, hg]

/-- Inside a column block (`i ≠ 0`) the zeroing is skipped: the row read is what the buffer held, `r`, and the buffer
    is left at `r` plus the tile's column sums. -/
theorem run_later (c : Dev nD) (E : Set ℕ) (i : grid0.Coords) (hi : ¬atFirst i)
    (arg2 : Memref sig .tc .vmem S2048x2048 .f32) (harg2 : arg2.IsWhole)
    (arg3 : Memref sig .tc .vmem S1x2048 .f32) (harg3 : arg3.IsWhole)
    (x : Vec F S2048x2048 .f32) (r : Vec F S1x2048 .f32) (K : PUnit → sProp 𝕄) :
    iprop(owns (c : Thread nD τ) arg2 fullShare x ∗ owns (c : Thread nD τ) arg3 fullShare r)
      ⊢ iprop(((owns (c : Thread nD τ) arg2 fullShare x ∗ owns (c : Thread nD τ) arg3 fullShare (k0_pay2 r x)) -∗ K ⟨⟩)
          -∗ wp frame (wpE (defs₀ (F := F)) Variants.none c none) E (cc0__colsum_kernel i arg2 harg2 arg3 harg3) K) := by
  simp only [cc0__colsum_kernel_eq_skeleton]; unfold cc0__colsum_kernel_skel
  unfold owns
  iintro ⟨⟨%g, %hg, HX⟩, ⟨%f, %hf, HR⟩⟩ Hk
  simp only [Prog.lift, Prog.bind_op, Prog.bind_ret, Prog.bind_assoc, Prog.pure_eq_ret, dif_neg hi]
  iapply (wp_load_rect Variants.none (c : Thread nD τ) none E (m := arg3) (r := rRow) (View.set_slice_subset _ _)) $$ HR
  iintro HR
  iapply (wp_load_rect Variants.none (c : Thread nD τ) none E (m := arg2) (r := rTile) (View.set_slice_subset _ _)) $$ HX
  iintro HX
  iapply (wp_load_rect Variants.none (c : Thread nD τ) none E (m := arg3) (r := rRow) (View.set_slice_subset _ _)) $$ HR
  iintro HR
  iapply (wp_store Variants.none (c : Thread nD τ) none E (m := arg3) (r := rRow) (Mk := Finset.univ) (View.set_slice_subset _ _)) $$ HR
  iintro HR
  rw [wp_ret]; imodintro
  iapply Hk
  isplitl [HX]
  · iexists g; isplitr; · ipureintro; exact hg
    iexact HX
  · iexists _; isplitr
    swap; · iexact HR
    ipureintro
    rw [read_write_full arg3 zeroRow, read_full arg3 zeroRow, read_full arg2 zeroTile, hg, hf]

/-! ### What the two staging buffers hold when the body runs -/

/-- The input's holds the point's tile: the window is fetched at every point, and its blocks lie inside the array, so
    the fetch fills the whole buffer with the array's block there. -/
theorem before_in (c : Dev nD) (t : Fin cfg0.N) (d) : (dat V c).before 0 t d = tile V c t := by
  rw [Dat.before_fetched _ 0 t (fetch0_0 t)]
  unfold Dat.fetched Dat.blockOf tile
  rw [dat_A]
  rfl

/-- Inside a column block (`t mod 8 ≠ 0`, so `t ≠ 0`) the row buffer holds what the point before left, the running
    sums up to `t − 1`: it was not written back in between (a write-back follows the points `≡ 7 mod 8` only, and
    `t − 1 ≡ 7` would make `t ≡ 0`), the window is idle nowhere and its block is cut nowhere. -/
theorem before_out_later (c : Dev nD) (t : Fin cfg0.N) (h : t.val % 8 ≠ 0) (d) :
    (dat V c).before 1 t d = partialSums V c (t.val - 1) (Nat.lt_of_le_of_lt (Nat.sub_le _ _) t.isLt) := by
  rw [Dat.before_out_kept _ 1 rfl t (by omega)
    (Bool.eq_false_iff.mpr fun hf => by have := (flush0_1 _).mp hf; dsimp only at this; omega)
    (fun _ => rfl) (fun _ _ => rfl)]
  dsimp only [dat]

/-! ### The body at a grid point -/

/-- The staging buffers the body is handed at point `t`: the tile's and the row's. -/
abbrev mIn (t : Fin cfg0.N) : Memref sig .tc .vmem S2048x2048 .f32 := win0_0.stage (cfg0.slots t 0)
abbrev mRow (t : Fin cfg0.N) : Memref sig .tc .vmem S1x2048 .f32 := win0_1.stage (cfg0.slots t 1)

/-- The body at any point `t`. The tile's buffer holds `tile t`. Where a column block begins the row buffer holds
    anything — which is all the zeroing asks — and is left at the zero row plus the tile's column sums,
    `partialSums t` there; elsewhere it holds `partialSums (t − 1)` and is left at that plus the tile's column sums,
    `partialSums t` again. The invariant and what the core owes are the same before and after, and pass through
    unread. -/
theorem sound_body (c : Dev nD) (t : Fin cfg0.N) :
    iprop((dat V c).Φ t.castSucc ∗ (dat V c).owesAt () t.castSucc
        ∗ (∃ d, owns (c : Thread nD τ) (mIn t) fullShare ((dat V c).before 0 t d))
        ∗ (∃ d, owns (c : Thread nD τ) (mRow t) fullShare ((dat V c).before 1 t d)))
      ⊢ wp frame (wpE (defs₀ (F := F)) Variants.none c none) Set.univ (bodyAt0 t) (fun _ =>
          iprop((dat V c).Φ t.succ ∗ (dat V c).owesAt () t.succ
            ∗ owns (c : Thread nD τ) (mIn t) fullShare ((dat V c).after 0 t)
            ∗ owns (c : Thread nD τ) (mRow t) fullShare ((dat V c).after 1 t))) := by
  simp only [before_in]
  rw [show (dat V c).Φ t.succ = (dat V c).Φ t.castSucc from rfl,
    show (dat V c).owesAt () t.succ = (dat V c).owesAt () t.castSucc from rfl, dat_after0, dat_after1]
  by_cases h : t.val % 8 = 0
  · rw [partialSums_first V c t h]
    iintro ⟨HΦ, Ho, ⟨%d0, HX⟩, ⟨%d1, HR⟩⟩
    iapply (run_first c Set.univ (grid0.coords t) ((atFirst_iff t).mpr h) _ _ _ _ (tile V c t) _) $$ [HX HR]
    · isplitl [HX]; · iexact HX
      iexists _; iexact HR
    iintro ⟨HX, HR⟩
    isplitl [HΦ]; · iexact HΦ
    isplitl [Ho]; · iexact Ho
    isplitl [HX]; · iexact HX
    iexact HR
  · rw [partialSums_later V c t h]
    simp only [before_out_later V c t h]
    iintro ⟨HΦ, Ho, ⟨%d0, HX⟩, ⟨%d1, HR⟩⟩
    iapply (run_later c Set.univ (grid0.coords t) (fun hc => h ((atFirst_iff t).mp hc)) _ _ _ _ (tile V c t) _ _) $$ [HX HR]
    · isplitl [HX]; · iexact HX
      iexact HR
    iintro ⟨HX, HR⟩
    isplitl [HΦ]; · iexact HΦ
    isplitl [Ho]; · iexact Ho
    isplitl [HX]; · iexact HX
    iexact HR

/-- The body's obligation at every grid point. -/
theorem body_obligation (c : Dev nD) :
    BodyObligation (dat (F := F) V c) (defs₀ (F := F)) Variants.none () Set.univ := fun t => by
  rw [bigSep_W0, bigSep_W0]
  exact sound_body V c t

end Cert.Kernel.ColSum

end
-- ==== Proof.Bits.AggregateBody.lean ====
/-
  The aggregation kernel's body at every grid point: from the windows' blocks in their staging buffers and the scratch as the point before left it (anything where a row block begins), the body leaves the scratch at the running product and, at a closing point, the output's buffer at the closed tile.
-/
import proofs.«104186_j20401094656620_1_alg».proof.Proof.Bits.Aggregate
import Idealize.ShloMosaic.Lib.Pipeline.Value

set_option maxRecDepth 16384

noncomputable section

namespace Cert.Kernel.Aggregate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ### Whole-buffer loads and stores

Every access of the kernel is of a whole buffer: the rectangle at offset zero of the buffer's full size. A load
through it of contents reading `X` reads `X`; a store through it leaves its payload, whatever was there. -/

theorem zeros₂ : (![0, 0] : Fin 2 → Nat) = fun _ => 0 := by funext k; fin_cases k <;> rfl
theorem zeros₁ : (![0] : Fin 1 → Nat) = fun _ => 0 := by funext k; fin_cases k; rfl

/-- The whole of a whole buffer, loaded: what the buffer reads. -/
theorem load_all {S : Shape} {e : EltTy} {m : Memref sig .tc .vmem S e} (h : m.IsWhole) {off : Fin S.rank → Nat}
    (hz : off = fun _ => 0) (inb : ∀ k, off k + S.size k ≤ S.size k) (X : S.Idx → Elt F e) :
    View.readAt (Elt F) m.view (Rect.unit off S.size inb).toLoadRect (h.unread X) = X := by
  rw [View.readAt_eq_ld, h.read_unread, View.ld_unit_zero hz]

/-- The whole of a buffer, stored last: the buffer reads the payload, whatever was stored or held before. -/
theorem store_all {S : Shape} {e : EltTy} (v : View sig .tc .vmem S e) (f : v.ty.Contents (Elt F)) {off : Fin S.rank → Nat}
    (hz : off = fun _ => 0) (inb : ∀ k, off k + S.size k ≤ S.size k) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self .., View.mem_set_unit_zero hz inb y⟩),
    View.canon_cons_unit_zero hz]

/-! ### The kernel's two branches

The first branch is taken where the contraction block (grid coordinate 1) is 0, the second where it is 15. -/

/-- The first branch's condition, as the kernel computes it from the contraction block. -/
abbrev atStart (i : grid1.Coords) : Prop :=
  Scalar.cmpi .ne (Scalar.extui (Scalar.cmpi .eq (BitVec.ofNat 32 (i 1).val) 0#32)) 0#32 = 1#1
/-- The second branch's condition. -/
abbrev atClose (i : grid1.Coords) : Prop := k1_cond2 i = 1#1

/-! ### The kernel on any whole buffers, by the path it takes

Stated with a continuation: from the nine buffers at their contents, and a proof that the buffers as the path leaves
them give `K`, the kernel runs to `K`. -/

/-- Contraction block 0: the scratch, whatever it held, is cleared and then takes the first product; the output
    buffer is not touched. -/
theorem run_start (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S64x64 .f32) (harg7 : arg7.IsWhole) (arg8 : Memref sig .tc .vmem S64 .f32) (harg8 : arg8.IsWhole) (arg9 : Memref sig .tc .vmem S2048x64 .f32) (harg9 : arg9.IsWhole) (arg10 : Memref sig .tc .vmem S2048x64 .f32) (harg10 : arg10.IsWhole)
    (h1 : atStart i) (h2 : ¬ atClose i) (a : Vec F S2048x1024 .f32) (fr : Vec F S2048x64 .f32) (dr : Vec F S2048x1 .f32) (fc : Vec F S1024x64 .f32) (dc : Vec F S1024x1 .f32)
    (wt : Vec F S64x64 .f32) (bs : Vec F S64 .f32) (o s : Vec F S2048x64 .f32) (K : PUnit → sProp 𝕄) :
    iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare s
        ∗ (iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare (k1_pay2 fc dc a (k1_pay1 (F := F)))) -∗ K ⟨⟩))
      ⊢ wp frame (wpE (defs₀ (F := F)) Variants.none c none) Set.univ (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, Hk⟩
  obtain rfl := harg2.eq_unread e2; obtain rfl := harg3.eq_unread e3; obtain rfl := harg4.eq_unread e4
  obtain rfl := harg5.eq_unread e5; obtain rfl := harg6.eq_unread e6; obtain rfl := harg7.eq_unread e7
  obtain rfl := harg8.eq_unread e8; obtain rfl := harg9.eq_unread e9; obtain rfl := harg10.eq_unread e10
  sl_exec (disch := first | exact h1 | exact h2)
  sl_step
  iapply Hk
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  isplitl [H6]; · iexists _; isplitr; · ipureintro; exact e6
                  iexact H6
  isplitl [H7]; · iexists _; isplitr; · ipureintro; exact e7
                  iexact H7
  isplitl [H8]; · iexists _; isplitr; · ipureintro; exact e8
                  iexact H8
  isplitl [H9]; · iexists _; isplitr; · ipureintro; exact e9
                  iexact H9
  iexists _; isplitr
  swap; · iexact H10
  ipureintro; sl_unfold_run_names
  rw [store_all _ _ zeros₂, load_all harg5 zeros₂, load_all harg6 zeros₂, load_all harg2 zeros₂, View.readCov_cons_toLoadRect]

/-- Contraction blocks 1 … 14: the scratch takes one more product; the output buffer is not touched. -/
theorem run_mid (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S64x64 .f32) (harg7 : arg7.IsWhole) (arg8 : Memref sig .tc .vmem S64 .f32) (harg8 : arg8.IsWhole) (arg9 : Memref sig .tc .vmem S2048x64 .f32) (harg9 : arg9.IsWhole) (arg10 : Memref sig .tc .vmem S2048x64 .f32) (harg10 : arg10.IsWhole)
    (h1 : ¬ atStart i) (h2 : ¬ atClose i) (a : Vec F S2048x1024 .f32) (fr : Vec F S2048x64 .f32) (dr : Vec F S2048x1 .f32) (fc : Vec F S1024x64 .f32) (dc : Vec F S1024x1 .f32)
    (wt : Vec F S64x64 .f32) (bs : Vec F S64 .f32) (o s : Vec F S2048x64 .f32) (K : PUnit → sProp 𝕄) :
    iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare s
        ∗ (iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare (k1_pay2 fc dc a s)) -∗ K ⟨⟩))
      ⊢ wp frame (wpE (defs₀ (F := F)) Variants.none c none) Set.univ (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, Hk⟩
  obtain rfl := harg2.eq_unread e2; obtain rfl := harg3.eq_unread e3; obtain rfl := harg4.eq_unread e4
  obtain rfl := harg5.eq_unread e5; obtain rfl := harg6.eq_unread e6; obtain rfl := harg7.eq_unread e7
  obtain rfl := harg8.eq_unread e8; obtain rfl := harg9.eq_unread e9; obtain rfl := harg10.eq_unread e10
  sl_exec (disch := first | exact h1 | exact h2)
  sl_step
  iapply Hk
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  isplitl [H6]; · iexists _; isplitr; · ipureintro; exact e6
                  iexact H6
  isplitl [H7]; · iexists _; isplitr; · ipureintro; exact e7
                  iexact H7
  isplitl [H8]; · iexists _; isplitr; · ipureintro; exact e8
                  iexact H8
  isplitl [H9]; · iexists _; isplitr; · ipureintro; exact e9
                  iexact H9
  iexists _; isplitr
  swap; · iexact H10
  ipureintro
  rw [store_all _ _ zeros₂, load_all harg5 zeros₂, load_all harg6 zeros₂, load_all harg2 zeros₂, load_all harg10 zeros₂]

/-- Contraction block 15: the scratch takes the last product, and the output buffer, whatever it held, the closing
    arithmetic on the finished scratch. -/
theorem run_close (c : Dev nD) (i : grid1.Coords) (arg2 : Memref sig .tc .vmem S2048x1024 .f32) (harg2 : arg2.IsWhole) (arg3 : Memref sig .tc .vmem S2048x64 .f32) (harg3 : arg3.IsWhole) (arg4 : Memref sig .tc .vmem S2048x1 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S64x64 .f32) (harg7 : arg7.IsWhole) (arg8 : Memref sig .tc .vmem S64 .f32) (harg8 : arg8.IsWhole) (arg9 : Memref sig .tc .vmem S2048x64 .f32) (harg9 : arg9.IsWhole) (arg10 : Memref sig .tc .vmem S2048x64 .f32) (harg10 : arg10.IsWhole)
    (h1 : ¬ atStart i) (h2 : atClose i) (a : Vec F S2048x1024 .f32) (fr : Vec F S2048x64 .f32) (dr : Vec F S2048x1 .f32) (fc : Vec F S1024x64 .f32) (dc : Vec F S1024x1 .f32)
    (wt : Vec F S64x64 .f32) (bs : Vec F S64 .f32) (o s : Vec F S2048x64 .f32) (K : PUnit → sProp 𝕄) :
    iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare o ∗ owns (c : Thread nD τ) arg10 fullShare s
        ∗ (iprop(owns (c : Thread nD τ) arg2 fullShare a ∗ owns (c : Thread nD τ) arg3 fullShare fr ∗ owns (c : Thread nD τ) arg4 fullShare dr
          ∗ owns (c : Thread nD τ) arg5 fullShare fc ∗ owns (c : Thread nD τ) arg6 fullShare dc ∗ owns (c : Thread nD τ) arg7 fullShare wt
          ∗ owns (c : Thread nD τ) arg8 fullShare bs ∗ owns (c : Thread nD τ) arg9 fullShare (k1_pay3 fr dr (k1_pay2 fc dc a s) dr wt bs) ∗ owns (c : Thread nD τ) arg10 fullShare (k1_pay2 fc dc a s)) -∗ K ⟨⟩))
      ⊢ wp frame (wpE (defs₀ (F := F)) Variants.none c none) Set.univ (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, Hk⟩
  obtain rfl := harg2.eq_unread e2; obtain rfl := harg3.eq_unread e3; obtain rfl := harg4.eq_unread e4
  obtain rfl := harg5.eq_unread e5; obtain rfl := harg6.eq_unread e6; obtain rfl := harg7.eq_unread e7
  obtain rfl := harg8.eq_unread e8; obtain rfl := harg9.eq_unread e9; obtain rfl := harg10.eq_unread e10
  sl_exec (disch := first | exact h1 | exact h2)
  sl_step
  iapply Hk
  isplitl [H2]; · iexists _; isplitr; · ipureintro; exact e2
                  iexact H2
  isplitl [H3]; · iexists _; isplitr; · ipureintro; exact e3
                  iexact H3
  isplitl [H4]; · iexists _; isplitr; · ipureintro; exact e4
                  iexact H4
  isplitl [H5]; · iexists _; isplitr; · ipureintro; exact e5
                  iexact H5
  isplitl [H6]; · iexists _; isplitr; · ipureintro; exact e6
                  iexact H6
  isplitl [H7]; · iexists _; isplitr; · ipureintro; exact e7
                  iexact H7
  isplitl [H8]; · iexists _; isplitr; · ipureintro; exact e8
                  iexact H8
  isplitl [H9]
  · iexists _; isplitr
    swap; · iexact H9
    ipureintro; sl_unfold_run_names
    rw [store_all _ _ zeros₂, load_all harg3 zeros₂, load_all harg4 zeros₂, load_all harg7 zeros₂, load_all harg8 zeros₁,
      View.readCov_cons_toLoadRect, load_all harg5 zeros₂, load_all harg6 zeros₂, load_all harg2 zeros₂, load_all harg10 zeros₂]
  iexists _; isplitr
  swap; · iexact H10
  ipureintro; sl_unfold_run_names
  rw [store_all _ _ zeros₂, load_all harg5 zeros₂, load_all harg6 zeros₂, load_all harg2 zeros₂, load_all harg10 zeros₂]

-- the TensorCore's buffer contents when the aggregation region is entered
variable (V : (c : Dev nD) → (b : Ref sig .tc) → Buf (Elt F) ((c : Thread nD τ).loc b))

/-! ### Which points take which path, and where the output window is idle

Point `t` is at contraction block `t % 16`. -/

theorem atStart_iff : ∀ t : Fin cfg1.N, atStart (cfg1.grid.coords t) ↔ t.val % 16 = 0 :=
  (by decide +kernel : ∀ t : Fin grid1.N, atStart (grid1.coords t) ↔ t.val % 16 = 0)

theorem atClose_iff : ∀ t : Fin cfg1.N, atClose (cfg1.grid.coords t) ↔ t.val % 16 = 15 :=
  (by decide +kernel : ∀ t : Fin grid1.N, atClose (grid1.coords t) ↔ t.val % 16 = 15)

/-- Off the last contraction block the output window is idle, -/
theorem out_idle {i : grid1.Coords} (h : ¬ atClose i) : cfg1.idle 7 i = true := by
  have hb : (k1_cond2 i == 1#1) = false := beq_eq_false_iff_ne.mpr h
  show (!(k1_cond2 i == 1#1)) = true
  rw [hb]; rfl

/-- at it, live; -/
theorem out_live {i : grid1.Coords} (h : atClose i) : cfg1.idle 7 i = false := by
  have hb : (k1_cond2 i == 1#1) = true := beq_iff_eq.mpr h
  show (!(k1_cond2 i == 1#1)) = false
  rw [hb]; rfl

/-- and off it the output's block is not written back. -/
theorem out_kept (t : Fin cfg1.N) (h : t.val % 16 ≠ 15) : (cfg1.win 7).flush t = false := by
  cases hf : (cfg1.win 7).flush t with
  | false => rfl
  | true => exact absurd ((flush1_7 t).mp hf) h

/-! ### The input windows hold their blocks, and the body leaves them there

The seven input windows are uncut and never idle, and the body stores into none of them: whether or not the point
fetches, the window's buffer holds the block of the window's array at the point. -/

theorem blockOf_eq (c : Dev nD) (w : Fin cfg1.W) (t : Fin cfg1.N) : (dat V c).blockOf w t = blk V c w t := by
  unfold Dat.blockOf blk; rw [dat_A]

theorem found0 (c : Dev nD) (t : Fin cfg1.N) (d) : (dat V c).before 0 t d = blk V c 0 t := by
  rw [(dat V c).before_in_eq_fetched 0 rfl (fun _ => rfl) (fun _ _ _ => rfl) (fun t => by rw [dat_after0, blockOf_eq]) t d]
  unfold Dat.fetched; rw [blockOf_eq]; rfl
theorem found1 (c : Dev nD) (t : Fin cfg1.N) (d) : (dat V c).before 1 t d = blk V c 1 t := by
  rw [(dat V c).before_in_eq_fetched 1 rfl (fun _ => rfl) (fun _ _ _ => rfl) (fun t => by rw [dat_after1, blockOf_eq]) t d]
  unfold Dat.fetched; rw [blockOf_eq]; rfl
theorem found2 (c : Dev nD) (t : Fin cfg1.N) (d) : (dat V c).before 2 t d = blk V c 2 t := by
  rw [(dat V c).before_in_eq_fetched 2 rfl (fun _ => rfl) (fun _ _ _ => rfl) (fun t => by rw [dat_after2, blockOf_eq]) t d]
  unfold Dat.fetched; rw [blockOf_eq]; rfl
theorem found3 (c : Dev nD) (t : Fin cfg1.N) (d) : (dat V c).before 3 t d = blk V c 3 t := by
  rw [(dat V c).before_in_eq_fetched 3 rfl (fun _ => rfl) (fun _ _ _ => rfl) (fun t => by rw [dat_after3, blockOf_eq]) t d]
  unfold Dat.fetched; rw [blockOf_eq]; rfl
theorem found4 (c : Dev nD) (t : Fin cfg1.N) (d) : (dat V c).before 4 t d = blk V c 4 t := by
  rw [(dat V c).before_in_eq_fetched 4 rfl (fun _ => rfl) (fun _ _ _ => rfl) (fun t => by rw [dat_after4, blockOf_eq]) t d]
  unfold Dat.fetched; rw [blockOf_eq]; rfl
theorem found5 (c : Dev nD) (t : Fin cfg1.N) (d) : (dat V c).before 5 t d = blk V c 5 t := by
  rw [(dat V c).before_in_eq_fetched 5 rfl (fun _ => rfl) (fun _ _ _ => rfl) (fun t => by rw [dat_after5, blockOf_eq]) t d]
  unfold Dat.fetched; rw [blockOf_eq]; rfl
theorem found6 (c : Dev nD) (t : Fin cfg1.N) (d) : (dat V c).before 6 t d = blk V c 6 t := by
  rw [(dat V c).before_in_eq_fetched 6 rfl (fun _ => rfl) (fun _ _ _ => rfl) (fun t => by rw [dat_after6, blockOf_eq]) t d]
  unfold Dat.fetched; rw [blockOf_eq]; rfl

theorem left0 (c : Dev nD) (t : Fin cfg1.N) :
    (dat V c).leavesExact 0 t = owns (c : Thread nD τ) (st1_0 t) fullShare (blk V c 0 t) := by
  unfold Dat.leavesExact; rw [dat_after0]
theorem left1 (c : Dev nD) (t : Fin cfg1.N) :
    (dat V c).leavesExact 1 t = owns (c : Thread nD τ) (st1_1 t) fullShare (blk V c 1 t) := by
  unfold Dat.leavesExact; rw [dat_after1]
theorem left2 (c : Dev nD) (t : Fin cfg1.N) :
    (dat V c).leavesExact 2 t = owns (c : Thread nD τ) (st1_2 t) fullShare (blk V c 2 t) := by
  unfold Dat.leavesExact; rw [dat_after2]
theorem left3 (c : Dev nD) (t : Fin cfg1.N) :
    (dat V c).leavesExact 3 t = owns (c : Thread nD τ) (st1_3 t) fullShare (blk V c 3 t) := by
  unfold Dat.leavesExact; rw [dat_after3]
theorem left4 (c : Dev nD) (t : Fin cfg1.N) :
    (dat V c).leavesExact 4 t = owns (c : Thread nD τ) (st1_4 t) fullShare (blk V c 4 t) := by
  unfold Dat.leavesExact; rw [dat_after4]
theorem left5 (c : Dev nD) (t : Fin cfg1.N) :
    (dat V c).leavesExact 5 t = owns (c : Thread nD τ) (st1_5 t) fullShare (blk V c 5 t) := by
  unfold Dat.leavesExact; rw [dat_after5]
theorem left6 (c : Dev nD) (t : Fin cfg1.N) :
    (dat V c).leavesExact 6 t = owns (c : Thread nD τ) (st1_6 t) fullShare (blk V c 6 t) := by
  unfold Dat.leavesExact; rw [dat_after6]

/-- At a closing point the output's buffer is left at the closed tile. -/
theorem left7 (c : Dev nD) (t : Fin cfg1.N) (h : atClose (cfg1.grid.coords t)) :
    (dat V c).leavesExact 7 t = owns (c : Thread nD τ) (st1_7 t) fullShare (closedTile V c t) := by
  unfold Dat.leavesExact; rw [out_live h, dat_after7]

/-! ### The invariant around a point -/

/-- After point `t`: the scratch at the running product there. -/
theorem inv_next (c : Dev nD) (t : Fin cfg1.N) :
    (dat V c).Φ t.succ = iprop(owns (c : Thread nD τ) (Memref.whole cc1_scratch0) fullShare (runningProduct V c t.val t.isLt)
      ∗ Pipeline.scopedRestBut (Ix := Unit) (Name := ℕ) (U := UR sig nD τ) (Lvl := ℕ) (Val := Elt F) spec1 c [cc1_scratch0]
      ∗ ∃ r, prngReg c r) := by
  rw [dat_Φ]; exact inv_succ V c t.val t.isLt

/-- Before a point that is not the first: the scratch at the running product of the point before. -/
theorem inv_here (c : Dev nD) (t : Fin cfg1.N) (hz : t.val ≠ 0) :
    (dat V c).Φ t.castSucc = iprop(owns (c : Thread nD τ) (Memref.whole cc1_scratch0) fullShare
        (runningProduct V c (t.val - 1) (Nat.lt_of_le_of_lt (Nat.sub_le _ _) t.isLt))
      ∗ Pipeline.scopedRestBut (Ix := Unit) (Name := ℕ) (U := UR sig nD τ) (Lvl := ℕ) (Val := Elt F) spec1 c [cc1_scratch0]
      ∗ ∃ r, prngReg c r) := by
  rw [dat_Φ]; exact inv_pos V c _ _ hz

/-- The scoped buffers the region is handed, the scratch set apart from the rest. -/
theorem scoped_open (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Before any point, the first included, the invariant holds the scratch at SOME contents beside the rest: at the
    first point the scratch is one of the scoped buffers the region was handed. -/
theorem inv_scratch (c : Dev nD) (t : Fin cfg1.N) :
    (dat V c).Φ t.castSucc ⊢ iprop((∃ s, owns (c : Thread nD τ) (Memref.whole cc1_scratch0) fullShare s)
      ∗ Pipeline.scopedRestBut (Ix := Unit) (Name := ℕ) (U := UR sig nD τ) (Lvl := ℕ) (Val := Elt F) spec1 c [cc1_scratch0]
      ∗ ∃ r, prngReg c r) := by
  by_cases hz : t.val = 0
  · rw [dat_Φ, inv_zero V c t.castSucc.val _ hz]
    unfold Pipeline.ΦA
    rw [scoped_open]
    simp only [owns_whole]
    iintro ⟨⟨Hs, Hrest⟩, Hg⟩
    isplitl [Hs]; · iexact Hs
    isplitl [Hrest]; · iexact Hrest
    iexact Hg
  · rw [inv_here V c t hz]
    iintro ⟨Hs, Hrest, Hg⟩
    isplitl [Hs]; · iexists _; iexact Hs
    isplitl [Hrest]; · iexact Hrest
    iexact Hg

/-! ### The body at a point -/

/-- What the body is handed at point `t`, the windows one by one, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it hands back. -/
def returned (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t ∗ (dat V c).leavesExact 7 t)

/-- The core owes nothing at any point. -/
theorem owes_next (c : Dev nD) (t : Fin cfg1.N) : (dat V c).owesAt () t.succ = (dat V c).owesAt () t.castSucc := rfl

/-- A point that begins a row block: the scratch, whatever the invariant holds it at, ends at the first product of the
    row block; the output's buffer goes back as it came. -/
theorem point_start (c : Dev nD) (t : Fin cfg1.N) (h0 : t.val % 16 = 0) :
    handed V c t ⊢ wp frame (wpE (defs₀ (F := F)) Variants.none c none) Set.univ (bodyAt1 t) (fun _ => returned V c t) := by
  have hS : atStart (cfg1.grid.coords t) := (atStart_iff t).mpr h0
  have hC : ¬ atClose (cfg1.grid.coords t) := fun h => by have := (atClose_iff t).mp h; omega
  unfold handed returned bodyAt1
  rw [Dat.leavesExact_idle (dat V c) 7 t (out_idle hC) (out_kept t (by omega))]
  rw [left0, left1, left2, left3, left4, left5, left6, inv_next, owes_next, runningProduct_first V c t h0]
  simp only [found0, found1, found2, found3, found4, found5, found6]
  refine (sep_mono (inv_scratch V c t) .rfl).trans ?_
  iintro ⟨⟨⟨%s, Hs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_start c (cfg1.grid.coords t) _ _ _ _ _ _ _ _ _ _ _ _ _ _ _ _ _ _ hS hC (blk V c 0 t) (blk V c 1 t) (blk V c 2 t) (blk V c 3 t) (blk V c 4 t) (blk V c 5 t) (blk V c 6 t) ((dat V c).before 7 t d7) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hrest Hg]
  · isplitl [Hs]; · iexact Hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- A point inside a row block: the scratch goes from the running product of the point before to this point's; the
    output's buffer goes back as it came. -/
theorem point_mid (c : Dev nD) (t : Fin cfg1.N) (h0 : t.val % 16 ≠ 0) (h15 : t.val % 16 ≠ 15) :
    handed V c t ⊢ wp frame (wpE (defs₀ (F := F)) Variants.none c none) Set.univ (bodyAt1 t) (fun _ => returned V c t) := by
  have hS : ¬ atStart (cfg1.grid.coords t) := fun h => h0 ((atStart_iff t).mp h)
  have hC : ¬ atClose (cfg1.grid.coords t) := fun h => h15 ((atClose_iff t).mp h)
  have hz : t.val ≠ 0 := fun h => h0 (by rw [h])
  unfold handed returned bodyAt1
  rw [Dat.leavesExact_idle (dat V c) 7 t (out_idle hC) (out_kept t h15)]
  rw [left0, left1, left2, left3, left4, left5, left6, inv_next, owes_next, runningProduct_later V c t h0, inv_here V c t hz]
  simp only [found0, found1, found2, found3, found4, found5, found6]
  iintro ⟨⟨Hs, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_mid c (cfg1.grid.coords t) _ _ _ _ _ _ _ _ _ _ _ _ _ _ _ _ _ _ hS hC (blk V c 0 t) (blk V c 1 t) (blk V c 2 t) (blk V c 3 t) (blk V c 4 t) (blk V c 5 t) (blk V c 6 t) ((dat V c).before 7 t d7) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hrest Hg]
  · isplitl [Hs]; · iexact Hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

/-- A point that closes a row block: the scratch takes the last product, and the output's buffer, whatever it held,
    the closed tile. -/
theorem point_close (c : Dev nD) (t : Fin cfg1.N) (h15 : t.val % 16 = 15) :
    handed V c t ⊢ wp frame (wpE (defs₀ (F := F)) Variants.none c none) Set.univ (bodyAt1 t) (fun _ => returned V c t) := by
  have h0 : t.val % 16 ≠ 0 := by omega
  have hS : ¬ atStart (cfg1.grid.coords t) := fun h => h0 ((atStart_iff t).mp h)
  have hC : atClose (cfg1.grid.coords t) := (atClose_iff t).mpr h15
  have hz : t.val ≠ 0 := fun h => h0 (by rw [h])
  unfold handed returned bodyAt1
  rw [left7 V c t hC]
  unfold closedTile
  rw [left0, left1, left2, left3, left4, left5, left6, inv_next, owes_next, runningProduct_later V c t h0, inv_here V c t hz]
  simp only [found0, found1, found2, found3, found4, found5, found6]
  iintro ⟨⟨Hs, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_close c (cfg1.grid.coords t) _ _ _ _ _ _ _ _ _ _ _ _ _ _ _ _ _ _ hS hC (blk V c 0 t) (blk V c 1 t) (blk V c 2 t) (blk V c 3 t) (blk V c 4 t) (blk V c 5 t) (blk V c 6 t) ((dat V c).before 7 t d7) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hrest Hg]
  · isplitl [Hs]; · iexact Hs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point, by the contraction block the point is at. -/
theorem sound_body (c : Dev nD) (t : Fin cfg1.N) : handed V c t ⊢ wp frame (wpE (defs₀ (F := F)) Variants.none c none) Set.univ (bodyAt1 t) (fun _ => returned V c t) := by
  by_cases h0 : t.val % 16 = 0
  · exact point_start V c t h0
  · by_cases h15 : t.val % 16 = 15
    · exact point_close V c t h15
    · exact point_mid V c t h0 h15

/-- The body's obligation at every grid point. -/
theorem body_obligation (c : Dev nD) :
    BodyObligation (dat (F := F) V c) (defs₀ (F := F)) Variants.none () Set.univ := fun t => by
  rw [bigSep_W1, bigSep_W1]
  exact sound_body V c t

end Cert.Kernel.Aggregate

end
-- ==== Proof.lean ====
/-
  The certificate's five claims for the graph-convolution layer  max ((D⁻¹ (A + I) D⁻¹ X) W + b, 0),  D the column sums of A + I.

  The kernel is two pipelined regions around seven host operations: a column-sum region (a row buffer accumulated over
  eight row blocks per column block), the host's 1 / (sums + 1) reshaped to a column, and an aggregation region (a
  scratch accumulating A · (X · d) over sixteen contraction blocks per row block, closed by the scaling, the weight, the
  bias and the clamp). The reference does the same with whole-array operations.

  Frames: the run of the whole program (every unscoped buffer at a known valuation between items, each region's arrays
  split out at entry and put back at exit) ends with each argument's buffer as launched — for the word-level kernel and
  for its idealization, the same text at the two instances. The reference's frame is its generated run.
  Preserves: the idealization rewrote nothing.
  Algebraic: on the extended reals the kernel's result is the layer of the launch arrays entry by entry (column sums
  over 8 blocks of 2048 rows are the sums over 16384 rows; the scratch's sums over 16 blocks of 1024 columns are the sums
  over 16384 columns; a matrix product into the zero accumulator is the plain sum; format changes are the identity),
  and so is the reference's last stage; only commutativity and associativity of + and · are used, so the precondition is
  not opened.
-/
import proofs.«104186_j20401094656620_1_alg».proof.Defs
import proofs.«104186_j20401094656620_1_alg».proof.Proof.Gen.Kernel
import proofs.«104186_j20401094656620_1_alg».proof.Proof.Gen.KernelIdeal
import proofs.«104186_j20401094656620_1_alg».proof.Proof.Gen.ReferenceIdeal
import proofs.«104186_j20401094656620_1_alg».proof.Proof.Gen.Pre_finite_inputs
import proofs.«104186_j20401094656620_1_alg».proof.Proof.Gen.ReferenceIdeal.Run
import proofs.«104186_j20401094656620_1_alg».proof.Proof.Gen.ReferenceIdeal.Read
import proofs.«104186_j20401094656620_1_alg».proof.Proof.Ends
import proofs.«104186_j20401094656620_1_alg».proof.Proof.ColSumBody
import proofs.«104186_j20401094656620_1_alg».proof.Proof.AggregateBody
import proofs.«104186_j20401094656620_1_alg».proof.Proof.Result
import proofs.«104186_j20401094656620_1_alg».proof.Proof.RefValue
import proofs.«104186_j20401094656620_1_alg».proof.Proof.Bits.Ends
import proofs.«104186_j20401094656620_1_alg».proof.Proof.Bits.ColSumBody
import proofs.«104186_j20401094656620_1_alg».proof.Proof.Bits.AggregateBody
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2)
    (Cert.Kernel.Run.run_ends (F := Bits) m ρ (Cert.Kernel.ColSum.body_obligation _) (Cert.Kernel.Aggregate.body_obligation _))

/-- The idealized kernel runs and leaves its arguments as launched. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2)
    (Cert.KernelIdeal.Run.run_ends (F := Ideal) m ρ (Cert.KernelIdeal.ColSum.body_obligation _) (Cert.KernelIdeal.Aggregate.body_obligation _))

/-- The reference runs and leaves its arguments as launched: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the layer of the argument arrays, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Aggregate.dat (F := Ideal) (Cert.KernelIdeal.Run.E2 m ρ) c).arrAt 7 Cert.KernelIdeal.cfg1.N,
    Cert.KernelIdeal.Run.run_ends (F := Ideal) m ρ (Cert.KernelIdeal.ColSum.body_obligation _) (Cert.KernelIdeal.Aggregate.body_obligation _), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v17_eq]
  funext idx
  obtain ⟨r, e, rfl⟩ : ∃ (r : Fin 16384) (e : Fin 64), idx = ix2 r e := ⟨idx 0, idx 1, eq_ix2 idx⟩
  exact (Cert.ReferenceIdeal.RefValue.reference_entry _ _ _ _ r e).trans (Cert.KernelIdeal.Run.result_layer m ρ c r e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
